-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S256x512 : Shape := ⟨2, ![256, 512]⟩
abbrev S8 : Shape := ⟨1, ![8]⟩
abbrev S_ : Shape := ⟨0, ![]⟩
abbrev S32x512 : Shape := ⟨2, ![32, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .local _ .vmem, ⟨0, _⟩ => ⟨S512x512, .f32⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_11 : BitVec 32 := 0#32
  let v17 : BitVec 1 := Scalar.cmpi .eq v5 c0_i32_11
  let v18 : BitVec 32 := Scalar.extui v17
  let c0_i32_12 : BitVec 32 := 0#32
  let v19 : BitVec 1 := Scalar.cmpi .ne v18 c0_i32_12
  v19

def k0_dev3 (d0 : Dev nD) : Nat :=
  let c0_i32_23 : BitVec 32 := 0#32
  let c1_i32_19 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v29 : BitVec 32 := Scalar.subi c1_i32_19 v2
  let c2_i32_22 : BitVec 32 := 2#32
  let v30 : BitVec 32 := Scalar.muli v29 c2_i32_22
  let v31 : BitVec 32 := Scalar.addi c0_i32_23 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v32 : BitVec 32 := Scalar.muli v5 c1_i32_24
  let v33 : BitVec 32 := Scalar.addi v31 v32
  v33.toNat
def k0_dev4 (d0 : Dev nD) : Nat :=
  let c0_i32_36 : BitVec 32 := 0#32
  let c1_i32_32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v46 : BitVec 32 := Scalar.subi c1_i32_32 v2
  let c2_i32_35 : BitVec 32 := 2#32
  let v47 : BitVec 32 := Scalar.muli v46 c2_i32_35
  let v48 : BitVec 32 := Scalar.addi c0_i32_36 v47
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v49 : BitVec 32 := Scalar.muli v5 c1_i32_37
  let v50 : BitVec 32 := Scalar.addi v48 v49
  v50.toNat
def k0_dev5 (d0 : Dev nD) : Nat :=
  let c0_i32_48 : BitVec 32 := 0#32
  let c1_i32_44 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v63 : BitVec 32 := Scalar.subi c1_i32_44 v2
  let c2_i32_47 : BitVec 32 := 2#32
  let v64 : BitVec 32 := Scalar.muli v63 c2_i32_47
  let v65 : BitVec 32 := Scalar.addi c0_i32_48 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v66 : BitVec 32 := Scalar.muli v5 c1_i32_49
  let v67 : BitVec 32 := Scalar.addi v65 v66
  v67.toNat
def k0_dev6 (d0 : Dev nD) : Nat :=
  let c0_i32_59 : BitVec 32 := 0#32
  let c1_i32_56 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v80 : BitVec 32 := Scalar.subi c1_i32_56 v2
  let c2_i32_58 : BitVec 32 := 2#32
  let v81 : BitVec 32 := Scalar.muli v80 c2_i32_58
  let v82 : BitVec 32 := Scalar.addi c0_i32_59 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v83 : BitVec 32 := Scalar.muli v5 c1_i32_60
  let v84 : BitVec 32 := Scalar.addi v82 v83
  v84.toNat
def k0_dev7 (d0 : Dev nD) : Nat :=
  let c0_i32_70 : BitVec 32 := 0#32
  let c1_i32_67 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v97 : BitVec 32 := Scalar.subi c1_i32_67 v2
  let c2_i32_69 : BitVec 32 := 2#32
  let v98 : BitVec 32 := Scalar.muli v97 c2_i32_69
  let v99 : BitVec 32 := Scalar.addi c0_i32_70 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v100 : BitVec 32 := Scalar.muli v5 c1_i32_71
  let v101 : BitVec 32 := Scalar.addi v99 v100
  v101.toNat
def k0_dev8 (d0 : Dev nD) : Nat :=
  let c0_i32_81 : BitVec 32 := 0#32
  let c1_i32_78 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v114 : BitVec 32 := Scalar.subi c1_i32_78 v2
  let c2_i32_80 : BitVec 32 := 2#32
  let v115 : BitVec 32 := Scalar.muli v114 c2_i32_80
  let v116 : BitVec 32 := Scalar.addi c0_i32_81 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_82 : BitVec 32 := 1#32
  let v117 : BitVec 32 := Scalar.muli v5 c1_i32_82
  let v118 : BitVec 32 := Scalar.addi v116 v117
  v118.toNat
def k0_dev9 (d0 : Dev nD) : Nat :=
  let c0_i32_92 : BitVec 32 := 0#32
  let c1_i32_89 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v131 : BitVec 32 := Scalar.subi c1_i32_89 v2
  let c2_i32_91 : BitVec 32 := 2#32
  let v132 : BitVec 32 := Scalar.muli v131 c2_i32_91
  let v133 : BitVec 32 := Scalar.addi c0_i32_92 v132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v134 : BitVec 32 := Scalar.muli v5 c1_i32_93
  let v135 : BitVec 32 := Scalar.addi v133 v134
  v135.toNat
def k0_dev10 (d0 : Dev nD) : Nat :=
  let c0_i32_103 : BitVec 32 := 0#32
  let c1_i32_100 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v148 : BitVec 32 := Scalar.subi c1_i32_100 v2
  let c2_i32_102 : BitVec 32 := 2#32
  let v149 : BitVec 32 := Scalar.muli v148 c2_i32_102
  let v150 : BitVec 32 := Scalar.addi c0_i32_103 v149
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_104 : BitVec 32 := 1#32
  let v151 : BitVec 32 := Scalar.muli v5 c1_i32_104
  let v152 : BitVec 32 := Scalar.addi v150 v151
  v152.toNat
def k0_dev11 (d0 : Dev nD) : Nat :=
  let c0_i32_127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_126 : BitVec 32 := 2#32
  let v172 : BitVec 32 := Scalar.muli v2 c2_i32_126
  let v173 : BitVec 32 := Scalar.addi c0_i32_127 v172
  let c1_i32_123 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v171 : BitVec 32 := Scalar.subi c1_i32_123 v5
  let c1_i32_128 : BitVec 32 := 1#32
  let v174 : BitVec 32 := Scalar.muli v171 c1_i32_128
  let v175 : BitVec 32 := Scalar.addi v173 v174
  v175.toNat
def k0_dev12 (d0 : Dev nD) : Nat :=
  let c0_i32_152 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_151 : BitVec 32 := 2#32
  let v195 : BitVec 32 := Scalar.muli v2 c2_i32_151
  let v196 : BitVec 32 := Scalar.addi c0_i32_152 v195
  let c1_i32_148 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v194 : BitVec 32 := Scalar.subi c1_i32_148 v5
  let c1_i32_153 : BitVec 32 := 1#32
  let v197 : BitVec 32 := Scalar.muli v194 c1_i32_153
  let v198 : BitVec 32 := Scalar.addi v196 v197
  v198.toNat
def k0_dev13 (d0 : Dev nD) : Nat :=
  let c0_i32_177 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_176 : BitVec 32 := 2#32
  let v218 : BitVec 32 := Scalar.muli v2 c2_i32_176
  let v219 : BitVec 32 := Scalar.addi c0_i32_177 v218
  let c1_i32_173 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v217 : BitVec 32 := Scalar.subi c1_i32_173 v5
  let c1_i32_178 : BitVec 32 := 1#32
  let v220 : BitVec 32 := Scalar.muli v217 c1_i32_178
  let v221 : BitVec 32 := Scalar.addi v219 v220
  v221.toNat
def k0_dev14 (d0 : Dev nD) : Nat :=
  let c0_i32_202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_201 : BitVec 32 := 2#32
  let v241 : BitVec 32 := Scalar.muli v2 c2_i32_201
  let v242 : BitVec 32 := Scalar.addi c0_i32_202 v241
  let c1_i32_198 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v240 : BitVec 32 := Scalar.subi c1_i32_198 v5
  let c1_i32_203 : BitVec 32 := 1#32
  let v243 : BitVec 32 := Scalar.muli v240 c1_i32_203
  let v244 : BitVec 32 := Scalar.addi v242 v243
  v244.toNat
def k0_dev15 (d0 : Dev nD) : Nat :=
  let c0_i32_227 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_226 : BitVec 32 := 2#32
  let v264 : BitVec 32 := Scalar.muli v2 c2_i32_226
  let v265 : BitVec 32 := Scalar.addi c0_i32_227 v264
  let c1_i32_223 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v263 : BitVec 32 := Scalar.subi c1_i32_223 v5
  let c1_i32_228 : BitVec 32 := 1#32
  let v266 : BitVec 32 := Scalar.muli v263 c1_i32_228
  let v267 : BitVec 32 := Scalar.addi v265 v266
  v267.toNat
def k0_dev16 (d0 : Dev nD) : Nat :=
  let c0_i32_252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_251 : BitVec 32 := 2#32
  let v287 : BitVec 32 := Scalar.muli v2 c2_i32_251
  let v288 : BitVec 32 := Scalar.addi c0_i32_252 v287
  let c1_i32_248 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v286 : BitVec 32 := Scalar.subi c1_i32_248 v5
  let c1_i32_253 : BitVec 32 := 1#32
  let v289 : BitVec 32 := Scalar.muli v286 c1_i32_253
  let v290 : BitVec 32 := Scalar.addi v288 v289
  v290.toNat
def k0_dev17 (d0 : Dev nD) : Nat :=
  let c0_i32_277 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_276 : BitVec 32 := 2#32
  let v310 : BitVec 32 := Scalar.muli v2 c2_i32_276
  let v311 : BitVec 32 := Scalar.addi c0_i32_277 v310
  let c1_i32_273 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v309 : BitVec 32 := Scalar.subi c1_i32_273 v5
  let c1_i32_278 : BitVec 32 := 1#32
  let v312 : BitVec 32 := Scalar.muli v309 c1_i32_278
  let v313 : BitVec 32 := Scalar.addi v311 v312
  v313.toNat
def k0_dev18 (d0 : Dev nD) : Nat :=
  let c0_i32_302 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_301 : BitVec 32 := 2#32
  let v333 : BitVec 32 := Scalar.muli v2 c2_i32_301
  let v334 : BitVec 32 := Scalar.addi c0_i32_302 v333
  let c1_i32_298 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v332 : BitVec 32 := Scalar.subi c1_i32_298 v5
  let c1_i32_303 : BitVec 32 := 1#32
  let v335 : BitVec 32 := Scalar.muli v332 c1_i32_303
  let v336 : BitVec 32 := Scalar.addi v334 v335
  v336.toNat
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v20 : BitVec 1 := Scalar.cmpi .eq v5 c1_i32_13
  let v21 : BitVec 32 := Scalar.extui v20
  let c0_i32_14 : BitVec 32 := 0#32
  let v22 : BitVec 1 := Scalar.cmpi .ne v21 c0_i32_14
  v22

def k0_dev19 (d0 : Dev nD) : Nat :=
  let c0_i32_22 : BitVec 32 := 0#32
  let c1_i32_18 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v29 : BitVec 32 := Scalar.subi c1_i32_18 v2
  let c2_i32_21 : BitVec 32 := 2#32
  let v30 : BitVec 32 := Scalar.muli v29 c2_i32_21
  let v31 : BitVec 32 := Scalar.addi c0_i32_22 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v32 : BitVec 32 := Scalar.muli v5 c1_i32_23
  let v33 : BitVec 32 := Scalar.addi v31 v32
  v33.toNat
def k0_dev20 (d0 : Dev nD) : Nat :=
  let c0_i32_34 : BitVec 32 := 0#32
  let c1_i32_30 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v46 : BitVec 32 := Scalar.subi c1_i32_30 v2
  let c2_i32_33 : BitVec 32 := 2#32
  let v47 : BitVec 32 := Scalar.muli v46 c2_i32_33
  let v48 : BitVec 32 := Scalar.addi c0_i32_34 v47
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v49 : BitVec 32 := Scalar.muli v5 c1_i32_35
  let v50 : BitVec 32 := Scalar.addi v48 v49
  v50.toNat
def k0_dev21 (d0 : Dev nD) : Nat :=
  let c0_i32_45 : BitVec 32 := 0#32
  let c1_i32_41 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v63 : BitVec 32 := Scalar.subi c1_i32_41 v2
  let c2_i32_44 : BitVec 32 := 2#32
  let v64 : BitVec 32 := Scalar.muli v63 c2_i32_44
  let v65 : BitVec 32 := Scalar.addi c0_i32_45 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v66 : BitVec 32 := Scalar.muli v5 c1_i32_46
  let v67 : BitVec 32 := Scalar.addi v65 v66
  v67.toNat
def k0_dev22 (d0 : Dev nD) : Nat :=
  let c0_i32_55 : BitVec 32 := 0#32
  let c1_i32_52 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v80 : BitVec 32 := Scalar.subi c1_i32_52 v2
  let c2_i32_54 : BitVec 32 := 2#32
  let v81 : BitVec 32 := Scalar.muli v80 c2_i32_54
  let v82 : BitVec 32 := Scalar.addi c0_i32_55 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v83 : BitVec 32 := Scalar.muli v5 c1_i32_56
  let v84 : BitVec 32 := Scalar.addi v82 v83
  v84.toNat
def k0_dev23 (d0 : Dev nD) : Nat :=
  let c0_i32_65 : BitVec 32 := 0#32
  let c1_i32_62 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v97 : BitVec 32 := Scalar.subi c1_i32_62 v2
  let c2_i32_64 : BitVec 32 := 2#32
  let v98 : BitVec 32 := Scalar.muli v97 c2_i32_64
  let v99 : BitVec 32 := Scalar.addi c0_i32_65 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v100 : BitVec 32 := Scalar.muli v5 c1_i32_66
  let v101 : BitVec 32 := Scalar.addi v99 v100
  v101.toNat
def k0_dev24 (d0 : Dev nD) : Nat :=
  let c0_i32_75 : BitVec 32 := 0#32
  let c1_i32_72 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v114 : BitVec 32 := Scalar.subi c1_i32_72 v2
  let c2_i32_74 : BitVec 32 := 2#32
  let v115 : BitVec 32 := Scalar.muli v114 c2_i32_74
  let v116 : BitVec 32 := Scalar.addi c0_i32_75 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v117 : BitVec 32 := Scalar.muli v5 c1_i32_76
  let v118 : BitVec 32 := Scalar.addi v116 v117
  v118.toNat
def k0_dev25 (d0 : Dev nD) : Nat :=
  let c0_i32_85 : BitVec 32 := 0#32
  let c1_i32_82 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v131 : BitVec 32 := Scalar.subi c1_i32_82 v2
  let c2_i32_84 : BitVec 32 := 2#32
  let v132 : BitVec 32 := Scalar.muli v131 c2_i32_84
  let v133 : BitVec 32 := Scalar.addi c0_i32_85 v132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v134 : BitVec 32 := Scalar.muli v5 c1_i32_86
  let v135 : BitVec 32 := Scalar.addi v133 v134
  v135.toNat
def k0_dev26 (d0 : Dev nD) : Nat :=
  let c0_i32_95 : BitVec 32 := 0#32
  let c1_i32_92 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v148 : BitVec 32 := Scalar.subi c1_i32_92 v2
  let c2_i32_94 : BitVec 32 := 2#32
  let v149 : BitVec 32 := Scalar.muli v148 c2_i32_94
  let v150 : BitVec 32 := Scalar.addi c0_i32_95 v149
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_96 : BitVec 32 := 1#32
  let v151 : BitVec 32 := Scalar.muli v5 c1_i32_96
  let v152 : BitVec 32 := Scalar.addi v150 v151
  v152.toNat
def k0_dev27 (d0 : Dev nD) : Nat :=
  let c0_i32_119 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_118 : BitVec 32 := 2#32
  let v172 : BitVec 32 := Scalar.muli v2 c2_i32_118
  let v173 : BitVec 32 := Scalar.addi c0_i32_119 v172
  let c1_i32_115 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v171 : BitVec 32 := Scalar.subi c1_i32_115 v5
  let c1_i32_120 : BitVec 32 := 1#32
  let v174 : BitVec 32 := Scalar.muli v171 c1_i32_120
  let v175 : BitVec 32 := Scalar.addi v173 v174
  v175.toNat
def k0_dev28 (d0 : Dev nD) : Nat :=
  let c0_i32_143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_142 : BitVec 32 := 2#32
  let v195 : BitVec 32 := Scalar.muli v2 c2_i32_142
  let v196 : BitVec 32 := Scalar.addi c0_i32_143 v195
  let c1_i32_139 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v194 : BitVec 32 := Scalar.subi c1_i32_139 v5
  let c1_i32_144 : BitVec 32 := 1#32
  let v197 : BitVec 32 := Scalar.muli v194 c1_i32_144
  let v198 : BitVec 32 := Scalar.addi v196 v197
  v198.toNat
def k0_dev29 (d0 : Dev nD) : Nat :=
  let c0_i32_167 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_166 : BitVec 32 := 2#32
  let v218 : BitVec 32 := Scalar.muli v2 c2_i32_166
  let v219 : BitVec 32 := Scalar.addi c0_i32_167 v218
  let c1_i32_163 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v217 : BitVec 32 := Scalar.subi c1_i32_163 v5
  let c1_i32_168 : BitVec 32 := 1#32
  let v220 : BitVec 32 := Scalar.muli v217 c1_i32_168
  let v221 : BitVec 32 := Scalar.addi v219 v220
  v221.toNat
def k0_dev30 (d0 : Dev nD) : Nat :=
  let c0_i32_191 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_190 : BitVec 32 := 2#32
  let v241 : BitVec 32 := Scalar.muli v2 c2_i32_190
  let v242 : BitVec 32 := Scalar.addi c0_i32_191 v241
  let c1_i32_187 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v240 : BitVec 32 := Scalar.subi c1_i32_187 v5
  let c1_i32_192 : BitVec 32 := 1#32
  let v243 : BitVec 32 := Scalar.muli v240 c1_i32_192
  let v244 : BitVec 32 := Scalar.addi v242 v243
  v244.toNat
def k0_dev31 (d0 : Dev nD) : Nat :=
  let c0_i32_215 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_214 : BitVec 32 := 2#32
  let v264 : BitVec 32 := Scalar.muli v2 c2_i32_214
  let v265 : BitVec 32 := Scalar.addi c0_i32_215 v264
  let c1_i32_211 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v263 : BitVec 32 := Scalar.subi c1_i32_211 v5
  let c1_i32_216 : BitVec 32 := 1#32
  let v266 : BitVec 32 := Scalar.muli v263 c1_i32_216
  let v267 : BitVec 32 := Scalar.addi v265 v266
  v267.toNat
def k0_dev32 (d0 : Dev nD) : Nat :=
  let c0_i32_239 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_238 : BitVec 32 := 2#32
  let v287 : BitVec 32 := Scalar.muli v2 c2_i32_238
  let v288 : BitVec 32 := Scalar.addi c0_i32_239 v287
  let c1_i32_235 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v286 : BitVec 32 := Scalar.subi c1_i32_235 v5
  let c1_i32_240 : BitVec 32 := 1#32
  let v289 : BitVec 32 := Scalar.muli v286 c1_i32_240
  let v290 : BitVec 32 := Scalar.addi v288 v289
  v290.toNat
def k0_dev33 (d0 : Dev nD) : Nat :=
  let c0_i32_263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_262 : BitVec 32 := 2#32
  let v310 : BitVec 32 := Scalar.muli v2 c2_i32_262
  let v311 : BitVec 32 := Scalar.addi c0_i32_263 v310
  let c1_i32_259 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v309 : BitVec 32 := Scalar.subi c1_i32_259 v5
  let c1_i32_264 : BitVec 32 := 1#32
  let v312 : BitVec 32 := Scalar.muli v309 c1_i32_264
  let v313 : BitVec 32 := Scalar.addi v311 v312
  v313.toNat
def k0_dev34 (d0 : Dev nD) : Nat :=
  let c0_i32_287 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_286 : BitVec 32 := 2#32
  let v333 : BitVec 32 := Scalar.muli v2 c2_i32_286
  let v334 : BitVec 32 := Scalar.addi c0_i32_287 v333
  let c1_i32_283 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v332 : BitVec 32 := Scalar.subi c1_i32_283 v5
  let c1_i32_288 : BitVec 32 := 1#32
  let v335 : BitVec 32 := Scalar.muli v332 c1_i32_288
  let v336 : BitVec 32 := Scalar.addi v334 v335
  v336.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x512_S32x512_0_0 : ∀ a, (![0, 0] : Fin 2 → Nat) a + S32x512.size a ≤ S512x512.size a
  h_S32x512 : 0 < S32x512.numel
  shapeCasts_S32x512_S32x512 : S32x512.ShapeCasts S32x512
  bitsLt_bf16_f32 : FTy.bits .bf16 < FTy.bits .f32
  inb_S256x512_S32x512_0_0 : ∀ a, (![0, 0] : Fin 2 → Nat) a + S32x512.size a ≤ S256x512.size a
  packedbf16_S256x512_S32x512_0_0 : (Rect.unit (s := S256x512) ![0, 0] S32x512.size inb_S256x512_S32x512_0_0).PackedRows (EltTy.packing .bf16)
  hamt_2 : (2#32 : BitVec 32).msb = false
  inb_S8_S1_0 : ∀ a, (![0] : Fin 1 → Nat) a + S1.size a ≤ S8.size a
  squeezes_S1_S_ : S1.Squeezes S_
  wordsbf16_S256x512_S32x512_0_0 : (Rect.unit (s := S256x512) ![0, 0] S32x512.size inb_S256x512_S32x512_0_0).WholeWords (EltTy.packing .bf16)
  inb_S512x512_S32x512_32_0 : ∀ a, (![32, 0] : Fin 2 → Nat) a + S32x512.size a ≤ S512x512.size a
  inb_S256x512_S32x512_32_0 : ∀ a, (![32, 0] : Fin 2 → Nat) a + S32x512.size a ≤ S256x512.size a
  packedbf16_S256x512_S32x512_32_0 : (Rect.unit (s := S256x512) ![32, 0] S32x512.size inb_S256x512_S32x512_32_0).PackedRows (EltTy.packing .bf16)
  inb_S8_S1_1 : ∀ a, (![1] : Fin 1 → Nat) a + S1.size a ≤ S8.size a
  wordsbf16_S256x512_S32x512_32_0 : (Rect.unit (s := S256x512) ![32, 0] S32x512.size inb_S256x512_S32x512_32_0).WholeWords (EltTy.packing .bf16)
  inb_S512x512_S32x512_64_0 : ∀ a, (![64, 0] : Fin 2 → Nat) a + S32x512.size a ≤ S512x512.size a
  inb_S256x512_S32x512_64_0 : ∀ a, (![64, 0] : Fin 2 → Nat) a + S32x512.size a ≤ S256x512.size a
  packedbf16_S256x512_S32x512_64_0 : (Rect.unit (s := S256x512) ![64, 0] S32x512.size inb_S256x512_S32x512_64_0).PackedRows (EltTy.packing .bf16)
  inb_S8_S1_2 : ∀ a, (![2] : Fin 1 → Nat) a + S1.size a ≤ S8.size a
  wordsbf16_S256x512_S32x512_64_0 : (Rect.unit (s := S256x512) ![64, 0] S32x512.size inb_S256x512_S32x512_64_0).WholeWords (EltTy.packing .bf16)
  inb_S512x512_S32x512_96_0 : ∀ a, (![96, 0] : Fin 2 → Nat) a + S32x512.size a ≤ S512x512.size a
  inb_S256x512_S32x512_96_0 : ∀ a, (![96, 0] : Fin 2 → Nat) a + S32x512.size a ≤ S256x512.size a
  packedbf16_S256x512_S32x512_96_0 : (Rect.unit (s := S256x512) ![96, 0] S32x512.size inb_S256x512_S32x512_96_0).PackedRows (EltTy.packing .bf16)
  inb_S8_S1_3 : ∀ a, (![3] : Fin 1 → Nat) a + S1.size a ≤ S8.size a
  wordsbf16_S256x512_S32x512_96_0 : (Rect.unit (s := S256x512) ![96, 0] S32x512.size inb_S256x512_S32x512_96_0).WholeWords (EltTy.packing .bf16)
  inb_S512x512_S32x512_128_0 : ∀ a, (![128, 0] : Fin 2 → Nat) a + S32x512.size a ≤ S512x512.size a
  inb_S256x512_S32x512_128_0 : ∀ a, (![128, 0] : Fin 2 → Nat) a + S32x512.size a ≤ S256x512.size a
  packedbf16_S256x512_S32x512_128_0 : (Rect.unit (s := S256x512) ![128, 0] S32x512.size inb_S256x512_S32x512_128_0).PackedRows (EltTy.packing .bf16)
  inb_S8_S1_4 : ∀ a, (![4] : Fin 1 → Nat) a + S1.size a ≤ S8.size a
  wordsbf16_S256x512_S32x512_128_0 : (Rect.unit (s := S256x512) ![128, 0] S32x512.size inb_S256x512_S32x512_128_0).WholeWords (EltTy.packing .bf16)
  inb_S512x512_S32x512_160_0 : ∀ a, (![160, 0] : Fin 2 → Nat) a + S32x512.size a ≤ S512x512.size a
  inb_S256x512_S32x512_160_0 : ∀ a, (![160, 0] : Fin 2 → Nat) a + S32x512.size a ≤ S256x512.size a
  packedbf16_S256x512_S32x512_160_0 : (Rect.unit (s := S256x512) ![160, 0] S32x512.size inb_S256x512_S32x512_160_0).PackedRows (EltTy.packing .bf16)
  inb_S8_S1_5 : ∀ a, (![5] : Fin 1 → Nat) a + S1.size a ≤ S8.size a
  wordsbf16_S256x512_S32x512_160_0 : (Rect.unit (s := S256x512) ![160, 0] S32x512.size inb_S256x512_S32x512_160_0).WholeWords (EltTy.packing .bf16)
  inb_S512x512_S32x512_192_0 : ∀ a, (![192, 0] : Fin 2 → Nat) a + S32x512.size a ≤ S512x512.size a
  inb_S256x512_S32x512_192_0 : ∀ a, (![192, 0] : Fin 2 → Nat) a + S32x512.size a ≤ S256x512.size a
  packedbf16_S256x512_S32x512_192_0 : (Rect.unit (s := S256x512) ![192, 0] S32x512.size inb_S256x512_S32x512_192_0).PackedRows (EltTy.packing .bf16)
  inb_S8_S1_6 : ∀ a, (![6] : Fin 1 → Nat) a + S1.size a ≤ S8.size a
  wordsbf16_S256x512_S32x512_192_0 : (Rect.unit (s := S256x512) ![192, 0] S32x512.size inb_S256x512_S32x512_192_0).WholeWords (EltTy.packing .bf16)
  inb_S512x512_S32x512_224_0 : ∀ a, (![224, 0] : Fin 2 → Nat) a + S32x512.size a ≤ S512x512.size a
  inb_S256x512_S32x512_224_0 : ∀ a, (![224, 0] : Fin 2 → Nat) a + S32x512.size a ≤ S256x512.size a
  packedbf16_S256x512_S32x512_224_0 : (Rect.unit (s := S256x512) ![224, 0] S32x512.size inb_S256x512_S32x512_224_0).PackedRows (EltTy.packing .bf16)
  inb_S8_S1_7 : ∀ a, (![7] : Fin 1 → Nat) a + S1.size a ≤ S8.size a
  wordsbf16_S256x512_S32x512_224_0 : (Rect.unit (s := S256x512) ![224, 0] S32x512.size inb_S256x512_S32x512_224_0).WholeWords (EltTy.packing .bf16)
  packedbf16_S512x512_S32x512_0_0 : (Rect.unit (s := S512x512) ![0, 0] S32x512.size inb_S512x512_S32x512_0_0).PackedRows (EltTy.packing .bf16)
  wordsbf16_S512x512_S32x512_0_0 : (Rect.unit (s := S512x512) ![0, 0] S32x512.size inb_S512x512_S32x512_0_0).WholeWords (EltTy.packing .bf16)
  packedbf16_S512x512_S32x512_32_0 : (Rect.unit (s := S512x512) ![32, 0] S32x512.size inb_S512x512_S32x512_32_0).PackedRows (EltTy.packing .bf16)
  wordsbf16_S512x512_S32x512_32_0 : (Rect.unit (s := S512x512) ![32, 0] S32x512.size inb_S512x512_S32x512_32_0).WholeWords (EltTy.packing .bf16)
  packedbf16_S512x512_S32x512_64_0 : (Rect.unit (s := S512x512) ![64, 0] S32x512.size inb_S512x512_S32x512_64_0).PackedRows (EltTy.packing .bf16)
  wordsbf16_S512x512_S32x512_64_0 : (Rect.unit (s := S512x512) ![64, 0] S32x512.size inb_S512x512_S32x512_64_0).WholeWords (EltTy.packing .bf16)
  packedbf16_S512x512_S32x512_96_0 : (Rect.unit (s := S512x512) ![96, 0] S32x512.size inb_S512x512_S32x512_96_0).PackedRows (EltTy.packing .bf16)
  wordsbf16_S512x512_S32x512_96_0 : (Rect.unit (s := S512x512) ![96, 0] S32x512.size inb_S512x512_S32x512_96_0).WholeWords (EltTy.packing .bf16)
  packedbf16_S512x512_S32x512_128_0 : (Rect.unit (s := S512x512) ![128, 0] S32x512.size inb_S512x512_S32x512_128_0).PackedRows (EltTy.packing .bf16)
  wordsbf16_S512x512_S32x512_128_0 : (Rect.unit (s := S512x512) ![128, 0] S32x512.size inb_S512x512_S32x512_128_0).WholeWords (EltTy.packing .bf16)
  packedbf16_S512x512_S32x512_160_0 : (Rect.unit (s := S512x512) ![160, 0] S32x512.size inb_S512x512_S32x512_160_0).PackedRows (EltTy.packing .bf16)
  wordsbf16_S512x512_S32x512_160_0 : (Rect.unit (s := S512x512) ![160, 0] S32x512.size inb_S512x512_S32x512_160_0).WholeWords (EltTy.packing .bf16)
  packedbf16_S512x512_S32x512_192_0 : (Rect.unit (s := S512x512) ![192, 0] S32x512.size inb_S512x512_S32x512_192_0).PackedRows (EltTy.packing .bf16)
  wordsbf16_S512x512_S32x512_192_0 : (Rect.unit (s := S512x512) ![192, 0] S32x512.size inb_S512x512_S32x512_192_0).WholeWords (EltTy.packing .bf16)
  packedbf16_S512x512_S32x512_224_0 : (Rect.unit (s := S512x512) ![224, 0] S32x512.size inb_S512x512_S32x512_224_0).PackedRows (EltTy.packing .bf16)
  wordsbf16_S512x512_S32x512_224_0 : (Rect.unit (s := S512x512) ![224, 0] S32x512.size inb_S512x512_S32x512_224_0).WholeWords (EltTy.packing .bf16)
  inb_S512x512_S32x512_256_0 : ∀ a, (![256, 0] : Fin 2 → Nat) a + S32x512.size a ≤ S512x512.size a
  inb_S512x512_S32x512_288_0 : ∀ a, (![288, 0] : Fin 2 → Nat) a + S32x512.size a ≤ S512x512.size a
  inb_S512x512_S32x512_320_0 : ∀ a, (![320, 0] : Fin 2 → Nat) a + S32x512.size a ≤ S512x512.size a
  inb_S512x512_S32x512_352_0 : ∀ a, (![352, 0] : Fin 2 → Nat) a + S32x512.size a ≤ S512x512.size a
  inb_S512x512_S32x512_384_0 : ∀ a, (![384, 0] : Fin 2 → Nat) a + S32x512.size a ≤ S512x512.size a
  inb_S512x512_S32x512_416_0 : ∀ a, (![416, 0] : Fin 2 → Nat) a + S32x512.size a ≤ S512x512.size a
  inb_S512x512_S32x512_448_0 : ∀ a, (![448, 0] : Fin 2 → Nat) a + S32x512.size a ≤ S512x512.size a
  inb_S512x512_S32x512_480_0 : ∀ a, (![480, 0] : Fin 2 → Nat) a + S32x512.size a ≤ S512x512.size a
  packedbf16_S512x512_S32x512_256_0 : (Rect.unit (s := S512x512) ![256, 0] S32x512.size inb_S512x512_S32x512_256_0).PackedRows (EltTy.packing .bf16)
  wordsbf16_S512x512_S32x512_256_0 : (Rect.unit (s := S512x512) ![256, 0] S32x512.size inb_S512x512_S32x512_256_0).WholeWords (EltTy.packing .bf16)
  packedbf16_S512x512_S32x512_288_0 : (Rect.unit (s := S512x512) ![288, 0] S32x512.size inb_S512x512_S32x512_288_0).PackedRows (EltTy.packing .bf16)
  wordsbf16_S512x512_S32x512_288_0 : (Rect.unit (s := S512x512) ![288, 0] S32x512.size inb_S512x512_S32x512_288_0).WholeWords (EltTy.packing .bf16)
  packedbf16_S512x512_S32x512_320_0 : (Rect.unit (s := S512x512) ![320, 0] S32x512.size inb_S512x512_S32x512_320_0).PackedRows (EltTy.packing .bf16)
  wordsbf16_S512x512_S32x512_320_0 : (Rect.unit (s := S512x512) ![320, 0] S32x512.size inb_S512x512_S32x512_320_0).WholeWords (EltTy.packing .bf16)
  packedbf16_S512x512_S32x512_352_0 : (Rect.unit (s := S512x512) ![352, 0] S32x512.size inb_S512x512_S32x512_352_0).PackedRows (EltTy.packing .bf16)
  wordsbf16_S512x512_S32x512_352_0 : (Rect.unit (s := S512x512) ![352, 0] S32x512.size inb_S512x512_S32x512_352_0).WholeWords (EltTy.packing .bf16)
  packedbf16_S512x512_S32x512_384_0 : (Rect.unit (s := S512x512) ![384, 0] S32x512.size inb_S512x512_S32x512_384_0).PackedRows (EltTy.packing .bf16)
  wordsbf16_S512x512_S32x512_384_0 : (Rect.unit (s := S512x512) ![384, 0] S32x512.size inb_S512x512_S32x512_384_0).WholeWords (EltTy.packing .bf16)
  packedbf16_S512x512_S32x512_416_0 : (Rect.unit (s := S512x512) ![416, 0] S32x512.size inb_S512x512_S32x512_416_0).PackedRows (EltTy.packing .bf16)
  wordsbf16_S512x512_S32x512_416_0 : (Rect.unit (s := S512x512) ![416, 0] S32x512.size inb_S512x512_S32x512_416_0).WholeWords (EltTy.packing .bf16)
  packedbf16_S512x512_S32x512_448_0 : (Rect.unit (s := S512x512) ![448, 0] S32x512.size inb_S512x512_S32x512_448_0).PackedRows (EltTy.packing .bf16)
  wordsbf16_S512x512_S32x512_448_0 : (Rect.unit (s := S512x512) ![448, 0] S32x512.size inb_S512x512_S32x512_448_0).WholeWords (EltTy.packing .bf16)
  packedbf16_S512x512_S32x512_480_0 : (Rect.unit (s := S512x512) ![480, 0] S32x512.size inb_S512x512_S32x512_480_0).PackedRows (EltTy.packing .bf16)
  wordsbf16_S512x512_S32x512_480_0 : (Rect.unit (s := S512x512) ![480, 0] S32x512.size inb_S512x512_S32x512_480_0).WholeWords (EltTy.packing .bf16)
  hcc0_scratch2 : 2 + S8.numel ≤ 34
  hcc0_scratch3 : 10 + S8.numel ≤ 34
  hcc0_scratch4 : 18 + S8.numel ≤ 34
  hcc0_scratch5 : 26 + S8.numel ≤ 34
  k0_dev1_lt : ∀ d0 : Dev nD, (k0_dev1 d0) < nD
  k0_dev2_lt : ∀ d0 : Dev nD, (k0_dev2 d0) < nD
  k0_dev3_lt : ∀ d0 : Dev nD, ∀ (k0_h1 : k0_cond1 d0 = 1#1), (k0_dev3 d0) < nD
  k0_dev4_lt : ∀ d0 : Dev nD, ∀ (k0_h1 : k0_cond1 d0 = 1#1), (k0_dev4 d0) < nD
  k0_dev5_lt : ∀ d0 : Dev nD, ∀ (k0_h1 : k0_cond1 d0 = 1#1), (k0_dev5 d0) < nD
  k0_dev6_lt : ∀ d0 : Dev nD, ∀ (k0_h1 : k0_cond1 d0 = 1#1), (k0_dev6 d0) < nD
  k0_dev7_lt : ∀ d0 : Dev nD, ∀ (k0_h1 : k0_cond1 d0 = 1#1), (k0_dev7 d0) < nD
  k0_dev8_lt : ∀ d0 : Dev nD, ∀ (k0_h1 : k0_cond1 d0 = 1#1), (k0_dev8 d0) < nD
  k0_dev9_lt : ∀ d0 : Dev nD, ∀ (k0_h1 : k0_cond1 d0 = 1#1), (k0_dev9 d0) < nD
  k0_dev10_lt : ∀ d0 : Dev nD, ∀ (k0_h1 : k0_cond1 d0 = 1#1), (k0_dev10 d0) < nD
  k0_dev11_lt : ∀ d0 : Dev nD, ∀ (k0_h1 : k0_cond1 d0 = 1#1), (k0_dev11 d0) < nD
  k0_dev12_lt : ∀ d0 : Dev nD, ∀ (k0_h1 : k0_cond1 d0 = 1#1), (k0_dev12 d0) < nD
  k0_dev13_lt : ∀ d0 : Dev nD, ∀ (k0_h1 : k0_cond1 d0 = 1#1), (k0_dev13 d0) < nD
  k0_dev14_lt : ∀ d0 : Dev nD, ∀ (k0_h1 : k0_cond1 d0 = 1#1), (k0_dev14 d0) < nD
  k0_dev15_lt : ∀ d0 : Dev nD, ∀ (k0_h1 : k0_cond1 d0 = 1#1), (k0_dev15 d0) < nD
  k0_dev16_lt : ∀ d0 : Dev nD, ∀ (k0_h1 : k0_cond1 d0 = 1#1), (k0_dev16 d0) < nD
  k0_dev17_lt : ∀ d0 : Dev nD, ∀ (k0_h1 : k0_cond1 d0 = 1#1), (k0_dev17 d0) < nD
  k0_dev18_lt : ∀ d0 : Dev nD, ∀ (k0_h1 : k0_cond1 d0 = 1#1), (k0_dev18 d0) < nD
  k0_dev19_lt : ∀ d0 : Dev nD, ∀ (k0_h2 : k0_cond2 d0 = 1#1), (k0_dev19 d0) < nD
  k0_dev20_lt : ∀ d0 : Dev nD, ∀ (k0_h2 : k0_cond2 d0 = 1#1), (k0_dev20 d0) < nD
  k0_dev21_lt : ∀ d0 : Dev nD, ∀ (k0_h2 : k0_cond2 d0 = 1#1), (k0_dev21 d0) < nD
  k0_dev22_lt : ∀ d0 : Dev nD, ∀ (k0_h2 : k0_cond2 d0 = 1#1), (k0_dev22 d0) < nD
  k0_dev23_lt : ∀ d0 : Dev nD, ∀ (k0_h2 : k0_cond2 d0 = 1#1), (k0_dev23 d0) < nD
  k0_dev24_lt : ∀ d0 : Dev nD, ∀ (k0_h2 : k0_cond2 d0 = 1#1), (k0_dev24 d0) < nD
  k0_dev25_lt : ∀ d0 : Dev nD, ∀ (k0_h2 : k0_cond2 d0 = 1#1), (k0_dev25 d0) < nD
  k0_dev26_lt : ∀ d0 : Dev nD, ∀ (k0_h2 : k0_cond2 d0 = 1#1), (k0_dev26 d0) < nD
  k0_dev27_lt : ∀ d0 : Dev nD, ∀ (k0_h2 : k0_cond2 d0 = 1#1), (k0_dev27 d0) < nD
  k0_dev28_lt : ∀ d0 : Dev nD, ∀ (k0_h2 : k0_cond2 d0 = 1#1), (k0_dev28 d0) < nD
  k0_dev29_lt : ∀ d0 : Dev nD, ∀ (k0_h2 : k0_cond2 d0 = 1#1), (k0_dev29 d0) < nD
  k0_dev30_lt : ∀ d0 : Dev nD, ∀ (k0_h2 : k0_cond2 d0 = 1#1), (k0_dev30 d0) < nD
  k0_dev31_lt : ∀ d0 : Dev nD, ∀ (k0_h2 : k0_cond2 d0 = 1#1), (k0_dev31 d0) < nD
  k0_dev32_lt : ∀ d0 : Dev nD, ∀ (k0_h2 : k0_cond2 d0 = 1#1), (k0_dev32 d0) < nD
  k0_dev33_lt : ∀ d0 : Dev nD, ∀ (k0_h2 : k0_cond2 d0 = 1#1), (k0_dev33 d0) < nD
  k0_dev34_lt : ∀ d0 : Dev nD, ∀ (k0_h2 : k0_cond2 d0 = 1#1), (k0_dev34 d0) < nD
  hstage0_0 : ∀ j, (stage0_0 j).IsWhole
  hstage0_1 : ∀ j, (stage0_1 j).IsWhole

variable [Facts₀]

abbrev cc0_scratch2 : DmaSems sig S8 := SemArray.consecutive 2 S8 hcc0_scratch2
abbrev cc0_scratch3 : DmaSems sig S8 := SemArray.consecutive 10 S8 hcc0_scratch3
abbrev cc0_scratch4 : DmaSems sig S8 := SemArray.consecutive 18 S8 hcc0_scratch4
abbrev cc0_scratch5 : DmaSems sig S8 := SemArray.consecutive 26 S8 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S1024x512_S2x512x512 : S1024x512.ShapeCasts S2x512x512
  reducesTo_S2x512x512_S512x512_d0 : S2x512x512.ReducesTo [0] S512x512
  h_S_ : 0 < S_.numel
  bitsLt_bf16_f32 : FTy.bits .bf16 < FTy.bits .f32

variable [Facts₀]

class Facts : Prop extends Facts₀ where

variable [Facts]
-- ==== Proof.Sched.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The mesh: device `d = 2 x + y`; the mate along `x` and the mate along `y` -/

def xp (c : Dev nD) : Dev nD := ⟨(c.val % 2 + 2) - 2 * (c.val / 2), by have := c.isLt; revert this; generalize c.val = v; decide +revert⟩
def yp (c : Dev nD) : Dev nD := ⟨(2 * (c.val / 2) + 1) - c.val % 2, by have := c.isLt; revert this; generalize c.val = v; decide +revert⟩
def yOf (c : Dev nD) : ℕ := c.val % 2

theorem xp_xp (c : Dev nD) : xp (xp c) = c := by revert c; decide
theorem yp_yp (c : Dev nD) : yp (yp c) = c := by revert c; decide
theorem xp_ne (c : Dev nD) : xp c ≠ c := by revert c; decide
theorem yp_ne (c : Dev nD) : yp c ≠ c := by revert c; decide
theorem xp_ne_yp (c : Dev nD) : xp c ≠ yp c := by revert c; decide
theorem yOf_xp (c : Dev nD) : yOf (xp c) = yOf c := by revert c; decide
theorem yOf_yp (c : Dev nD) : yOf (yp c) = 1 - yOf c := by revert c; decide
theorem yOf_lt (c : Dev nD) : yOf c < 2 := Nat.mod_lt _ (by decide)

def xSwap : Dev nD ≃ Dev nD := ⟨xp, xp, xp_xp, xp_xp⟩
def ySwap : Dev nD ≃ Dev nD := ⟨yp, yp, yp_yp, yp_yp⟩

/-! ## Buffers, chunks, cells -/

abbrev xM : Memref sig .tc .vmem S512x512 .f32 := Memref.whole cc0_stg0_0
abbrev oM : Memref sig .tc .vmem S512x512 .bf16 := Memref.whole cc0_stg1_0
abbrev sM : Memref sig .tc .vmem S256x512 .bf16 := Memref.whole cc0_scratch0
abbrev rM : Memref sig .tc .vmem S256x512 .bf16 := Memref.whole cc0_scratch1

theorem inbH (k : Fin 8) : ∀ a, (![32 * k.val, 0] : Fin 2 → Nat) a + S32x512.size a ≤ S256x512.size a := by
  revert k; decide
theorem inbO (y : Fin 2) (k : Fin 8) : ∀ a, (![256 * y.val + 32 * k.val, 0] : Fin 2 → Nat) a + S32x512.size a ≤ S512x512.size a := by
  revert y k; decide

/-- Rows `32 k … 32 k + 31` of a half-height scratch buffer. -/
abbrev rH (k : Fin 8) : Rect S256x512 := Rect.unit (s := S256x512) ![32 * k.val, 0] S32x512.size (inbH k)
/-- Rows `256 y + 32 k …` of a full-height buffer. -/
abbrev rO (y : Fin 2) (k : Fin 8) : Rect S512x512 := Rect.unit (s := S512x512) ![256 * y.val + 32 * k.val, 0] S32x512.size (inbO y k)

abbrev sCh (k : Fin 8) : Memref sig .tc .vmem S32x512 .bf16 := sM.slice (rH k) (fun _ => rfl)
abbrev rCh (k : Fin 8) : Memref sig .tc .vmem S32x512 .bf16 := rM.slice (rH k) (fun _ => rfl)
abbrev oCh (y : Fin 2) (k : Fin 8) : Memref sig .tc .vmem S32x512 .bf16 := oM.slice (rO y k) (fun _ => rfl)

abbrev barS : Sem sig := (SemArray.scalar (sig.barrier 0 rfl) : Sems sig S_).sem
/-- The four families of eight DMA semaphores: 0 first-phase send, 1 first-phase receive, 2 second-phase send, 3 second-phase receive. -/
def dsem (j : Fin 4) (k : Fin 8) : DmaSem sig := ⟨2 + 8 * j.val + k.val, by have := j.isLt; have := k.isLt; show _ < 34; omega⟩

abbrev barCell (c : Dev nD) : GSem nD τ sig := ((c : Thread nD τ), .reg barS)
abbrev dCell (c : Dev nD) (j : Fin 4) (k : Fin 8) : GSem nD τ sig := ((c : Thread nD τ), .dma (dsem j k))

abbrev N : ℕ := (rCh 0 : Memref sig .tc .vmem S32x512 .bf16).view.dmaCredit
theorem N_pos : 0 < N := View.dmaCredit_pos _ (by decide)

/-! ## Contents -/

/-- Device `c`'s block of `x` as staged. -/
def xstg (c : Dev nD) : (cc0_stg0_0 : Ref sig .tc).ty.Contents (Elt F) :=
  (win0_0.blk (0 : Fin 1)).view.read (Elt F) ((s₀ m ρ).mem ((c : Thread nD τ).loc main_arg0))

def yF (c : Dev nD) : Fin 2 := ⟨yOf c, yOf_lt c⟩
def yG (c : Dev nD) : Fin 2 := ⟨1 - yOf c, by have := yOf_lt c; omega⟩

/-- The narrowing of one 32-row chunk. -/
def conv (v : Vec F S32x512 .f32) : FVec F S32x512 .bf16 := k0_pay1 v
/-- Chunk `k` of the rows device `c` reduces (rows `256 y + 32 k …` of its block), narrowed. -/
def sVal (c : Dev nD) (k : Fin 8) : FVec F S32x512 .bf16 :=
  conv ((xM : Memref sig .tc .vmem S512x512 .f32).view.readAt (Elt F) (rO (yF c) k).toLoadRect (xstg m ρ c))
/-- The same chunk summed over the two devices of the column. -/
def oVal (c : Dev nD) (k : Fin 8) : FVec F S32x512 .bf16 := addf (sVal m ρ c k) (sVal m ρ (xp c) k)

/-- Canonical contents of a buffer whose chunk under view `v` holds `w`. -/
def holds {s : Shape} {sp : Space} (v : View sig .tc sp s .bf16) (w : s.Idx → Elt F .bf16) : v.ty.Contents (Elt F) :=
  v.write (Elt F) (View.junk v) w Finset.univ

/-- Chunk `k` of the send buffer of `c` at share `q`, holding its narrowed rows. -/
def sPts (c : Dev nD) (k : Fin 8) (q : PosShare TreeShare) : sProp 𝕄 :=
  (sCh k).view.loc (c : Thread nD τ) ↦[(sCh k).view.set]{q} holds (sCh k).view (sVal m ρ c k)
/-- Chunk `k` of the receive buffer of `c`, holding the column mate's narrowed rows. -/
def rPts (c : Dev nD) (k : Fin 8) : sProp 𝕄 :=
  (rCh k).view.loc (c : Thread nD τ) ↦[(rCh k).view.set]{fullShare} holds (rCh k).view (sVal m ρ (xp c) k)
/-- Chunk `(y, k)` of the result buffer of `c`, holding the sums device `d` computed. -/
def oPts (c : Dev nD) (y : Fin 2) (k : Fin 8) (d : Dev nD) : sProp 𝕄 :=
  (oCh y k).view.loc (c : Thread nD τ) ↦[(oCh y k).view.set]{fullShare} holds (oCh y k).view (oVal m ρ d k)
/-- Chunks at some contents. -/
def rAny (c : Dev nD) (k : Fin 8) : sProp 𝕄 :=
  iprop(∃ f, (rCh k).view.loc (c : Thread nD τ) ↦[(rCh k).view.set]{fullShare} f)
def oAny (c : Dev nD) (y : Fin 2) (k : Fin 8) : sProp 𝕄 :=
  iprop(∃ f, (oCh y k).view.loc (c : Thread nD τ) ↦[(oCh y k).view.set]{fullShare} f)

/-! ## The schedule: one round; a barrier cell has two unit duties (`false` paid by the mate along `x`,
`true` by the mate along `y`), every transfer cell one duty of the chunk's credit -/

/-- What the `x` mate's barrier signal hands `c`: the mate's receive buffer, chunk by chunk. -/
def barPayX (c : Dev nD) : sProp 𝕄 := bigSep Finset.univ fun k : Fin 8 => rAny (xp c) k
/-- What the `y` mate's barrier signal hands `c`: the half of the mate's result buffer that `c` fills. -/
def barPayY (c : Dev nD) : sProp 𝕄 := bigSep Finset.univ fun k : Fin 8 => oAny (yp c) (yF c) k

def dmaPay (c : Dev nD) (j : Fin 4) (k : Fin 8) : sProp 𝕄 :=
  match j with
  | 0 => sPts m ρ c k fullShare.left
  | 1 => rPts m ρ c k
  | 2 => oPts m ρ c (yF c) k c
  | 3 => oPts m ρ c (yG c) k (yp c)

/-- The family and the chunk of a transfer semaphore. -/
def famOf (s : DmaSem sig) : Option (Fin 4 × Fin 8) :=
  if h : 2 ≤ s.val then some (⟨(s.val - 2) / 8, by have := s.isLt; change s.val < 34 at this; omega⟩, ⟨(s.val - 2) % 8, Nat.mod_lt _ (by decide)⟩) else none

theorem famOf_dsem (j : Fin 4) (k : Fin 8) : famOf (dsem j k) = some (j, k) := by revert j k; decide

def Rd : Rounds.Schedule (GSem nD τ sig) Bool 𝕄 where
  duties g r :=
    if r = 0 ∧ g.1.2 = .tc then
      match g.2 with
      | .reg _ => Finset.univ
      | .dma s => if (famOf s).isSome then {false} else ∅
    else ∅
  unitless _ := False
  amount g _ _ := match g.2 with | .reg _ => 1 | .dma _ => N
  payload g _ d :=
    match g.2 with
    | .reg _ => if d then barPayY g.1.1 else barPayX g.1.1
    | .dma s => match famOf s with
      | some (j, k) => dmaPay m ρ g.1.1 j k
      | none => iprop(emp)
  amount_pos g _ _ _ := by cases g.2 <;> first | exact Nat.one_pos | exact N_pos

instance Rd_payload_storable (g : GSem nD τ sig) (r : ℕ) (d : Bool) :
    BI.Storable (upEmb : UEmb _ 𝕄) ((Rd (F := F) m ρ).payload g r d) := by
  obtain ⟨t, s⟩ := g
  cases s with
  | reg s =>
    show BI.Storable upEmb (if d then barPayY t.1 else barPayX t.1)
    unfold barPayY barPayX oAny rAny
    split <;> infer_instance
  | dma s =>
    show BI.Storable upEmb (match famOf s with | some (j, k) => dmaPay m ρ t.1 j k | none => iprop(emp))
    cases famOf s with
    | none => show BI.Storable upEmb iprop(emp); infer_instance
    | some jk =>
      obtain ⟨j, k⟩ := jk
      show BI.Storable upEmb (dmaPay m ρ t.1 j k)
      unfold dmaPay sPts rPts oPts
      fin_cases j <;> infer_instance

section Tables
variable (c : Dev nD)

theorem duties_bar : (Rd (F := F) m ρ).duties (barCell c) 0 = Finset.univ := by dsimp only [Rd]; rw [if_pos ⟨rfl, rfl⟩]
theorem duties_dma (j : Fin 4) (k : Fin 8) : (Rd (F := F) m ρ).duties (dCell c j k) 0 = {false} := by
  dsimp only [Rd]; rw [if_pos ⟨rfl, rfl⟩]; show (if (famOf (dsem j k)).isSome then _ else _) = _; rw [famOf_dsem]; rfl
theorem duties_later (g : GSem nD τ sig) : ∀ r, 1 ≤ r → (Rd (F := F) m ρ).duties g r = ∅ :=
  fun r hr => by dsimp only [Rd]; rw [if_neg fun h => by omega]
theorem amount_bar (d : Bool) : (Rd (F := F) m ρ).amount (barCell c) 0 d = 1 := rfl
theorem amount_dma (j : Fin 4) (k : Fin 8) (d : Bool) : (Rd (F := F) m ρ).amount (dCell c j k) 0 d = N := rfl
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (j : Fin 4) (k : Fin 8) : (Rd (F := F) m ρ).expect (dCell c j k) 0 = N := by
  unfold Schedule.expect Schedule.amountOf; rw [duties_dma, Finset.sum_singleton, amount_dma]
theorem payload_bar_false : (Rd (F := F) m ρ).payload (barCell c) 0 false = barPayX c := rfl
theorem payload_bar_true : (Rd (F := F) m ρ).payload (barCell c) 0 true = barPayY c := rfl
theorem payload_dma (j : Fin 4) (k : Fin 8) (d : Bool) : (Rd (F := F) m ρ).payload (dCell c j k) 0 d = dmaPay m ρ c j k := by
  show (match famOf (dsem j k) with | some (j, k) => dmaPay m ρ c j k | none => iprop(emp)) = _
  rw [famOf_dsem]
theorem rest_bar : bigSep ((Rd (F := F) m ρ).duties (barCell c) 0 \ ∅) (fun d => (Rd (F := F) m ρ).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_dma (j : Fin 4) (k : Fin 8) : bigSep ((Rd (F := F) m ρ).duties (dCell c j k) 0 \ ∅) (fun d => (Rd (F := F) m ρ).payload (dCell c j k) 0 d)
    = dmaPay m ρ c j k := by
  rw [Finset.sdiff_empty, duties_dma, bigSep_singleton, payload_dma]
end Tables

/-! ## Levels and what each device owes at launch -/

def L (g : GSem nD τ sig) : Finset Unit := if g.1.2 = .tc then {()} else ∅
/-- Barrier cells at 1, first-phase receive cells at 2, second-phase receive cells at 3, everything else at 0. -/
def lv (g : GSem nD τ sig) (_ : Unit) : ℕ :=
  match g.2 with
  | .reg _ => 1
  | .dma s => match famOf s with
    | some (j, _) => if j = 1 then 2 else if j = 3 then 3 else 0
    | none => 0

/-- The first-phase receive credit of chunks `a ≤ k` owed to the `x` mate, the second-phase one of chunks `b ≤ k` owed to the `y` mate. -/
def owedX (c : Dev nD) (a : ℕ) : CellTallies nD τ sig Unit :=
  ∑ k ∈ Finset.univ.filter (fun k : Fin 8 => a ≤ k.val), tallyAt (dCell (xp c) 1 k) () N
def owedY (c : Dev nD) (b : ℕ) : CellTallies nD τ sig Unit :=
  ∑ k ∈ Finset.univ.filter (fun k : Fin 8 => b ≤ k.val), tallyAt (dCell (yp c) 3 k) () N
def owed (c : Dev nD) (a b : ℕ) : CellTallies nD τ sig Unit := owedX c a + owedY c b
def O₁ (c : Dev nD) : CellTallies nD τ sig Unit := owed c 0 0 + tallyAt (barCell (yp c)) () 1
def O₀ (c : Dev nD) : CellTallies nD τ sig Unit := O₁ c + tallyAt (barCell (xp c)) () 1

/-! ## Ghost state -/

abbrev CK : Type := Option (Fin 4 × Fin 8)
abbrev csem : CK → SemLoc sig
  | none => .reg barS
  | some jk => .dma (dsem jk.1 jk.2)
abbrev kcell (ck : Dev nD × CK) : GSem nD τ sig := ((ck.1 : Thread nD τ), csem ck.2)
abbrev osem : Fin 4 × Fin 8 → SemLoc sig := fun jk => .dma (dsem jk.1 jk.2)

/-- Every cell's invariant under the names `K`, and round 0 of every cell reached: persistent, every device holds a copy. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)
instance records_persistent (K : Dev nD × CK → ℕ) : BI.Persistent (records m ρ K) := by unfold records; infer_instance

/-- The duty tokens device `c` pays with: its mates' barrier duties, its own send cells', its mates' receive cells'. -/
def payToks (c : Dev nD) : sProp 𝕄 :=
  iprop(dutyTok ER (barCell (xp c)) 0 false ∗ dutyTok ER (barCell (yp c)) 0 true
    ∗ (bigSep Finset.univ fun k : Fin 8 => dutyTok ER (dCell c 0 k) 0 false)
    ∗ (bigSep Finset.univ fun k : Fin 8 => dutyTok ER (dCell (xp c) 1 k) 0 false)
    ∗ (bigSep Finset.univ fun k : Fin 8 => dutyTok ER (dCell c 2 k) 0 false)
    ∗ (bigSep Finset.univ fun k : Fin 8 => dutyTok ER (dCell (yp c) 3 k) 0 false))
def linear (c : Dev nD) : sProp 𝕄 :=
  iprop((bigSep Finset.univ fun ck : CK => atPos ER (kcell (c, ck)) 0 ∅ 0) ∗ payToks c)
def ghost (K : Dev nD × CK → ℕ) (c : Dev nD) : sProp 𝕄 := iprop(records m ρ K ∗ linear c)

/-- The credit a device holds at launch: its barrier's two units, its receive cells' chunk credits. -/
def creds (c : Dev nD) : sProp 𝕄 :=
  iprop(cred (tallyAt (barCell c) () 2)
    ∗ (bigSep Finset.univ fun k : Fin 8 => cred (tallyAt (dCell c 1 k) () N))
    ∗ (bigSep Finset.univ fun k : Fin 8 => cred (tallyAt (dCell c 3 k) () N)))
def start (c : Dev nD) : sProp 𝕄 := iprop((∃ K, ghost m ρ K c) ∗ creds c ∗ levAts L lv)

/-! ## The result buffer after the body, and the pipeline's proof data -/

def owner (c : Dev nD) (y : Fin 2) : Dev nD := if y = yF c then c else yp c

/-- The result buffer: chunk `(y, k)` holds the sums its owner computed. -/
def outF (c : Dev nD) : (cc0_stg1_0 : Ref sig .tc).ty.Contents (Elt F) := fun i =>
  let y : Fin 2 := ⟨(i 0).val / 256, by have := (i 0).isLt; change _ < 512 at this; omega⟩
  let k : Fin 8 := ⟨((i 0).val % 256) / 32, by omega⟩
  holds (oCh y k).view (oVal m ρ (owner c y) k) i

def sAll (c : Dev nD) : sProp 𝕄 := iprop(∃ f : Buf (Elt F) ((c : Thread nD τ).loc cc0_scratch0), ((c : Thread nD τ).loc cc0_scratch0) ↦{fullShare} f)
def rAll (c : Dev nD) : sProp 𝕄 := iprop(∃ f : Buf (Elt F) ((c : Thread nD τ).loc cc0_scratch1), ((c : Thread nD τ).loc cc0_scratch1) ↦{fullShare} f)

def Φ₀ (c : Dev nD) : sProp 𝕄 := iprop(start m ρ c ∗ sAll c ∗ rAll c)
def Φ₁ (c : Dev nD) : sProp 𝕄 :=
  iprop(sAll c ∗ rAll c ∗ bigSep Finset.univ fun jk : Fin 4 × Fin 8 => semVal ((c : Thread nD τ), osem jk) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m ρ K c ∗ creds c ∗ levAts L lv ∗ sAll c ∗ rAll c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (outF m ρ c))

/-! ## The arrays after the run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The `x` block after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.AR
end
-- ==== Proof.Levels.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

/-! ## Peeling one chunk off what is owed -/

/-- The chunks from `a` on are chunk `a` and the chunks from `a + 1` on. -/
theorem from_succ (a : ℕ) (ha : a < 8) :
    Finset.univ.filter (fun k : Fin 8 => a ≤ k.val)
      = insert (⟨a, ha⟩ : Fin 8) (Finset.univ.filter (fun k : Fin 8 => a + 1 ≤ k.val)) := by
  ext k
  rw [Finset.mem_insert, Finset.mem_filter, Finset.mem_filter, Fin.ext_iff]
  simp only [Finset.mem_univ, true_and]
  omega
theorem from_succ_notMem (a : ℕ) (ha : a < 8) :
    (⟨a, ha⟩ : Fin 8) ∉ Finset.univ.filter (fun k : Fin 8 => a + 1 ≤ k.val) := by
  rw [Finset.mem_filter]; rintro ⟨_, h⟩; exact Nat.not_succ_le_self a h
/-- No chunk from 8 on. -/
theorem from_eight : Finset.univ.filter (fun k : Fin 8 => 8 ≤ k.val) = ∅ :=
  Finset.filter_eq_empty_iff.mpr fun k _ h => absurd k.isLt (Nat.not_lt.mpr h)

theorem owedX_succ (c : Dev nD) (a : ℕ) (ha : a < 8) :
    owedX c a = owedX c (a + 1) + tallyAt (dCell (xp c) 1 ⟨a, ha⟩) () N := by
  unfold owedX; rw [from_succ a ha, Finset.sum_insert (from_succ_notMem a ha), add_comm]
theorem owedY_succ (c : Dev nD) (b : ℕ) (hb : b < 8) :
    owedY c b = owedY c (b + 1) + tallyAt (dCell (yp c) 3 ⟨b, hb⟩) () N := by
  unfold owedY; rw [from_succ b hb, Finset.sum_insert (from_succ_notMem b hb), add_comm]
theorem owedX_eight (c : Dev nD) : owedX c 8 = 0 := by unfold owedX; rw [from_eight, Finset.sum_empty]
theorem owedY_eight (c : Dev nD) : owedY c 8 = 0 := by unfold owedY; rw [from_eight, Finset.sum_empty]

/-- Issuing the first-phase transfer of chunk `a` takes its credit off what is owed. -/
theorem owed_peelX (c : Dev nD) (a b : ℕ) (ha : a < 8) :
    owed c a b = owed c (a + 1) b + tallyAt (dCell (xp c) 1 ⟨a, ha⟩) () N := by
  unfold owed; rw [owedX_succ c a ha, add_right_comm]
/-- Issuing the second-phase transfer of chunk `b` takes its credit off what is owed. -/
theorem owed_peelY (c : Dev nD) (a b : ℕ) (hb : b < 8) :
    owed c a b = owed c a (b + 1) + tallyAt (dCell (yp c) 3 ⟨b, hb⟩) () N := by
  unfold owed; rw [owedY_succ c b hb, add_assoc]
theorem owed_done (c : Dev nD) : owed c 8 8 = 0 := by
  unfold owed; rw [owedX_eight, owedY_eight, add_zero]

/-! ## Where the owed credit sits, and the levels there -/

theorem owedX_apply_ne (c : Dev nD) (a : ℕ) (g : GSem nD τ sig) (h : ∀ k, g ≠ dCell (xp c) 1 k) : owedX c a g = 0 := by
  unfold owedX; rw [Finset.sum_apply]; exact Finset.sum_eq_zero fun k _ => tallyAt_ne_cell (h k) () N
theorem owedY_apply_ne (c : Dev nD) (b : ℕ) (g : GSem nD τ sig) (h : ∀ k, g ≠ dCell (yp c) 3 k) : owedY c b g = 0 := by
  unfold owedY; rw [Finset.sum_apply]; exact Finset.sum_eq_zero fun k _ => tallyAt_ne_cell (h k) () N

/-- Transfer credit is owed only to the `x` mate's first-phase receive cells and the `y` mate's second-phase ones. -/
theorem owed_pos {c : Dev nD} {a b : ℕ} {g : GSem nD τ sig} {u : Unit} (h : 0 < owed c a b g u) :
    (∃ k, g = dCell (xp c) 1 k) ∨ (∃ k, g = dCell (yp c) 3 k) := by
  by_contra hn
  rw [not_or, not_exists, not_exists] at hn
  unfold owed at h
  rw [Pi.add_apply, owedX_apply_ne c a g hn.1, owedY_apply_ne c b g hn.2, add_zero, Finsupp.zero_apply] at h
  exact Nat.lt_irrefl 0 h

/-- At launch a device owes, besides, one unit to each mate's barrier cell. -/
theorem O₀_pos {c : Dev nD} {g : GSem nD τ sig} {u : Unit} (h : 0 < O₀ c g u) :
    (∃ k, g = dCell (xp c) 1 k) ∨ (∃ k, g = dCell (yp c) 3 k) ∨ g = barCell (yp c) ∨ g = barCell (xp c) := by
  by_cases h1 : g = barCell (yp c)
  · exact Or.inr (Or.inr (Or.inl h1))
  by_cases h2 : g = barCell (xp c)
  · exact Or.inr (Or.inr (Or.inr h2))
  unfold O₀ O₁ at h
  rw [Pi.add_apply, Finsupp.add_apply, Pi.add_apply, Finsupp.add_apply, tallyAt_ne_cell h1, tallyAt_ne_cell h2,
    Finsupp.zero_apply, add_zero, add_zero] at h
  rcases owed_pos h with h | h
  · exact Or.inl h
  · exact Or.inr (Or.inl h)

theorem lv_bar (d : Dev nD) (u : Unit) : lv (barCell d) u = 1 := rfl
theorem lv_dma (d : Dev nD) (j : Fin 4) (k : Fin 8) (u : Unit) :
    lv (dCell d j k) u = if j = 1 then 2 else if j = 3 then 3 else 0 := by
  show (match famOf (dsem j k) with | some (j, _) => if j = 1 then 2 else if j = 3 then 3 else 0 | none => 0) = _
  rw [famOf_dsem]
theorem lv_none (t : Thread nD τ) (q : DmaSem sig) (hq : famOf q = none) (u : Unit) : lv (t, .dma q) u = 0 := by
  show (match famOf q with | some (j, _) => if j = 1 then 2 else if j = 3 then 3 else 0 | none => 0) = 0
  rw [hq]

/-- A staging cell's wait (level 0) lies below everything a device owes at launch. -/
theorem mayWait_stage (c : Dev nD) (q : DmaSem sig) (hq : famOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨k, rfl⟩ | ⟨k, rfl⟩ | rfl | rfl <;> (rw [L_tc]; exact Finset.mem_singleton_self _))
      (fun p hp => by rw [Finset.mem_singleton.mp hp]; exact Nat.le_of_eq (lv_none _ q hq _))
      (fun g u hg => by
        rcases O₀_pos hg with ⟨k, rfl⟩ | ⟨k, rfl⟩ | rfl | rfl
        · rw [lv_dma]; decide
        · rw [lv_dma]; decide
        · rw [lv_bar]; decide
        · rw [lv_bar]; decide)
  · rw [MayWait_zero]; iintro -; iempintro
/-- At its barrier wait a device owes transfer credits only: receive cells, above its barrier cell. -/
theorem mayWait_bar (c : Dev nD) :
    (levAts L lv : sProp 𝕄) ⊢ MayWait (c : Thread nD τ) (.reg barS) () (owed c 0 0) :=
  MayOwe.of_cut (L := L) (lev := lv) 1
    (fun p hp => by rw [Finset.mem_singleton.mp hp, L_tc]; exact Finset.mem_singleton_self _)
    (fun g u hg => by
      rcases owed_pos hg with ⟨k, rfl⟩ | ⟨k, rfl⟩ <;> (rw [L_tc]; exact Finset.mem_singleton_self _))
    (fun p hp => by rw [Finset.mem_singleton.mp hp]; exact Nat.le_of_eq (lv_bar c _))
    (fun g u hg => by
      rcases owed_pos hg with ⟨k, rfl⟩ | ⟨k, rfl⟩
      · rw [lv_dma]; decide
      · rw [lv_dma]; decide)
/-- With the first phase issued, what is left is owed to the `y` mate's second-phase receive cells. -/
theorem owed_eight_pos {c : Dev nD} {b : ℕ} {g : GSem nD τ sig} {u : Unit} (h : 0 < owed c 8 b g u) :
    ∃ k, g = dCell (yp c) 3 k := by
  by_contra hn
  rw [not_exists] at hn
  unfold owed at h
  rw [owedX_eight, zero_add, owedY_apply_ne c b g hn, Finsupp.zero_apply] at h
  exact Nat.lt_irrefl 0 h

/-- At a first-phase receive wait a device owes second-phase credits only. -/
theorem mayWait_r1 (c : Dev nD) (k : Fin 8) (b : ℕ) :
    (levAts L lv : sProp 𝕄) ⊢ MayWait (c : Thread nD τ) (.dma (dsem 1 k)) () (owed c 8 b) :=
  MayOwe.of_cut (L := L) (lev := lv) 2
    (fun p hp => by rw [Finset.mem_singleton.mp hp, L_tc]; exact Finset.mem_singleton_self _)
    (fun g u hg => by obtain ⟨k', rfl⟩ := owed_eight_pos hg; rw [L_tc]; exact Finset.mem_singleton_self _)
    (fun p hp => by rw [Finset.mem_singleton.mp hp]; show lv (dCell c 1 k) () ≤ 2; rw [lv_dma]; decide)
    (fun g u hg => by obtain ⟨k', rfl⟩ := owed_eight_pos hg; rw [lv_dma]; decide)

/-! ## The launch credit -/

theorem dsem_inj {j j' : Fin 4} {k k' : Fin 8} (h : dsem j k = dsem j' k') : j = j' ∧ k = k' := by
  have h' : 2 + 8 * j.val + k.val = 2 + 8 * j'.val + k'.val := congrArg (fun s : DmaSem sig => s.val) h
  have := k.isLt; have := k'.isLt
  exact ⟨Fin.ext (by omega), Fin.ext (by omega)⟩

theorem dCell_eq_iff {c c' : Dev nD} {j j' : Fin 4} {k k' : Fin 8} :
    dCell c j k = dCell c' j' k' ↔ c = c' ∧ j = j' ∧ k = k' := by
  constructor
  · intro h
    have h1 : c = c' := congrArg (fun g : GSem nD τ sig => g.1.1) h
    have h2 : dsem j k = dsem j' k' := SemLoc.dma.inj (congrArg Prod.snd h)
    exact ⟨h1, dsem_inj h2⟩
  · rintro ⟨rfl, rfl, rfl⟩; rfl
theorem bar_eq_iff {a b : Dev nD} : barCell a = barCell b ↔ a = b :=
  ⟨fun h => congrArg (fun g : GSem nD τ sig => g.1.1) h, fun h => h ▸ rfl⟩
theorem bar_ne_dCell (a d : Dev nD) (j : Fin 4) (k : Fin 8) : barCell a ≠ dCell d j k :=
  fun h => by cases congrArg Prod.snd h
theorem dCell_ne_bar (a d : Dev nD) (j : Fin 4) (k : Fin 8) : dCell d j k ≠ barCell a :=
  fun h => by cases congrArg Prod.snd h

theorem O₀_apply (d : Dev nD) (g : GSem nD τ sig) (u : Unit) :
    O₀ d g u = owedX d 0 g u + owedY d 0 g u + tallyAt (barCell (yp d)) () 1 g u + tallyAt (barCell (xp d)) () 1 g u := by
  unfold O₀ O₁ owed
  rw [Pi.add_apply, Finsupp.add_apply, Pi.add_apply, Finsupp.add_apply, Pi.add_apply, Finsupp.add_apply]

/-- The first-phase receive cell of chunk `k` on `c` is owed its credit by the `x` mate, -/
theorem owedX_zero_at (d c : Dev nD) (k : Fin 8) : owedX d 0 (dCell c 1 k) () = if d = xp c then N else 0 := by
  unfold owedX
  rw [Finset.filter_true_of_mem (fun _ _ => Nat.zero_le _), Finset.sum_apply, Finsupp.finsetSum_apply]
  by_cases h : d = xp c
  · subst h
    rw [if_pos rfl, xp_xp, Fintype.sum_eq_single k fun k' hk' => by
      rw [tallyAt_ne_cell (fun e => hk' (dCell_eq_iff.mp e).2.2.symm), Finsupp.zero_apply]]
    exact tallyAt_self _ _ _
  · rw [if_neg h]
    exact Finset.sum_eq_zero fun k' _ => by
      rw [tallyAt_ne_cell (fun e => h (by rw [(dCell_eq_iff.mp e).1, xp_xp])), Finsupp.zero_apply]
/-- the second-phase one by the `y` mate. -/
theorem owedY_zero_at (d c : Dev nD) (k : Fin 8) : owedY d 0 (dCell c 3 k) () = if d = yp c then N else 0 := by
  unfold owedY
  rw [Finset.filter_true_of_mem (fun _ _ => Nat.zero_le _), Finset.sum_apply, Finsupp.finsetSum_apply]
  by_cases h : d = yp c
  · subst h
    rw [if_pos rfl, yp_yp, Fintype.sum_eq_single k fun k' hk' => by
      rw [tallyAt_ne_cell (fun e => hk' (dCell_eq_iff.mp e).2.2.symm), Finsupp.zero_apply]]
    exact tallyAt_self _ _ _
  · rw [if_neg h]
    exact Finset.sum_eq_zero fun k' _ => by
      rw [tallyAt_ne_cell (fun e => h (by rw [(dCell_eq_iff.mp e).1, yp_yp])), Finsupp.zero_apply]

/-- What device `d` owes device `c`'s barrier cell: a unit if it is the `y` mate, a unit if it is the `x` mate. -/
theorem owed_bar (d c : Dev nD) : O₀ d (barCell c) () = (if d = yp c then 1 else 0) + (if d = xp c then 1 else 0) := by
  rw [O₀_apply, owedX_apply_ne d 0 _ (fun k => bar_ne_dCell c _ 1 k), owedY_apply_ne d 0 _ (fun k => bar_ne_dCell c _ 3 k),
    Finsupp.zero_apply, Nat.zero_add, Nat.zero_add, tallyAt_apply, tallyAt_apply]
  congr 1
  · by_cases h : d = yp c
    · subst h; rw [yp_yp, if_pos ⟨rfl, rfl⟩, if_pos rfl]
    · rw [if_neg (fun h' => h (by rw [bar_eq_iff.mp h'.1, yp_yp])), if_neg h]
  · by_cases h : d = xp c
    · subst h; rw [xp_xp, if_pos ⟨rfl, rfl⟩, if_pos rfl]
    · rw [if_neg (fun h' => h (by rw [bar_eq_iff.mp h'.1, xp_xp])), if_neg h]

theorem owed_r1 (d c : Dev nD) (k : Fin 8) : O₀ d (dCell c 1 k) () = if d = xp c then N else 0 := by
  rw [O₀_apply, owedX_zero_at, owedY_apply_ne d 0 _ (fun k' e => absurd (dCell_eq_iff.mp e).2.1 (by decide)),
    tallyAt_ne_cell (dCell_ne_bar _ c 1 k), tallyAt_ne_cell (dCell_ne_bar _ c 1 k), Finsupp.zero_apply, Nat.add_zero, Nat.add_zero, Nat.add_zero]
theorem owed_r3 (d c : Dev nD) (k : Fin 8) : O₀ d (dCell c 3 k) () = if d = yp c then N else 0 := by
  rw [O₀_apply, owedY_zero_at, owedX_apply_ne d 0 _ (fun k' e => absurd (dCell_eq_iff.mp e).2.1 (by decide)),
    tallyAt_ne_cell (dCell_ne_bar _ c 3 k), tallyAt_ne_cell (dCell_ne_bar _ c 3 k), Finsupp.zero_apply, Nat.zero_add, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1,
    if_pos (Finset.mem_univ _), if_pos (Finset.mem_univ _)]
theorem launch_r1 (c : Dev nD) (k : Fin 8) :
    tallyOn (dCell c 1 k) (launchCredit (Pipeline.owing O₀) 0 (dCell c 1 k)) = (tallyAt (dCell c 1 k) () N : CellTallies nD τ sig Unit) := by
  unfold tallyAt; refine congrArg _ (Finsupp.ext fun u => ?_); cases u
  rw [Pipeline.launchCredit_owing, Finsupp.single_eq_same, Finset.sum_congr rfl fun d _ => owed_r1 d c k,
    Finset.sum_ite_eq' Finset.univ (xp c) fun _ => N, if_pos (Finset.mem_univ _)]
theorem launch_r3 (c : Dev nD) (k : Fin 8) :
    tallyOn (dCell c 3 k) (launchCredit (Pipeline.owing O₀) 0 (dCell c 3 k)) = (tallyAt (dCell c 3 k) () N : CellTallies nD τ sig Unit) := by
  unfold tallyAt; refine congrArg _ (Finsupp.ext fun u => ?_); cases u
  rw [Pipeline.launchCredit_owing, Finsupp.single_eq_same, Finset.sum_congr rfl fun d _ => owed_r3 d c k,
    Finset.sum_ite_eq' Finset.univ (yp c) fun _ => N, if_pos (Finset.mem_univ _)]

/-- The semaphores of one transfer family, as an embedding of the chunks. -/
def famE (j : Fin 4) : Fin 8 ↪ SemLoc sig :=
  ⟨fun k => .dma (dsem j k), fun k k' h => (dsem_inj (SemLoc.dma.inj h)).2⟩
theorem fam_disjoint : Disjoint (Finset.univ.map (famE 1)) (Finset.univ.map (famE 3)) := by
  rw [Finset.disjoint_left]
  intro s h1 h3
  obtain ⟨k, -, rfl⟩ := Finset.mem_map.mp h1
  obtain ⟨k', -, e⟩ := Finset.mem_map.mp h3
  exact absurd (dsem_inj (SemLoc.dma.inj e)).1 (by decide)
theorem fam_subset : Finset.univ.map (famE 1) ∪ Finset.univ.map (famE 3) ⊆ (Finset.univ : Finset (SemLoc sig)).erase (.reg barS) := by
  intro s hs
  refine Finset.mem_erase.mpr ⟨?_, Finset.mem_univ _⟩
  rcases Finset.mem_union.mp hs with h | h <;> (obtain ⟨k, -, rfl⟩ := Finset.mem_map.mp h; exact fun e => by cases e)

/-- The launch deals each device the credit its mates owe its cells. -/
theorem launch_creds (c : Dev nD) : (Pipeline.launchCred O₀ c : sProp 𝕄) ⊢ creds c := by
  unfold Pipeline.launchCred creds
  rw [bigSep_univ_at _ (SemLoc.reg barS), launch_bar]
  refine sep_mono_right ((bigSep_subset fam_subset).trans ?_)
  rw [bigSep_union fam_disjoint, bigSep_map, bigSep_map]
  exact (sep_mono_left (Entails.of_eq (bigSep_congr fun k _ => congrArg cred (launch_r1 c k)))).trans
    (sep_mono_right (Entails.of_eq (bigSep_congr fun k _ => congrArg cred (launch_r3 c k))))

end Cert.KernelIdeal.AR
end
-- ==== Proof.Chunks.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## Rows: a half-height buffer is its eight chunks of 32 rows -/

/-- Row `r` lies in chunk `k` exactly when `32 k ≤ r < 32 k + 32`; the column is free. -/
theorem mem_rH {k : Fin 8} {i : S256x512.Idx} :
    i ∈ (rH k).set ↔ 32 * k.val ≤ (i 0).val ∧ (i 0).val < 32 * k.val + 32 := by
  rw [Rect.mem_set_unit]
  have h1 : (i 1).val < 512 := (i 1).isLt
  constructor
  · intro h
    have := h 0
    simp only [Matrix.cons_val_zero] at this
    exact this
  · intro h a
    fin_cases a
    · exact h
    · exact ⟨Nat.zero_le _, by simpa using h1⟩

/-- Every row lies in the chunk `r / 32`. -/
theorem rH_cover (i : S256x512.Idx) : ∃ k : Fin 8, i ∈ (rH k).set := by
  have h0 : (i 0).val < 256 := (i 0).isLt
  exact ⟨⟨(i 0).val / 32, by omega⟩, mem_rH.mpr ⟨by show 32 * ((i 0).val / 32) ≤ _; omega, by show _ < 32 * ((i 0).val / 32) + 32; omega⟩⟩

/-- Two chunks with a common row are the same chunk. -/
theorem rH_disjoint {k k' : Fin 8} (h : k ≠ k') : Disjoint (rH k).set (rH k').set := by
  rw [Finset.disjoint_left]
  intro i hi hi'
  rw [mem_rH] at hi hi'
  exact h (Fin.ext (by omega))

/-! ## A buffer held whole is its pieces, for any finite family of pairwise disjoint pieces that cover it -/

theorem univ_eq_biUnion {X T : Type} [Fintype X] [DecidableEq X] [Fintype T] (K : T → Finset X) (hc : ∀ i, ∃ t, i ∈ K t) :
    (Finset.univ : Finset X) = Finset.univ.biUnion K := by
  ext i
  simp only [Finset.mem_univ, Finset.mem_biUnion, true_and, true_iff]
  exact hc i

theorem split_cover {ℓ : Loc nD τ sig} {T : Type} [Fintype T] (K : T → Finset (Idx ℓ))
    (hc : ∀ i, ∃ t, i ∈ K t) (hd : ∀ t t', t ≠ t' → Disjoint (K t) (K t'))
    (q : PosShare TreeShare) (f : Buf (Elt F) ℓ) :
    (ℓ ↦{q} f : sProp 𝕄) = bigSep Finset.univ fun t => (ℓ ↦[K t]{q} f : sProp 𝕄) := by
  have h := pointsTo_biUnion (Val := Elt F) (Name := ℕ) (U := UU) (Lvl := ℕ) (Ix := Unit) (q := q) (f := f) Finset.univ K (fun t _ t' _ h => hd t t' h)
  rw [← univ_eq_biUnion K hc] at h
  exact h

/-- Pieces each at contents of its own join to the whole at contents that agree with each on its piece. -/
theorem join_cover {ℓ : Loc nD τ sig} {T : Type} [Fintype T] (K : T → Finset (Idx ℓ))
    (hc : ∀ i, ∃ t, i ∈ K t) (hd : ∀ t t', t ≠ t' → Disjoint (K t) (K t'))
    (q : PosShare TreeShare) (fs : T → Buf (Elt F) ℓ) :
    (bigSep Finset.univ fun t => (ℓ ↦[K t]{q} fs t : sProp 𝕄))
      ⊢ iprop(∃ g, ⌜∀ t, ∀ i ∈ K t, g i = fs t i⌝ ∗ ℓ ↦{q} g) := by
  refine (pointsTo_biUnion_join Finset.univ K fs (fun _ => Classical.arbitrary _) (fun t _ t' _ h => hd t t' h)).trans ?_
  rw [← univ_eq_biUnion K hc]
  iintro ⟨%g, %hg, H⟩
  iexists g
  isplitr
  · ipureintro; exact fun t => hg t (Finset.mem_univ t)
  · iexact H

/-- Pieces each at some contents join to the whole at some contents. -/
theorem join_cover_exists {ℓ : Loc nD τ sig} {T : Type} [Fintype T] [DecidableEq T] (K : T → Finset (Idx ℓ))
    (hc : ∀ i, ∃ t, i ∈ K t) (hd : ∀ t t', t ≠ t' → Disjoint (K t) (K t'))
    (q : PosShare TreeShare) :
    (bigSep Finset.univ fun t => (iprop(∃ f, ℓ ↦[K t]{q} f) : sProp 𝕄)) ⊢ iprop(∃ g, ℓ ↦{q} g) := by
  refine (bigSep_exists_pi Finset.univ (fun t (f : Buf (Elt F) ℓ) => (ℓ ↦[K t]{q} f : sProp 𝕄))).trans ?_
  iintro ⟨%fs, H⟩
  ihave H' := (join_cover K hc hd q fs) $$ H
  icases H' with ⟨%g, -, H'⟩
  iexists g
  iexact H'

/-! ## The send and the receive buffer -/

theorem sCh_set (k : Fin 8) : (sCh k).view.set = (rH k).set := View.set_slice_whole _ _
theorem rCh_set (k : Fin 8) : (rCh k).view.set = (rH k).set := View.set_slice_whole _ _

theorem sCh_cover (i : (cc0_scratch0 : Ref sig .tc).ty.Idx) : ∃ k : Fin 8, i ∈ (sCh k).view.set := by
  obtain ⟨k, hk⟩ := rH_cover i
  exact ⟨k, by rw [sCh_set]; exact hk⟩
theorem rCh_cover (i : (cc0_scratch1 : Ref sig .tc).ty.Idx) : ∃ k : Fin 8, i ∈ (rCh k).view.set := by
  obtain ⟨k, hk⟩ := rH_cover i
  exact ⟨k, by rw [rCh_set]; exact hk⟩
theorem sCh_disjoint (k k' : Fin 8) (h : k ≠ k') : Disjoint (sCh k).view.set (sCh k').view.set := by
  rw [sCh_set, sCh_set]; exact rH_disjoint h
theorem rCh_disjoint (k k' : Fin 8) (h : k ≠ k') : Disjoint (rCh k).view.set (rCh k').view.set := by
  rw [rCh_set, rCh_set]; exact rH_disjoint h

/-! ## Rows: the full-height result buffer is its sixteen chunks, row `r` in chunk `(r / 256, (r % 256) / 32)` -/

theorem mem_rO {y : Fin 2} {k : Fin 8} {i : S512x512.Idx} :
    i ∈ (rO y k).set ↔ 256 * y.val + 32 * k.val ≤ (i 0).val ∧ (i 0).val < 256 * y.val + 32 * k.val + 32 := by
  rw [Rect.mem_set_unit]
  have h1 : (i 1).val < 512 := (i 1).isLt
  constructor
  · intro h
    have := h 0
    simp only [Matrix.cons_val_zero] at this
    exact this
  · intro h a
    fin_cases a
    · exact h
    · exact ⟨Nat.zero_le _, by simpa using h1⟩

/-- The chunk of a row is determined by the row. -/
theorem rO_chunk {y : Fin 2} {k : Fin 8} {i : S512x512.Idx} (hi : i ∈ (rO y k).set) :
    (i 0).val / 256 = y.val ∧ ((i 0).val % 256) / 32 = k.val := by
  rw [mem_rO] at hi
  have := y.isLt; have := k.isLt
  omega

theorem rO_cover (i : S512x512.Idx) : ∃ yk : Fin 2 × Fin 8, i ∈ (rO yk.1 yk.2).set := by
  have h0 : (i 0).val < 512 := (i 0).isLt
  refine ⟨(⟨(i 0).val / 256, by omega⟩, ⟨((i 0).val % 256) / 32, by omega⟩), mem_rO.mpr ⟨?_, ?_⟩⟩
  · show 256 * ((i 0).val / 256) + 32 * (((i 0).val % 256) / 32) ≤ _; omega
  · show _ < 256 * ((i 0).val / 256) + 32 * (((i 0).val % 256) / 32) + 32; omega

theorem rO_disjoint {yk yk' : Fin 2 × Fin 8} (h : yk ≠ yk') : Disjoint (rO yk.1 yk.2).set (rO yk'.1 yk'.2).set := by
  rw [Finset.disjoint_left]
  intro i hi hi'
  obtain ⟨a, b⟩ := rO_chunk hi
  obtain ⟨a', b'⟩ := rO_chunk hi'
  exact h (Prod.ext (Fin.ext (a.symm.trans a')) (Fin.ext (b.symm.trans b')))

theorem oCh_set (y : Fin 2) (k : Fin 8) : (oCh y k).view.set = (rO y k).set := View.set_slice_whole _ _

theorem oCh_cover (i : (cc0_stg1_0 : Ref sig .tc).ty.Idx) : ∃ yk : Fin 2 × Fin 8, i ∈ (oCh yk.1 yk.2).view.set := by
  obtain ⟨yk, hk⟩ := rO_cover i
  exact ⟨yk, by rw [oCh_set]; exact hk⟩
theorem oCh_disjoint (yk yk' : Fin 2 × Fin 8) (h : yk ≠ yk') : Disjoint (oCh yk.1 yk.2).view.set (oCh yk'.1 yk'.2).view.set := by
  rw [oCh_set, oCh_set]; exact rO_disjoint h

/-- On chunk `(y, k)` the result contents `outF` are that chunk's canonical contents at its owner's sums. -/
theorem outF_on_chunk (c : Dev nD) (y : Fin 2) (k : Fin 8) (i : (cc0_stg1_0 : Ref sig .tc).ty.Idx)
    (hi : i ∈ (oCh y k).view.set) : outF m ρ c i = holds (oCh y k).view (oVal m ρ (owner c y) k) i := by
  rw [oCh_set] at hi
  obtain ⟨a, b⟩ := rO_chunk hi
  -- `outF` picks the chunk `(r / 256, (r % 256) / 32)` of the row `r`, which is `(y, k)`
  have key : ∀ (y' : Fin 2) (k' : Fin 8), y' = y → k' = k →
      holds (oCh y' k').view (oVal m ρ (owner c y') k') i = holds (oCh y k).view (oVal m ρ (owner c y) k) i := by
    rintro _ _ rfl rfl; rfl
  have h0 : (i 0).val < 512 := (i 0).isLt
  exact key ⟨(i 0).val / 256, by omega⟩ ⟨((i 0).val % 256) / 32, by omega⟩ (Fin.ext a) (Fin.ext b)

/-- On a view's own elements a full write does not see what was there before. -/
theorem write_eq_holds {s : Shape} {sp : Space} (v : View sig .tc sp s .bf16) (f : v.ty.Contents (Elt F)) (w : s.Idx → Elt F .bf16) :
    ∀ i ∈ v.set, v.write (Elt F) f w Finset.univ i = holds v w i := by
  intro i hi
  -- an element of the view's set is the place of one of the view's indices; there both sides hold the payload
  obtain ⟨y, -, rfl⟩ := Finset.mem_map.mp hi
  unfold holds
  rw [View.write_emb_of_mem _ _ (Finset.mem_univ y), View.write_emb_of_mem _ _ (Finset.mem_univ y)]

/-- The send buffer, cut into its eight chunks. -/
theorem split_s (c : Dev nD) (f : Buf (Elt F) ((c : Thread nD τ).loc cc0_scratch0)) :
    ((((c : Thread nD τ).loc cc0_scratch0) ↦{fullShare} f : sProp 𝕄))
      ⊢ bigSep Finset.univ fun k : Fin 8 => ((sCh k).view.loc (c : Thread nD τ) ↦[(sCh k).view.set]{fullShare} f : sProp 𝕄) :=
  Entails.of_eq (split_cover (ℓ := (c : Thread nD τ).loc cc0_scratch0) (fun k : Fin 8 => (sCh k).view.set) sCh_cover sCh_disjoint fullShare f)
theorem join_s (c : Dev nD) :
    (bigSep Finset.univ fun k : Fin 8 => (iprop(∃ f, (sCh k).view.loc (c : Thread nD τ) ↦[(sCh k).view.set]{fullShare} f) : sProp 𝕄))
      ⊢ sAll c :=
  join_cover_exists (ℓ := (c : Thread nD τ).loc cc0_scratch0) (fun k : Fin 8 => (sCh k).view.set) sCh_cover sCh_disjoint fullShare
/-- The receive buffer, cut into its eight chunks, and back. -/
theorem split_r (c : Dev nD) : (rAll c : sProp 𝕄) ⊢ bigSep Finset.univ fun k : Fin 8 => rAny c k := by
  unfold rAll
  iintro ⟨%f, H⟩
  -- the whole at `f` is its chunks at `f`, and each chunk at `f` is a chunk at some contents
  have h1 : ((c : Thread nD τ).loc cc0_scratch1 ↦{fullShare} f : sProp 𝕄) ⊢ bigSep Finset.univ fun k : Fin 8 => rAny c k :=
    (Entails.of_eq (split_cover (ℓ := (c : Thread nD τ).loc cc0_scratch1) (fun k : Fin 8 => (rCh k).view.set) rCh_cover rCh_disjoint fullShare f)).trans
      (bigSep_mono fun k _ =>
        show ((c : Thread nD τ).loc cc0_scratch1 ↦[(rCh k).view.set]{fullShare} f : sProp 𝕄) ⊢ rAny c k from by
          unfold rAny; iintro H; iexists f; iexact H)
  iapply h1
  iexact H
theorem join_r (c : Dev nD) : (bigSep Finset.univ fun k : Fin 8 => (rAny c k : sProp 𝕄)) ⊢ rAll c :=
  join_cover_exists (ℓ := (c : Thread nD τ).loc cc0_scratch1) (fun k : Fin 8 => (rCh k).view.set) rCh_cover rCh_disjoint fullShare
/-- The result buffer, cut into its sixteen chunks. -/
theorem split_o (c : Dev nD) (f : Buf (Elt F) ((c : Thread nD τ).loc cc0_stg1_0)) :
    ((((c : Thread nD τ).loc cc0_stg1_0) ↦{fullShare} f : sProp 𝕄))
      ⊢ bigSep Finset.univ fun yk : Fin 2 × Fin 8 => oAny c yk.1 yk.2 := by
  -- the whole at `f` is its sixteen chunks at `f`, and each chunk at `f` is a chunk at some contents
  exact (Entails.of_eq (split_cover (ℓ := (c : Thread nD τ).loc cc0_stg1_0) (fun yk : Fin 2 × Fin 8 => (oCh yk.1 yk.2).view.set) oCh_cover oCh_disjoint fullShare f)).trans
    (bigSep_mono fun yk _ =>
      show ((c : Thread nD τ).loc cc0_stg1_0 ↦[(oCh yk.1 yk.2).view.set]{fullShare} f : sProp 𝕄) ⊢ oAny c yk.1 yk.2 from by
        unfold oAny; iintro H; iexists f; iexact H)
/-- Sixteen chunks, each holding its owner's sums, are the result buffer at `outF`. -/
theorem join_o (c : Dev nD) :
    (bigSep Finset.univ fun yk : Fin 2 × Fin 8 => oPts m ρ c yk.1 yk.2 (owner c yk.1))
      ⊢ ((((c : Thread nD τ).loc cc0_stg1_0) ↦{fullShare} outF m ρ c : sProp 𝕄)) := by
  unfold oPts
  -- the sixteen chunks join to the whole at contents `g` that agree with each chunk's on its rows …
  refine (join_cover (ℓ := (c : Thread nD τ).loc cc0_stg1_0) (fun yk : Fin 2 × Fin 8 => (oCh yk.1 yk.2).view.set) oCh_cover oCh_disjoint fullShare
    (fun yk => holds (oCh yk.1 yk.2).view (oVal m ρ (owner c yk.1) yk.2))).trans ?_
  iintro ⟨%g, %hg, H⟩
  -- … and so does `outF`: every row lies in a chunk, where both are the chunk's canonical contents
  have e : ((c : Thread nD τ).loc cc0_stg1_0 ↦{fullShare} g : sProp 𝕄) = ((c : Thread nD τ).loc cc0_stg1_0 ↦{fullShare} outF m ρ c) :=
    pointsTo_congr fun i _ => by
      obtain ⟨yk, hi⟩ := oCh_cover i
      rw [hg yk i hi, outF_on_chunk m ρ c yk.1 yk.2 i hi]
  rw [← e]
  iexact H
/-- A send chunk held outright is its two half shares. -/
theorem sPts_halves (c : Dev nD) (k : Fin 8) :
    sPts m ρ c k fullShare ⊣⊢ iprop(sPts m ρ c k fullShare.left ∗ sPts m ρ c k fullShare.right) := by
  unfold sPts
  exact pointsTo_share (PosShare.mem_left_op_right fullShare)

end Cert.KernelIdeal.AR
end
-- ==== Proof.Steps.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import proofs.«900134_g7700000000000135_dist_ar_v7x_xy2x2_x_m512_n512_bf16_1_alg».proof.Proof.Levels
import proofs.«900134_g7700000000000135_dist_ar_v7x_xy2x2_x_m512_n512_bf16_1_alg».proof.Proof.Chunks
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : Dev nD × CK → ℕ)

theorem within_H (k : Fin 8) : LoadRect.within (rH k) (rH k).toLoadRect = true := by revert k; decide
theorem within_O (y : Fin 2) (k : Fin 8) : LoadRect.within (rO y k) (rO y k).toLoadRect = true := by revert y k; decide

/-- A chunk's own view reads back what the chunk holds. -/
theorem read_holds {s : Shape} {sp : Space} (v : View sig .tc sp s .bf16) (w : s.Idx → Elt F .bf16) : v.read (Elt F) (holds v w) = w :=
  View.read_write_univ _ _

/-- The invariant of a cell, and that its round 0 is reached, out of the records. -/
theorem inv_at (ck : Dev nD × CK) : (records m ρ K : sProp 𝕄) ⊢ cellInv ER (Rd m ρ) (K ck) (kcell ck) := by
  unfold records; iintro ⟨#HI, -⟩
  iapply (show (bigSep Finset.univ fun ck : Dev nD × CK => (cellInv ER (Rd m ρ) (K ck) (kcell ck) : sProp 𝕄)) ⊢ cellInv ER (Rd m ρ) (K ck) (kcell ck) from bigSep_elim (Finset.mem_univ ck))
  iexact HI
theorem reached_at (ck : Dev nD × CK) : (records m ρ K : sProp 𝕄) ⊢ reached ER (kcell ck) 0 := by
  unfold records; iintro ⟨-, #HR⟩
  iapply (show (bigSep Finset.univ fun ck : Dev nD × CK => (reached ER (kcell ck) 0 : sProp 𝕄)) ⊢ reached ER (kcell ck) 0 from bigSep_elim (Finset.mem_univ ck))
  iexact HR

/-- A full store into a chunk leaves the chunk holding the stored vector, whatever it held. -/
theorem restate_s (c : Dev nD) (k : Fin 8) (f : Buf (Elt F) ((sCh k).view.loc (c : Thread nD τ))) (w : S32x512.Idx → Elt F .bf16) :
    (((sM : Memref sig .tc .vmem S256x512 .bf16).access (rH k)).loc (c : Thread nD τ) ↦[(sCh k).view.set]{fullShare}
        ((sM : Memref sig .tc .vmem S256x512 .bf16).access (rH k)).write (Elt F) f w Finset.univ : sProp 𝕄)
      = ((sCh k).view.loc (c : Thread nD τ) ↦[(sCh k).view.set]{fullShare} holds (sCh k).view w) :=
  pointsTo_congr (write_eq_holds (sCh k).view f w)

/-- Narrowing chunk `k`: the rows are loaded, the chunk of the send buffer is overwritten with them narrowed. -/
theorem step_conv (c : Dev nD) (y : Fin 2) (hyc : yF c = y) (k : Fin 8)
    {hl1 : (xM : Memref sig .tc .vmem S512x512 .f32).view.LoadsAt (rO y k).toLoadRect}
    {hl2 : (sM : Memref sig .tc .vmem S256x512 .bf16).view.LoadsAt (rH k).toLoadRect}
    {hx : ((sM : Memref sig .tc .vmem S256x512 .bf16).access (rH k)).Stores Finset.univ}
    {hm : (Finset.univ : Finset (rH k).shape.Idx) = Finset.univ ∨ ∀ a, (rH k).stride a = 1}
    {α : Type} {Q : α → sProp 𝕄} {kont : PUnit → Prog (TpuEff nD τ sig (Elt F) Λ₀ .tc) α}
    (pay : Vec F S32x512 .f32 → FVec F S32x512 .bf16) (hpay : pay = conv)
    (f : Buf (Elt F) ((sCh k).view.loc (c : Thread nD τ))) :
    iprop((((c : Thread nD τ).loc cc0_stg0_0) ↦{fullShare} xstg m ρ c)
        ∗ ((sCh k).view.loc (c : Thread nD τ) ↦[(sCh k).view.set]{fullShare} f)
        ∗ (((((c : Thread nD τ).loc cc0_stg0_0) ↦{fullShare} xstg m ρ c) ∗ sPts m ρ c k fullShare)
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.load xM (rO y k).toLoadRect hl1) fun x =>
            .op (.load sM (rH k).toLoadRect hl2) fun _ =>
            .op (.store sM (rH k) (pay x) Finset.univ hx hm) kont) Q := by
  subst hpay hyc
  iintro ⟨Hx, Hs, Hk⟩
  iapply (wp_load 𝒱₀ (c : Thread nD τ) none Set.univ (m := xM) (Finset.subset_univ _)) $$ Hx; iintro Hx
  iapply (wp_load 𝒱₀ (c : Thread nD τ) none Set.univ (m := sM) (Memref.setOn_subset_slice_of_within sM (rH k) (fun _ => rfl) _ (within_H k))) $$ Hs; iintro Hs
  iapply (wp_store 𝒱₀ (c : Thread nD τ) none Set.univ (m := sM) (r := rH k) (Mk := Finset.univ)
    (Memref.setOn_access_subset_slice_of_within sM (rH k) (fun _ => rfl) (rH k) Finset.univ (within_H k))) $$ Hs; iintro Hs
  iapply Hk
  isplitl [Hx]; · iexact Hx
  ihave Hs := (Entails.of_eq (restate_s (F := F) c k f _)) $$ Hs
  unfold sPts sVal
  iexact Hs

theorem yG_yp (c : Dev nD) : yG (yp c) = yF c := by revert c; decide
theorem yF_yp (c : Dev nD) : yF (yp c) = yG c := by revert c; decide

/-- A full store into a chunk of the result buffer, and a landing in a chunk of the receive buffer, restated. -/
theorem restate_o (c : Dev nD) (y : Fin 2) (k : Fin 8) (f : Buf (Elt F) ((oCh y k).view.loc (c : Thread nD τ))) (w : S32x512.Idx → Elt F .bf16) :
    (((oM : Memref sig .tc .vmem S512x512 .bf16).access (rO y k)).loc (c : Thread nD τ) ↦[(oCh y k).view.set]{fullShare}
        ((oM : Memref sig .tc .vmem S512x512 .bf16).access (rO y k)).write (Elt F) f w Finset.univ : sProp 𝕄)
      = ((oCh y k).view.loc (c : Thread nD τ) ↦[(oCh y k).view.set]{fullShare} holds (oCh y k).view w) :=
  pointsTo_congr (write_eq_holds (oCh y k).view f w)

/-- The first signal: to the mate along `x`, handing over this device's receive buffer. -/
theorem step_sigX (c n : Dev nD) (hn : n = xp c) {α : Type} {Q : α → sProp 𝕄} {kont : PUnit → Prog (TpuEff nD τ sig (Elt F) Λ₀ .tc) α} (W : Waits sig Unit) :
    iprop(records m ρ K ∗ owes (c : Thread nD τ) (O₀ c) W ∗ dutyTok ER (barCell (xp c)) 0 false
        ∗ (bigSep Finset.univ fun k : Fin 8 => rAny (F := F) c k)
        ∗ (owes (c : Thread nD τ) (O₁ c) W -∗ wp frame (wpE (defs₀ (F := F)) 𝒱₀ (c : Thread nD τ) none) Set.univ (kont ⟨⟩) Q))
      ⊢ wp frame (wpE (defs₀ (F := F)) 𝒱₀ (c : Thread nD τ) none) Set.univ (.op (.semSignal (n : Thread nD τ) barS 1) kont) Q := by
  subst hn
  iintro ⟨#HR, HO, Ht, Hp, Hk⟩
  iapply (Rounds.wp_signal 𝒱₀ ER (Rd m ρ) (c : Thread nD τ) none (dst := (xp c : Thread nD τ)) (κ := K (xp c, none))
      (d := false) (by rw [duties_bar]; exact Finset.mem_univ _) (amount_bar m ρ (xp c) false) () (O₁ c) rfl) $$ [HO Ht Hp]
  · isplitr; · iapply (inv_at m ρ K (xp c, none)); iexact HR
    isplitl [HO]; · iexact HO
    isplitl [Ht]; · iexact Ht
    isplitl [Hp]; · rw [payload_bar_false]; unfold barPayX; rw [xp_xp]; iexact Hp
    iapply (reached_at m ρ K (xp c, none)); iexact HR
  iexact Hk

/-- The second signal: to the mate along `y`, handing over the half of this device's result buffer the mate fills. -/
theorem step_sigY (c n : Dev nD) (hn : n = yp c) {α : Type} {Q : α → sProp 𝕄} {kont : PUnit → Prog (TpuEff nD τ sig (Elt F) Λ₀ .tc) α} (W : Waits sig Unit) :
    iprop(records m ρ K ∗ owes (c : Thread nD τ) (O₁ c) W ∗ dutyTok ER (barCell (yp c)) 0 true
        ∗ (bigSep Finset.univ fun k : Fin 8 => oAny (F := F) c (yG c) k)
        ∗ (owes (c : Thread nD τ) (owed c 0 0) W -∗ wp frame (wpE (defs₀ (F := F)) 𝒱₀ (c : Thread nD τ) none) Set.univ (kont ⟨⟩) Q))
      ⊢ wp frame (wpE (defs₀ (F := F)) 𝒱₀ (c : Thread nD τ) none) Set.univ (.op (.semSignal (n : Thread nD τ) barS 1) kont) Q := by
  subst hn
  iintro ⟨#HR, HO, Ht, Hp, Hk⟩
  iapply (Rounds.wp_signal 𝒱₀ ER (Rd m ρ) (c : Thread nD τ) none (dst := (yp c : Thread nD τ)) (κ := K (yp c, none))
      (d := true) (by rw [duties_bar]; exact Finset.mem_univ _) (amount_bar m ρ (yp c) true) () (owed c 0 0) rfl) $$ [HO Ht Hp]
  · isplitr; · iapply (inv_at m ρ K (yp c, none)); iexact HR
    isplitl [HO]; · iexact HO
    isplitl [Ht]; · iexact Ht
    isplitl [Hp]; · rw [payload_bar_true]; unfold barPayY; rw [yp_yp, yF_yp]; iexact Hp
    iapply (reached_at m ρ K (yp c, none)); iexact HR
  iexact Hk

/-- The barrier wait: both mates are inside the kernel, and their buffers come with their signals. -/
theorem step_barwait (c : Dev nD) {α : Type} {Q : α → sProp 𝕄} {kont : PUnit → Prog (TpuEff nD τ sig (Elt F) Λ₀ .tc) α} (W : Waits sig Unit) :
    iprop(records m ρ K ∗ levAts L lv ∗ cred (tallyAt (barCell c) () 2) ∗ owes (c : Thread nD τ) (owed c 0 0) W
        ∗ atPos ER (barCell c) 0 ∅ 0
        ∗ ((owes (c : Thread nD τ) (owed c 0 0) (insert (SemLoc.reg barS, ()) W) ∗ atPos ER (barCell c) 1 ∅ 0
              ∗ barPayX (F := F) c ∗ barPayY (F := F) c) -∗ wp frame (wpE (defs₀ (F := F)) 𝒱₀ (c : Thread nD τ) none) Set.univ (kont ⟨⟩) Q))
      ⊢ wp frame (wpE (defs₀ (F := F)) 𝒱₀ (c : Thread nD τ) none) Set.univ (.op (.semWait barS 2) kont) Q := by
  iintro ⟨#HR, #Hlev, Hc, HO, Hat, Hk⟩
  iapply (Rounds.wp_wait_rest_token 𝒱₀ ER (Rd m ρ) (c : Thread nD τ) none (κ := K (c, none))
      (wpE_semWait_eq 𝒱₀ (c : Thread nD τ) none Set.univ) (Set.mem_univ _) () (O := owed c 0 0) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

/-- A wait on one of the device's own transfer cells for its one duty: the duty's payload comes back. -/
theorem step_wait (c : Dev nD) (j : Fin 4) (k : Fin 8) (O : CellTallies nD τ sig Unit)
    (hmw : (levAts L lv : sProp 𝕄) ⊢ MayWait (c : Thread nD τ) (.dma (dsem j k)) () O)
    {sp sp' : Space} {s s' : Shape} {e e' : EltTy} {src : Memref sig .tc sp' s' e'} (dst : Memref sig .tc sp s e)
    {hsrc : src.view.WordExact} {hdst : dst.view.WordExact} (hamt : dst.view.dmaCredit = N)
    (P : sProp 𝕄) (hP : dmaPay m ρ c j k = P)
    {α : Type} {Q : α → sProp 𝕄} {kont : PUnit → Prog (TpuEff nD τ sig (Elt F) Λ₀ .tc) α} (W : Waits sig Unit) :
    iprop(records m ρ K ∗ levAts L lv ∗ cred (tallyAt (dCell c j k) () N) ∗ owes (c : Thread nD τ) O W ∗ atPos ER (dCell c j k) 0 ∅ 0
        ∗ ((owes (c : Thread nD τ) O (insert (SemLoc.dma (dsem j k), ()) W) ∗ atPos ER (dCell c j k) 1 ∅ 0 ∗ P)
            -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 (dsem j k) src dst hsrc hdst) kont) Q := by
  subst hP
  iintro ⟨#HR, #Hlev, Hc, HO, Hat, Hk⟩
  have e : (cred (tallyAt (dCell c j k) () N) : sProp 𝕄) = cred (tallyAt (dCell c j k) () dst.view.dmaCredit) := by rw [hamt]
  ihave Hc := (Entails.of_eq e) $$ Hc
  iapply (Rounds.wp_wait_rest_token 𝒱₀ ER (Rd m ρ) (c : Thread nD τ) none (κ := K (c, some (j, k)))
      (wpE_waitDma2_eq 𝒱₀ (c : Thread nD τ) none Set.univ) (Set.mem_univ _) () (O := O) (W := W) (R := 0) (m := 0) (T := ∅)
      (by rw [Nat.zero_add, expect_dma, hamt])) $$ [Hc HO Hat]
  · isplitr; · iapply (inv_at m ρ K (c, some (j, k))); iexact HR
    isplitl [Hc]; · iexact Hc
    isplitl [HO]; · iexact HO
    isplitr; · iapply hmw; iexact Hlev
    iexact Hat
  iintro ⟨HO, Hat, -, Hpay⟩
  ihave Hp := (Entails.of_eq (rest_dma m ρ c j k)) $$ Hpay
  iapply Hk
  isplitl [HO]; · iexact HO
  isplitl [Hat]; · iexact Hat
  iexact Hp

/-- The first-phase transfer of chunk `k`: half of the send chunk's share is lent, the mate's receive chunk is filled. -/
theorem step_send1 (c n : Dev nD) (hn : n = xp c) (k : Fin 8) (b : ℕ)
    {hsc : ((rCh k : Memref sig (Dev.tc n : Thread nD τ).2.kind .vmem S32x512 .bf16)).view.ref.isScScratch = false}
    {hsrc : (sCh k).view.WordExact} {hdst : (rCh k).view.WordExact}
    {hsem : DmaTarget.Typed .vmem (.dma (dsem 1 k)) (.remote (Dev.tc n : Thread nD τ) (rCh k) (.dma (dsem 0 k)) hsc)}
    {α : Type} {Q : α → sProp 𝕄} {kont : PUnit → Prog (TpuEff nD τ sig (Elt F) Λ₀ .tc) α}
    (fd : Buf (Elt F) ((rCh k).view.loc (xp c : Thread nD τ))) (W : Waits sig Unit) :
    iprop(records m ρ K ∗ sPts m ρ c k fullShare.left
        ∗ ((rCh k).view.loc (xp c : Thread nD τ) ↦[(rCh k).view.set]{fullShare} fd)
        ∗ owes (c : Thread nD τ) (owed c k.val b) W
        ∗ dutyTok ER (dCell c 0 k) 0 false ∗ dutyTok ER (dCell (xp c) 1 k) 0 false
        ∗ ((cred (tallyAt (dCell c 0 k) () N) ∗ owes (c : Thread nD τ) (owed c (k.val + 1) b) W) -∗ wp frame (wpE (defs₀ (F := F)) 𝒱₀ (c : Thread nD τ) none) Set.univ (kont ⟨⟩) Q))
      ⊢ wp frame (wpE (defs₀ (F := F)) 𝒱₀ (c : Thread nD τ) none) Set.univ (.op (.enqueueDma (sCh k) (.remote (Dev.tc n : Thread nD τ) (rCh k) (.dma (dsem 0 k)) hsc) (.dma (dsem 1 k)) hsrc hdst hsem) kont) Q := by
  subst hn
  iintro ⟨#HR, Hs, Hd, HO, Ht0, Ht1, Hk⟩
  unfold sPts
  iapply (Rounds.wp_send_pointsTo 𝒱₀ ER (Rd m ρ) (c : Thread nD τ) none (κ₁ := K (c, some (0, k))) (κ₂ := K (xp c, some (1, k)))
      (src := sCh k) (dst := rCh k) (c' := (xp c : Thread nD τ)) (q := fullShare.left)
      (fs := holds (sCh k).view (sVal m ρ c k)) (r₁ := 0) (r₂ := 0) (d₁ := false) (d₂ := false) (fd := fd)
      (by rw [duties_dma]; exact Finset.mem_singleton_self _) (by rw [duties_dma]; exact Finset.mem_singleton_self _)
      () () N rfl (amount_dma m ρ c 0 k false) (amount_dma m ρ (xp c) 1 k false) (owed c (k.val + 1) b) (owed_peelX c k.val b k.isLt) (W := W)
      (by rw [payload_dma]; exact BI.Entails.refl _)
      (by rw [payload_dma]; show _ ⊢ rPts m ρ (xp c) k; unfold rPts
          rw [xp_xp, read_holds, pointsTo_congr (write_eq_holds (rCh k).view fd _)])) $$ [Hs Hd HO Ht0 Ht1]
  · isplitr; · iapply (inv_at m ρ K (c, some (0, k))); iexact HR
    isplitr; · iapply (inv_at m ρ K (xp c, some (1, k))); iexact HR
    isplitl [Hs]; · iexact Hs
    isplitl [Hd]; · iexact Hd
    isplitl [HO]; · iexact HO
    isplitl [Ht0]; · iexact Ht0
    isplitr; · iapply (reached_at m ρ K (c, some (0, k))); iexact HR
    isplitl [Ht1]; · iexact Ht1
    iapply (reached_at m ρ K (xp c, some (1, k))); iexact HR
  iexact Hk

/-- Adding chunk `k`: the device's own narrowed rows and the mate's, summed into the result buffer. -/
theorem step_add (c : Dev nD) (y : Fin 2) (hyc : yF c = y) (k : Fin 8)
    {hl1 : (sM : Memref sig .tc .vmem S256x512 .bf16).view.LoadsAt (rH k).toLoadRect}
    {hl2 : (rM : Memref sig .tc .vmem S256x512 .bf16).view.LoadsAt (rH k).toLoadRect}
    {hl3 : (oM : Memref sig .tc .vmem S512x512 .bf16).view.LoadsAt (rO y k).toLoadRect}
    {hx : ((oM : Memref sig .tc .vmem S512x512 .bf16).access (rO y k)).Stores Finset.univ}
    {hm : (Finset.univ : Finset (rO y k).shape.Idx) = Finset.univ ∨ ∀ a, (rO y k).stride a = 1}
    {α : Type} {Q : α → sProp 𝕄} {kont : PUnit → Prog (TpuEff nD τ sig (Elt F) Λ₀ .tc) α}
    (pay : Vec F S32x512 .bf16 → Vec F S32x512 .bf16 → FVec F S32x512 .bf16) (hpay : pay = fun a b => addf a b)
    (f : Buf (Elt F) ((oCh y k).view.loc (c : Thread nD τ))) :
    iprop(sPts m ρ c k fullShare.right ∗ rPts m ρ c k
        ∗ ((oCh y k).view.loc (c : Thread nD τ) ↦[(oCh y k).view.set]{fullShare} f)
        ∗ ((sPts m ρ c k fullShare.right ∗ rPts m ρ c k ∗ oPts m ρ c y k c) -∗ wp frame (wpE (defs₀ (F := F)) 𝒱₀ (c : Thread nD τ) none) Set.univ (kont ⟨⟩) Q))
      ⊢ wp frame (wpE (defs₀ (F := F)) 𝒱₀ (c : Thread nD τ) none) Set.univ
          (.op (.load sM (rH k).toLoadRect hl1) fun a =>
            .op (.load rM (rH k).toLoadRect hl2) fun b =>
            .op (.load oM (rO y k).toLoadRect hl3) fun _ =>
            .op (.store oM (rO y k) (pay a b) Finset.univ hx hm) kont) Q := by
  subst hpay hyc
  iintro ⟨Hs, Hr, Ho, Hk⟩
  unfold sPts rPts
  iapply (wp_load 𝒱₀ (c : Thread nD τ) none Set.univ (m := sM) (Memref.setOn_subset_slice_of_within sM (rH k) (fun _ => rfl) _ (within_H k))) $$ Hs; iintro Hs
  iapply (wp_load 𝒱₀ (c : Thread nD τ) none Set.univ (m := rM) (Memref.setOn_subset_slice_of_within rM (rH k) (fun _ => rfl) _ (within_H k))) $$ Hr; iintro Hr
  iapply (wp_load 𝒱₀ (c : Thread nD τ) none Set.univ (m := oM) (Memref.setOn_subset_slice_of_within oM (rO (yF c) k) (fun _ => rfl) _ (within_O (yF c) k))) $$ Ho; iintro Ho
  iapply (wp_store 𝒱₀ (c : Thread nD τ) none Set.univ (m := oM) (r := rO (yF c) k) (Mk := Finset.univ)
    (Memref.setOn_access_subset_slice_of_within oM (rO (yF c) k) (fun _ => rfl) (rO (yF c) k) Finset.univ (within_O (yF c) k))) $$ Ho; iintro Ho
  iapply Hk
  isplitl [Hs]; · iexact Hs
  isplitl [Hr]; · iexact Hr
  ihave Ho := (Entails.of_eq (restate_o (F := F) c (yF c) k f _)) $$ Ho
  unfold oPts oVal
  have e1 : (sM : Memref sig .tc .vmem S256x512 .bf16).view.readAt (Elt F) (rH k).toLoadRect (holds (sCh k).view (sVal m ρ c k)) = sVal m ρ c k :=
    read_holds (sCh k).view _
  have e2 : (rM : Memref sig .tc .vmem S256x512 .bf16).view.readAt (Elt F) (rH k).toLoadRect (holds (rCh k).view (sVal m ρ (xp c) k)) = sVal m ρ (xp c) k :=
    read_holds (rCh k).view _
  rw [e1, e2]
  iexact Ho

/-- The second-phase transfer of chunk `k`: the summed chunk goes to the mate along `y`. -/
theorem step_send2 (c n : Dev nD) (hn : n = yp c) (y : Fin 2) (hyc : yF c = y) (k : Fin 8)
    {hsc : ((oCh y k : Memref sig (Dev.tc n : Thread nD τ).2.kind .vmem S32x512 .bf16)).view.ref.isScScratch = false}
    {hsrc : (oCh y k).view.WordExact} {hdst : (oCh y k).view.WordExact}
    {hsem : DmaTarget.Typed .vmem (.dma (dsem 3 k)) (.remote (Dev.tc n : Thread nD τ) (oCh y k) (.dma (dsem 2 k)) hsc)}
    {α : Type} {Q : α → sProp 𝕄} {kont : PUnit → Prog (TpuEff nD τ sig (Elt F) Λ₀ .tc) α}
    (fd : Buf (Elt F) ((oCh y k).view.loc (yp c : Thread nD τ))) (W : Waits sig Unit) :
    iprop(records m ρ K ∗ oPts m ρ c y k c
        ∗ ((oCh y k).view.loc (yp c : Thread nD τ) ↦[(oCh y k).view.set]{fullShare} fd)
        ∗ owes (c : Thread nD τ) (owed c 8 k.val) W
        ∗ dutyTok ER (dCell c 2 k) 0 false ∗ dutyTok ER (dCell (yp c) 3 k) 0 false
        ∗ ((cred (tallyAt (dCell c 2 k) () N) ∗ owes (c : Thread nD τ) (owed c 8 (k.val + 1)) W) -∗ wp frame (wpE (defs₀ (F := F)) 𝒱₀ (c : Thread nD τ) none) Set.univ (kont ⟨⟩) Q))
      ⊢ wp frame (wpE (defs₀ (F := F)) 𝒱₀ (c : Thread nD τ) none) Set.univ (.op (.enqueueDma (oCh y k) (.remote (Dev.tc n : Thread nD τ) (oCh y k) (.dma (dsem 2 k)) hsc) (.dma (dsem 3 k)) hsrc hdst hsem) kont) Q := by
  subst hn hyc
  iintro ⟨#HR, Hs, Hd, HO, Ht0, Ht1, Hk⟩
  unfold oPts
  iapply (Rounds.wp_send_pointsTo 𝒱₀ ER (Rd m ρ) (c : Thread nD τ) none (κ₁ := K (c, some (2, k))) (κ₂ := K (yp c, some (3, k)))
      (src := oCh (yF c) k) (dst := oCh (yF c) k) (c' := (yp c : Thread nD τ)) (q := fullShare)
      (fs := holds (oCh (yF c) k).view (oVal m ρ c k)) (r₁ := 0) (r₂ := 0) (d₁ := false) (d₂ := false) (fd := fd)
      (by rw [duties_dma]; exact Finset.mem_singleton_self _) (by rw [duties_dma]; exact Finset.mem_singleton_self _)
      () () N rfl (amount_dma m ρ c 2 k false) (amount_dma m ρ (yp c) 3 k false) (owed c 8 (k.val + 1)) (owed_peelY c 8 k.val k.isLt) (W := W)
      (by rw [payload_dma]; exact BI.Entails.refl _)
      (by rw [payload_dma]; show _ ⊢ oPts m ρ (yp c) (yG (yp c)) k (yp (yp c)); unfold oPts
          rw [yp_yp, yG_yp, read_holds, pointsTo_congr (write_eq_holds (oCh (yF c) k).view fd _)])) $$ [Hs Hd HO Ht0 Ht1]
  · isplitr; · iapply (inv_at m ρ K (c, some (2, k))); iexact HR
    isplitr; · iapply (inv_at m ρ K (yp c, some (3, k))); iexact HR
    isplitl [Hs]; · iexact Hs
    isplitl [Hd]; · iexact Hd
    isplitl [HO]; · iexact HO
    isplitl [Ht0]; · iexact Ht0
    isplitr; · iapply (reached_at m ρ K (c, some (2, k))); iexact HR
    isplitl [Ht1]; · iexact Ht1
    iapply (reached_at m ρ K (yp c, some (3, k))); iexact HR
  iexact Hk

/-- A transfer cell whose one round is over goes back to the launch at zero. -/
theorem close_cell (c : Dev nD) (j : Fin 4) (k : Fin 8) :
    iprop(records m ρ K ∗ atPos ER (dCell c j k) 1 ∅ 0) ⊢ |={Set.univ}=> (semVal (dCell c j k) 0 : sProp 𝕄) := by
  iintro ⟨#HR, Hat⟩
  iapply (Rounds.cell_close ER (Rd m ρ) (Set.mem_univ (K (c, some (j, k)))) (fun h => h) (R := 0 + 1) (duties_later m ρ (dCell c j k))) $$ [Hat]
  isplitr; · iapply (inv_at m ρ K (c, some (j, k))); iexact HR
  iexact Hat

end Steps

end Cert.KernelIdeal.AR
end
-- ==== Proof.Launch.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import proofs.«900134_g7700000000000135_dist_ar_v7x_xy2x2_x_m512_n512_bf16_1_alg».proof.Proof.Levels
import proofs.«900134_g7700000000000135_dist_ar_v7x_xy2x2_x_m512_n512_bf16_1_alg».proof.Proof.Chunks
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions over the index types of the launch -/

theorem bigSep_bool (Φ : Bool → sProp 𝕄) : bigSep Finset.univ Φ = iprop(Φ false ∗ Φ true) :=
  bigSep_univ_eq_bigSepL [false, true] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A conjunction over an optional index is the summand at no index and the conjunction over the indices. -/
theorem bigSep_univ_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x; cases x <;> simp
  rw [bigSep_univ_at Φ none, h, bigSep_map]
  rfl

/-! ## The launch -/

theorem ownSemFacts : Pipeline.OwnSemFacts cfg0.spec osem := by decide

theorem share_eq (c : Dev nD) (w : Fin cfg0.W) : (dats m ρ 0 c).share w = fullShare := by unfold Dat.share; split <;> rfl

/-- Distinct (family, chunk) pairs name distinct transfer semaphores. -/

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    rcases k with _ | ⟨j, k⟩ <;> rcases k' with _ | ⟨j', k'⟩
    · rfl
    · exact absurd h2 (fun h' => by cases h')
    · exact absurd h2 (fun h' => by cases h')
    · obtain ⟨rfl, rfl⟩ := dsem_inj (j := j) (j' := j') (k := k) (k' := k') (SemLoc.dma.inj h2); rfl
  subst this; rfl

/-- Every device's thirty-three cells. -/
def arCells : Finset (GSem nD τ sig) := Finset.univ.map ⟨kcell, kcell_injective⟩

/-- The duties of a device's own cells: its barrier cell's two, one of each transfer cell. -/
abbrev TK : Type := Bool ⊕ (Fin 4 × Fin 8)
abbrev tokOf (ct : Dev nD × TK) : GSem nD τ sig × ℕ × Bool := match ct.2 with
  | .inl b => (barCell ct.1, 0, b)
  | .inr jk => (dCell ct.1 jk.1 jk.2, 0, false)
theorem tokOf_injective : Function.Injective (tokOf : Dev nD × TK → GSem nD τ sig × ℕ × Bool) := by
  rintro ⟨c, t⟩ ⟨c', t'⟩ h
  have h1 : c = c' := by
    have := congrArg (fun x : GSem nD τ sig × ℕ × Bool => x.1.1.1) h
    rcases t with b | jk <;> rcases t' with b' | jk' <;> exact this
  subst h1
  have : t = t' := by
    rcases t with b | ⟨j, k⟩ <;> rcases t' with b' | ⟨j', k'⟩
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · obtain ⟨rfl, rfl⟩ := dsem_inj (j := j) (j' := j') (k := k) (k' := k') (SemLoc.dma.inj (congrArg (fun x : GSem nD τ sig × ℕ × Bool => x.1.2) h)); rfl
  subst this; rfl
def arToks : Finset (GSem nD τ sig × ℕ × Bool) := Finset.univ.map ⟨tokOf, tokOf_injective⟩

/-- The launch element: the pipeline's staging cells beside the protocol's cells and duty tokens. -/
def u₀ : UU :=
  (initOf (Pipeline.cells cfgs cellOf_inj) (Pipeline.launchToks cfgs cellOf_inj), initOf arCells arToks)

/-- The duty tokens of device c's own cells, as minted. -/
def toks (c : Dev nD) : sProp 𝕄 :=
  iprop((dutyTok ER (barCell c) 0 false ∗ dutyTok ER (barCell c) 0 true)
    ∗ ((bigSep Finset.univ fun k : Fin 8 => dutyTok ER (dCell c 0 k) 0 false)
      ∗ (bigSep Finset.univ fun k : Fin 8 => dutyTok ER (dCell c 1 k) 0 false)
      ∗ (bigSep Finset.univ fun k : Fin 8 => dutyTok ER (dCell c 2 k) 0 false)
      ∗ (bigSep Finset.univ fun k : Fin 8 => dutyTok ER (dCell c 3 k) 0 false)))

/-- What the launch element deals device c: its cells' round states, their positions with round 0 reached, their tokens. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ar : BI.own (ER (initOf arCells arToks)) ⊢ (|==> bigSep Finset.univ (G m ρ) : sProp 𝕄) := by
  have hX (Φ : GSem nD τ sig → sProp 𝕄) : bigSep arCells Φ = bigSep Finset.univ fun c : Dev nD => bigSep Finset.univ fun k : CK => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by
      unfold toks
      rw [bigSep_univ_sum, bigSep_bool, bigSep_univ_prod, bigSep_fin4]
      rfl
  iintro HX
  imod (Rounds.fund ER (Rd m ρ) arCells arToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's thirty-three counters at zero: its transfer semaphores' and its barrier semaphore's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_option]
  unfold Pipeline.ownSems0
  iintro ⟨HO, HB⟩
  isplitl [HB]; · iexact HB
  iexact HO

/-- Each of a device's cells gets its invariant, from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m ρ K ∗ linear c) ⊢ G' m ρ c := by
  unfold G' ghost
  iintro H
  iexists K
  iexact H

/-- The tokens dealt to the devices that pay the duties: a barrier cell's false token to the mate along x, its true token
    to the mate along y, a first-phase receive cell's token to the mate along x, a second-phase receive cell's to the
    mate along y; the send cells' tokens stay. Both mates are involutions of the mesh. -/
theorem toks_around : (bigSep Finset.univ fun c : Dev nD => (toks c : sProp 𝕄)) ⊢ bigSep Finset.univ fun c : Dev nD => payToks c := by
  unfold toks payToks
  simp only [bigSep_sep']
  rw [bigSep_univ_equiv xSwap (fun c : Dev nD => (dutyTok ER (barCell c) 0 false : sProp 𝕄)),
    bigSep_univ_equiv ySwap (fun c : Dev nD => (dutyTok ER (barCell c) 0 true : sProp 𝕄)),
    bigSep_univ_equiv xSwap (fun c : Dev nD => (bigSep Finset.univ fun k : Fin 8 => dutyTok ER (dCell c 1 k) 0 false : sProp 𝕄)),
    bigSep_univ_equiv ySwap (fun c : Dev nD => (bigSep Finset.univ fun k : Fin 8 => dutyTok ER (dCell c 3 k) 0 false : sProp 𝕄))]
  iintro ⟨⟨Hf, Ht⟩, H0, H1, H2, H3⟩
  isplitl [Hf]; · iexact Hf
  isplitl [Ht]; · iexact Ht
  isplitl [H0]; · iexact H0
  isplitl [H1]; · iexact H1
  isplitl [H2]; · iexact H2
  iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names gathered into one table, the records copied to every device, the tokens dealt. -/
theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq rfl))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sAll rAll
  iintro ⟨Hs, -, Hsc, Hrc⟩
  isplitl [Hs]; · iexact Hs
  isplitl [Hsc]; · iexact Hsc
  iexact Hrc

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ sAll rAll Pipeline.ownSems0
  iintro ⟨Hs, Hr, Hz⟩
  isplitr; · iempintro
  isplitl [Hz]; · iexact Hz
  isplitl [Hs]; · iexact Hs
  iexact Hr

/-- The staging cells' waits sit at level 0, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled 2 × 2 mesh, for any float values, from any memory with zero counters: given each device's body
    proved against the protocol's proof data, every weakly fair execution of @main terminates, and every final state
    has each device's arrays at the proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ar m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.AR
end
-- ==== Proof.Finish.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import proofs.«900134_g7700000000000135_dist_ar_v7x_xy2x2_x_m512_n512_bf16_1_alg».proof.Proof.Levels
import proofs.«900134_g7700000000000135_dist_ar_v7x_xy2x2_x_m512_n512_bf16_1_alg».proof.Proof.Chunks
import proofs.«900134_g7700000000000135_dist_ar_v7x_xy2x2_x_m512_n512_bf16_1_alg».proof.Proof.Steps
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces of the post-condition -/

/-- Every transfer cell of the device, its one round over, goes back at zero: one update for all thirty-two. -/
theorem cells_close (K : Dev nD × CK → ℕ) (c : Dev nD) :
    iprop(records m ρ K ∗ bigSep Finset.univ fun jk : Fin 4 × Fin 8 => atPos ER (dCell c jk.1 jk.2) 1 ∅ 0)
      ⊢ |={Set.univ}=> (bigSep Finset.univ fun jk : Fin 4 × Fin 8 => semVal ((c : Thread nD τ), osem jk) 0 : sProp 𝕄) :=
  (bigSep_with_persistent (R := records m ρ K) fun jk _ => close_cell m ρ K c jk.1 jk.2).trans (bigSep_fupd _ _)

/-- The send buffer back whole: each chunk's two half shares are the chunk, the chunks are the buffer. -/
theorem sAll_intro (c : Dev nD) :
    (bigSep Finset.univ fun k : Fin 8 => iprop(sPts m ρ c k fullShare.left ∗ sPts m ρ c k fullShare.right)) ⊢ sAll c :=
  (bigSep_mono fun k _ => (sPts_halves m ρ c k).2.trans
    (show sPts m ρ c k fullShare ⊢ iprop(∃ f, (sCh k).view.loc (c : Thread nD τ) ↦[(sCh k).view.set]{fullShare} f) from by
      unfold sPts; iintro H; iexists _; iexact H)).trans (join_s c)

/-- The receive buffer back whole. -/
theorem rAll_intro (c : Dev nD) : (bigSep Finset.univ fun k : Fin 8 => rPts m ρ c k) ⊢ rAll c :=
  (bigSep_mono fun k _ => show rPts m ρ c k ⊢ rAny c k from by
    unfold rPts rAny; iintro H; iexists _; iexact H).trans (join_r c)

/-- The two halves of the result buffer are its own half and the other one; the device owns the first, its `y` mate the second. -/
theorem yG_ne_yF (c : Dev nD) : yG c ≠ yF c := by revert c; decide
theorem erase_yF (c : Dev nD) : (Finset.univ : Finset (Fin 2)).erase (yF c) = {yG c} := by revert c; decide
theorem owner_yF (c : Dev nD) : owner c (yF c) = c := by unfold owner; rw [if_pos rfl]
theorem owner_yG (c : Dev nD) : owner c (yG c) = yp c := by unfold owner; rw [if_neg (yG_ne_yF c)]

theorem out_halves (c : Dev nD) :
    (bigSep Finset.univ fun yk : Fin 2 × Fin 8 => oPts m ρ c yk.1 yk.2 (owner c yk.1))
      = iprop((bigSep Finset.univ fun k : Fin 8 => oPts m ρ c (yF c) k c)
          ∗ (bigSep Finset.univ fun k : Fin 8 => oPts m ρ c (yG c) k (yp c))) := by
  rw [bigSep_univ_prod, bigSep_univ_at _ (yF c), erase_yF, bigSep_singleton]
  show iprop((bigSep Finset.univ fun k : Fin 8 => oPts m ρ c (yF c) k (owner c (yF c)))
      ∗ (bigSep Finset.univ fun k : Fin 8 => oPts m ρ c (yG c) k (owner c (yG c)))) = _
  rw [owner_yF, owner_yG]

/-- After the last wait: every transfer cell's round is over, every chunk is back where it belongs; the cells go back to
    the launch at zero, the chunks are joined into their buffers, and the result buffer holds `outF`. -/
theorem body_finish (K : Dev nD × CK → ℕ) (c : Dev nD) (W : Waits sig Unit) :
    iprop(records m ρ K
        ∗ (bigSep Finset.univ fun jk : Fin 4 × Fin 8 => atPos ER (dCell c jk.1 jk.2) 1 ∅ 0)
        ∗ (bigSep Finset.univ fun k : Fin 8 => iprop(sPts m ρ c k fullShare.left ∗ sPts m ρ c k fullShare.right))
        ∗ (bigSep Finset.univ fun k : Fin 8 => rPts m ρ c k)
        ∗ (bigSep Finset.univ fun k : Fin 8 => oPts m ρ c (yF c) k c)
        ∗ (bigSep Finset.univ fun k : Fin 8 => oPts m ρ c (yG c) k (yp c))
        ∗ (((c : Thread nD τ).loc cc0_stg0_0) ↦{fullShare} xstg m ρ c)
        ∗ owes (c : Thread nD τ) 0 W)
      ⊢ |={Set.univ}=> bodyPost m ρ c := by
  iintro ⟨#HR, Hat, Hs, Hr, Ho1, Ho2, Hx, HO⟩
  imod (cells_close m ρ K c) $$ [Hat] with Hz
  · isplitr; · iexact HR
    iexact Hat
  imodintro
  unfold bodyPost Φ₁
  isplitl [Hs Hr Hz]
  · isplitl [Hs]; · iapply (sAll_intro m ρ c); iexact Hs
    isplitl [Hr]; · iapply (rAll_intro m ρ c); iexact Hr
    iexact Hz
  isplitl [HO]
  · unfold Dat.owesAt Pipeline.owesWithin
    rw [show (dats m ρ 0 c).owed t₀.succ = 0 from rfl]
    iexists W
    isplitr; · ipureintro; exact fun _ _ => Or.inl trivial
    iexact HO
  isplitl [Hx]
  · iexists _; isplitr; · (ipureintro; rfl)
    iexact Hx
  iexists _; isplitr; · (ipureintro; rfl)
  iapply (join_o m ρ c)
  rw [out_halves m ρ c]
  isplitl [Ho1]; · iexact Ho1
  iexact Ho2

end Cert.KernelIdeal.AR
end
-- ==== Proof.Oblig.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import proofs.«900134_g7700000000000135_dist_ar_v7x_xy2x2_x_m512_n512_bf16_1_alg».proof.Proof.Levels
import proofs.«900134_g7700000000000135_dist_ar_v7x_xy2x2_x_m512_n512_bf16_1_alg».proof.Proof.Chunks
import proofs.«900134_g7700000000000135_dist_ar_v7x_xy2x2_x_m512_n512_bf16_1_alg».proof.Proof.Launch
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## From the body lemma to the body obligation, and to the run -/

/-- A whole buffer owned at contents X is the buffer at some contents equal to X. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition at the one grid point: the invariant at the point, what the device owes there, and the
    two staging buffers at what they hold before the body. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation of every device from the body lemma: the grid has one point; there the obligation's precondition is
    the lemma's with the table of invariant names opened, and its postcondition is the lemma's. -/
theorem body_obligation_of
    (hsound : ∀ (K : Dev nD × CK → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              cc0_scratch2 cc0_scratch3 cc0_scratch4 cc0_scratch5) Kt) :
    ∀ c : Dev nD, BodyObligation (dats (F := F) m ρ 0 c) (defs₀ (F := F)) 𝒱₀ () Set.univ := fun c t => by
  rw [fin_N t]
  rw [Gen.bigSep_W0, Gen.bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  unfold bodyPre' Φ₀ start
  iintro ⟨⟨⟨⟨%K, Hg⟩, Hcr, Hlev⟩, Hs, Hr⟩, Ho, Hx, Hout⟩
  iapply (hsound K c fun _ => bodyPost m ρ c)
  unfold bodyPre
  isplitr []
  · isplitl [Hg Hcr Hlev Hs Hr]
    · isplitl [Hg]; · iexact Hg
      isplitl [Hcr]; · iexact Hcr
      isplitl [Hlev]; · iexact Hlev
      isplitl [Hs]; · iexact Hs
      iexact Hr
    isplitl [Ho]; · iexact Ho
    isplitl [Hx] <;> iassumption
  · iintro H; iexact H

/-- The run of @main from the body lemma, at one memory and generator state. -/
theorem run_of_sound
    (hsound : ∀ (K : Dev nD × CK → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              cc0_scratch2 cc0_scratch3 cc0_scratch4 cc0_scratch5) Kt) :
    θ_run defs (onTc (τ := τ) (main (F := F))) (s₀ m ρ) (QC m ρ) :=
  run_main m ρ (body_obligation_of m ρ hsound)

/-- The same from every memory with zero counters and every generator state. -/
theorem run_of_sound_all
    (hsound : ∀ (m : (ℓ : Loc nD τ sig) → Buf (Elt F) ℓ) (ρ : Dev nD → PrngReg)
        (K : Dev nD × CK → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              cc0_scratch2 cc0_scratch3 cc0_scratch4 cc0_scratch5) Kt) :
    ∀ (m : (ℓ : Loc nD τ sig) → Buf (Elt F) ℓ) (ρ : Dev nD → PrngReg),
      θ_run defs (onTc (τ := τ) (main (F := F))) (s₀ m ρ) (QC m ρ) :=
  fun m ρ => run_of_sound m ρ (hsound m ρ)

end Cert.KernelIdeal.AR
end
-- ==== Proof.Body0.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import proofs.«900134_g7700000000000135_dist_ar_v7x_xy2x2_x_m512_n512_bf16_1_alg».proof.Proof.Levels
import proofs.«900134_g7700000000000135_dist_ar_v7x_xy2x2_x_m512_n512_bf16_1_alg».proof.Proof.Chunks
import proofs.«900134_g7700000000000135_dist_ar_v7x_xy2x2_x_m512_n512_bf16_1_alg».proof.Proof.Steps
import proofs.«900134_g7700000000000135_dist_ar_v7x_xy2x2_x_m512_n512_bf16_1_alg».proof.Proof.Launch
import proofs.«900134_g7700000000000135_dist_ar_v7x_xy2x2_x_m512_n512_bf16_1_alg».proof.Proof.Finish
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- `isplitl` one named hypothesis at a time. -/
syntax "feed0 " ident* : tactic
macro_rules
  | `(tactic| feed0) => `(tactic| skip)
  | `(tactic| feed0 $h $hs*) => `(tactic| ((isplitl [$h]; · iexact $h); feed0 $hs*))

/-! The body on a device whose `y` coordinate is 0: the region of `y = 0` is entered, the other is not. -/

theorem cond1_y0 (c : Dev nD) (hy : yOf c = 0) : k0_cond1 c = 1#1 := by revert c; decide
theorem cond2_y0 (c : Dev nD) (hy : yOf c = 0) : k0_cond2 c = 0#1 := by revert c; decide
theorem yF_y0 (c : Dev nD) (hy : yOf c = 0) : yF c = 0 := Fin.ext hy
theorem yG_y0 (c : Dev nD) (hy : yOf c = 0) : yG c = 1 := Fin.ext (by show 1 - yOf c = 1; rw [hy])
theorem devX_eq0 (c : Dev nD) : (⟨k0_dev1 c, k0_dev1_lt c⟩ : Dev nD) = xp c := Fin.ext (k0_dev1_eq c)
theorem devY_eq0 (c : Dev nD) : (⟨k0_dev2 c, k0_dev2_lt c⟩ : Dev nD) = yp c := Fin.ext (k0_dev2_eq c)

theorem bigSep_two0 (Φ : Fin 2 → sProp 𝕄) : bigSep Finset.univ Φ = iprop(Φ 0 ∗ Φ 1) :=
  bigSep_univ_eq_bigSepL [0, 1] (by decide) (by decide) Φ

/-- Once every transfer has been issued a device owes nothing: any wait is allowed. -/
theorem mayWait_done0 (c : Dev nD) (sm : SemLoc sig) : (levAts L lv : sProp 𝕄) ⊢ MayWait (c : Thread nD τ) sm () (owed c 8 8) := by
  rw [owed_done, MayWait_zero]; iintro -; iempintro

theorem body_finish0 (K : Dev nD × CK → ℕ) (c : Dev nD) (W : Waits sig Unit) :
    iprop(records m ρ K
        ∗ (bigSep Finset.univ fun jk : Fin 4 × Fin 8 => atPos ER (dCell c jk.1 jk.2) 1 ∅ 0)
        ∗ (bigSep Finset.univ fun k : Fin 8 => iprop(sPts m ρ c k fullShare.left ∗ sPts m ρ c k fullShare.right))
        ∗ (bigSep Finset.univ fun k : Fin 8 => rPts m ρ c k)
        ∗ (bigSep Finset.univ fun k : Fin 8 => oPts m ρ c (yF c) k c)
        ∗ (bigSep Finset.univ fun k : Fin 8 => oPts m ρ c (yG c) k (yp c))
        ∗ (((c : Thread nD τ).loc cc0_stg0_0) ↦{fullShare} xstg m ρ c)
        ∗ owes (c : Thread nD τ) (owed c 8 8) W)
      ⊢ |={Set.univ}=> bodyPost m ρ c := by
  rw [owed_done]; exact body_finish m ρ K c W

set_option maxHeartbeats 4000000 in
/-- One thread's body, stepped in program order from what the launch hands it to what it hands back. -/
theorem sound_body0 (K : Dev nD × CK → ℕ) (c : Dev nD) (hy : yOf c = 0) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [semSignalWord, semWaitWord, Prog.lift, Prog.bind_op, Prog.bind_ret, Prog.pure_eq_ret, wp_deviceId]
  simp only [cond1_y0 c hy, cond2_y0 c hy, ↓reduceDIte, dif_neg (show ¬ ((0#1 : BitVec 1) = 1#1) by decide)]
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, Prog.bind_assoc]
  have hyF := yF_y0 c hy
  have hyG := yG_y0 c hy
  unfold bodyPre ghost linear payToks creds sAll rAll
  iintro ⟨⟨⟨⟨#HR, Hat, HtX, HtY, HT0, HT1, HT2, HT3⟩, ⟨HcB, HcR1, HcR3⟩, #Hlev, ⟨%fs, Hs⟩, ⟨%fr, Hr⟩⟩, Ho, ⟨%d0, %g0, %hg0, Hx⟩, ⟨%d1, %g1, %hg1, Hout⟩⟩, Hk⟩
  have hx : g0 = xstg m ρ c := by rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m ρ 0 c).owed t₀.castSucc = O₀ c from rfl]
  -- the receive buffer by chunks, for the mate along x; the result buffer by chunks, the other half for the mate along y
  ihave Hr8 := (split_r (F := F) c) $$ [Hr]
  · unfold rAll; iexists fr; iexact Hr
  ihave Ho16 := (split_o (F := F) c g1) $$ Hout
  ihave Ho16 := (Entails.of_eq (bigSep_univ_prod _)) $$ Ho16
  ihave Ho16 := (Entails.of_eq (bigSep_two0 _)) $$ Ho16
  icases Ho16 with ⟨Hh0, Hh1⟩
  -- the two signals
  iapply (step_sigX m ρ K c _ (devX_eq0 c) W); isplitr; · iexact HR
  feed0 HO HtX Hr8; iintro HO
  iapply (step_sigY m ρ K c _ (devY_eq0 c) W); isplitr; · iexact HR
  isplitl [HO]; · iexact HO
  isplitl [HtY]; · iexact HtY
  isplitl [Hh1]; · rw [hyG]; iexact Hh1
  iintro HO
  -- the send buffer and the own half of the result buffer, chunk by chunk
  ihave Hs8 := (split_s (F := F) c fs) $$ Hs
  ihave Hs8 := (Entails.of_eq (bigSep_fin8 _)) $$ Hs8
  icases Hs8 with ⟨Hs0, Hs1, Hs2, Hs3, Hs4, Hs5, Hs6, Hs7⟩
  ihave Hh0 := (Entails.of_eq (bigSep_fin8 _)) $$ Hh0
  unfold oAny
  icases Hh0 with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩
  -- chunk 0 narrowed
  iapply (step_conv m ρ c 0 hyF 0 _ rfl fs); feed0 Hx Hs0; iintro ⟨Hx, Hs0⟩
  -- the barrier wait: both mates are in; their buffers come with their signals
  iapply (step_barwait m ρ K c W); isplitr; · iexact HR
  isplitr; · iexact Hlev
  ihave Hat := (Entails.of_eq (bigSep_univ_option _)) $$ Hat
  icases Hat with ⟨HatB, Hat32⟩
  feed0 HcB HO HatB; iintro ⟨HO, HatB, HpX, HpY⟩
  ihave HpX := (Entails.of_eq (show barPayX (F := F) c = bigSep Finset.univ (fun k : Fin 8 => rAny (F := F) (xp c) k) from rfl)) $$ HpX
  ihave HpX := (Entails.of_eq (bigSep_fin8 _)) $$ HpX
  unfold rAny
  icases HpX with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩⟩
  ihave HpY := (Entails.of_eq (show barPayY (F := F) c = bigSep Finset.univ (fun k : Fin 8 => oAny (F := F) (yp c) 0 k) from by unfold barPayY; rw [hyF])) $$ HpY
  ihave HpY := (Entails.of_eq (bigSep_fin8 _)) $$ HpY
  unfold oAny
  icases HpY with ⟨⟨%fe0, He0⟩, ⟨%fe1, He1⟩, ⟨%fe2, He2⟩, ⟨%fe3, He3⟩, ⟨%fe4, He4⟩, ⟨%fe5, He5⟩, ⟨%fe6, He6⟩, ⟨%fe7, He7⟩⟩
  -- tokens, credits and positions, one by one
  ihave HT0 := (Entails.of_eq (bigSep_fin8 _)) $$ HT0
  icases HT0 with ⟨Ta0, Ta1, Ta2, Ta3, Ta4, Ta5, Ta6, Ta7⟩
  ihave HT1 := (Entails.of_eq (bigSep_fin8 _)) $$ HT1
  icases HT1 with ⟨Tb0, Tb1, Tb2, Tb3, Tb4, Tb5, Tb6, Tb7⟩
  ihave HT2 := (Entails.of_eq (bigSep_fin8 _)) $$ HT2
  icases HT2 with ⟨Tc0, Tc1, Tc2, Tc3, Tc4, Tc5, Tc6, Tc7⟩
  ihave HT3 := (Entails.of_eq (bigSep_fin8 _)) $$ HT3
  icases HT3 with ⟨Td0, Td1, Td2, Td3, Td4, Td5, Td6, Td7⟩
  ihave HcR1 := (Entails.of_eq (bigSep_fin8 _)) $$ HcR1
  icases HcR1 with ⟨Cb0, Cb1, Cb2, Cb3, Cb4, Cb5, Cb6, Cb7⟩
  ihave HcR3 := (Entails.of_eq (bigSep_fin8 _)) $$ HcR3
  icases HcR3 with ⟨Cd0, Cd1, Cd2, Cd3, Cd4, Cd5, Cd6, Cd7⟩
  ihave Hat32 := (Entails.of_eq (bigSep_univ_prod _)) $$ Hat32
  ihave Hat32 := (Entails.of_eq (bigSep_fin4 _)) $$ Hat32
  icases Hat32 with ⟨HatA, HatBb, HatC, HatD⟩
  ihave HatA := (Entails.of_eq (bigSep_fin8 _)) $$ HatA
  icases HatA with ⟨Aa0, Aa1, Aa2, Aa3, Aa4, Aa5, Aa6, Aa7⟩
  ihave HatBb := (Entails.of_eq (bigSep_fin8 _)) $$ HatBb
  icases HatBb with ⟨Ab0, Ab1, Ab2, Ab3, Ab4, Ab5, Ab6, Ab7⟩
  ihave HatC := (Entails.of_eq (bigSep_fin8 _)) $$ HatC
  icases HatC with ⟨Ac0, Ac1, Ac2, Ac3, Ac4, Ac5, Ac6, Ac7⟩
  ihave HatD := (Entails.of_eq (bigSep_fin8 _)) $$ HatD
  icases HatD with ⟨Ad0, Ad1, Ad2, Ad3, Ad4, Ad5, Ad6, Ad7⟩
  -- first phase: chunk k goes to the mate along x while chunk k + 1 is narrowed
  ihave Hs0 := (sPts_halves m ρ c 0).1 $$ Hs0
  icases Hs0 with ⟨Hl0, Hr0⟩
  iapply (step_send1 m ρ K c _ (Fin.ext (k0_dev3_eq c)) 0 0 fd0 _); isplitr; · iexact HR
  feed0 Hl0 Hd0 HO Ta0 Tb0; iintro ⟨Ca0, HO⟩
  iapply (step_conv m ρ c 0 hyF 1 _ rfl fs); feed0 Hx Hs1; iintro ⟨Hx, Hs1⟩
  ihave Hs1 := (sPts_halves m ρ c 1).1 $$ Hs1
  icases Hs1 with ⟨Hl1, Hr1⟩
  iapply (step_send1 m ρ K c _ (Fin.ext (k0_dev4_eq c)) 1 0 fd1 _); isplitr; · iexact HR
  feed0 Hl1 Hd1 HO Ta1 Tb1; iintro ⟨Ca1, HO⟩
  iapply (step_conv m ρ c 0 hyF 2 _ rfl fs); feed0 Hx Hs2; iintro ⟨Hx, Hs2⟩
  ihave Hs2 := (sPts_halves m ρ c 2).1 $$ Hs2
  icases Hs2 with ⟨Hl2, Hr2⟩
  iapply (step_send1 m ρ K c _ (Fin.ext (k0_dev5_eq c)) 2 0 fd2 _); isplitr; · iexact HR
  feed0 Hl2 Hd2 HO Ta2 Tb2; iintro ⟨Ca2, HO⟩
  iapply (step_conv m ρ c 0 hyF 3 _ rfl fs); feed0 Hx Hs3; iintro ⟨Hx, Hs3⟩
  ihave Hs3 := (sPts_halves m ρ c 3).1 $$ Hs3
  icases Hs3 with ⟨Hl3, Hr3⟩
  iapply (step_send1 m ρ K c _ (Fin.ext (k0_dev6_eq c)) 3 0 fd3 _); isplitr; · iexact HR
  feed0 Hl3 Hd3 HO Ta3 Tb3; iintro ⟨Ca3, HO⟩
  iapply (step_conv m ρ c 0 hyF 4 _ rfl fs); feed0 Hx Hs4; iintro ⟨Hx, Hs4⟩
  ihave Hs4 := (sPts_halves m ρ c 4).1 $$ Hs4
  icases Hs4 with ⟨Hl4, Hr4⟩
  iapply (step_send1 m ρ K c _ (Fin.ext (k0_dev7_eq c)) 4 0 fd4 _); isplitr; · iexact HR
  feed0 Hl4 Hd4 HO Ta4 Tb4; iintro ⟨Ca4, HO⟩
  iapply (step_conv m ρ c 0 hyF 5 _ rfl fs); feed0 Hx Hs5; iintro ⟨Hx, Hs5⟩
  ihave Hs5 := (sPts_halves m ρ c 5).1 $$ Hs5
  icases Hs5 with ⟨Hl5, Hr5⟩
  iapply (step_send1 m ρ K c _ (Fin.ext (k0_dev8_eq c)) 5 0 fd5 _); isplitr; · iexact HR
  feed0 Hl5 Hd5 HO Ta5 Tb5; iintro ⟨Ca5, HO⟩
  iapply (step_conv m ρ c 0 hyF 6 _ rfl fs); feed0 Hx Hs6; iintro ⟨Hx, Hs6⟩
  ihave Hs6 := (sPts_halves m ρ c 6).1 $$ Hs6
  icases Hs6 with ⟨Hl6, Hr6⟩
  iapply (step_send1 m ρ K c _ (Fin.ext (k0_dev9_eq c)) 6 0 fd6 _); isplitr; · iexact HR
  feed0 Hl6 Hd6 HO Ta6 Tb6; iintro ⟨Ca6, HO⟩
  iapply (step_conv m ρ c 0 hyF 7 _ rfl fs); feed0 Hx Hs7; iintro ⟨Hx, Hs7⟩
  ihave Hs7 := (sPts_halves m ρ c 7).1 $$ Hs7
  icases Hs7 with ⟨Hl7, Hr7⟩
  iapply (step_send1 m ρ K c _ (Fin.ext (k0_dev10_eq c)) 7 0 fd7 _); isplitr; · iexact HR
  feed0 Hl7 Hd7 HO Ta7 Tb7; iintro ⟨Ca7, HO⟩
  -- second phase: chunk k arrives from the mate along x, is added to the own chunk, and goes to the mate along y
  iapply (step_wait m ρ K c 1 0 (owed c 8 0) (mayWait_r1 c 0 0) (rCh 0) rfl (rPts m ρ c 0) rfl _); isplitr; · iexact HR
  isplitr; · iexact Hlev
  feed0 Cb0 HO Ab0; iintro ⟨HO, Ab0, Hv0⟩
  iapply (step_add m ρ c 0 hyF 0 _ rfl fo0); feed0 Hr0 Hv0 Ho0; iintro ⟨Hr0, Hv0, Ho0⟩
  iapply (step_send2 m ρ K c _ (Fin.ext (k0_dev11_eq c)) 0 hyF 0 fe0 _); isplitr; · iexact HR
  feed0 Ho0 He0 HO Tc0 Td0; iintro ⟨Cc0, HO⟩
  iapply (step_wait m ρ K c 1 1 (owed c 8 1) (mayWait_r1 c 1 1) (rCh 1) rfl (rPts m ρ c 1) rfl _); isplitr; · iexact HR
  isplitr; · iexact Hlev
  feed0 Cb1 HO Ab1; iintro ⟨HO, Ab1, Hv1⟩
  iapply (step_add m ρ c 0 hyF 1 _ rfl fo1); feed0 Hr1 Hv1 Ho1; iintro ⟨Hr1, Hv1, Ho1⟩
  iapply (step_send2 m ρ K c _ (Fin.ext (k0_dev12_eq c)) 0 hyF 1 fe1 _); isplitr; · iexact HR
  feed0 Ho1 He1 HO Tc1 Td1; iintro ⟨Cc1, HO⟩
  iapply (step_wait m ρ K c 1 2 (owed c 8 2) (mayWait_r1 c 2 2) (rCh 2) rfl (rPts m ρ c 2) rfl _); isplitr; · iexact HR
  isplitr; · iexact Hlev
  feed0 Cb2 HO Ab2; iintro ⟨HO, Ab2, Hv2⟩
  iapply (step_add m ρ c 0 hyF 2 _ rfl fo2); feed0 Hr2 Hv2 Ho2; iintro ⟨Hr2, Hv2, Ho2⟩
  iapply (step_send2 m ρ K c _ (Fin.ext (k0_dev13_eq c)) 0 hyF 2 fe2 _); isplitr; · iexact HR
  feed0 Ho2 He2 HO Tc2 Td2; iintro ⟨Cc2, HO⟩
  iapply (step_wait m ρ K c 1 3 (owed c 8 3) (mayWait_r1 c 3 3) (rCh 3) rfl (rPts m ρ c 3) rfl _); isplitr; · iexact HR
  isplitr; · iexact Hlev
  feed0 Cb3 HO Ab3; iintro ⟨HO, Ab3, Hv3⟩
  iapply (step_add m ρ c 0 hyF 3 _ rfl fo3); feed0 Hr3 Hv3 Ho3; iintro ⟨Hr3, Hv3, Ho3⟩
  iapply (step_send2 m ρ K c _ (Fin.ext (k0_dev14_eq c)) 0 hyF 3 fe3 _); isplitr; · iexact HR
  feed0 Ho3 He3 HO Tc3 Td3; iintro ⟨Cc3, HO⟩
  iapply (step_wait m ρ K c 1 4 (owed c 8 4) (mayWait_r1 c 4 4) (rCh 4) rfl (rPts m ρ c 4) rfl _); isplitr; · iexact HR
  isplitr; · iexact Hlev
  feed0 Cb4 HO Ab4; iintro ⟨HO, Ab4, Hv4⟩
  iapply (step_add m ρ c 0 hyF 4 _ rfl fo4); feed0 Hr4 Hv4 Ho4; iintro ⟨Hr4, Hv4, Ho4⟩
  iapply (step_send2 m ρ K c _ (Fin.ext (k0_dev15_eq c)) 0 hyF 4 fe4 _); isplitr; · iexact HR
  feed0 Ho4 He4 HO Tc4 Td4; iintro ⟨Cc4, HO⟩
  iapply (step_wait m ρ K c 1 5 (owed c 8 5) (mayWait_r1 c 5 5) (rCh 5) rfl (rPts m ρ c 5) rfl _); isplitr; · iexact HR
  isplitr; · iexact Hlev
  feed0 Cb5 HO Ab5; iintro ⟨HO, Ab5, Hv5⟩
  iapply (step_add m ρ c 0 hyF 5 _ rfl fo5); feed0 Hr5 Hv5 Ho5; iintro ⟨Hr5, Hv5, Ho5⟩
  iapply (step_send2 m ρ K c _ (Fin.ext (k0_dev16_eq c)) 0 hyF 5 fe5 _); isplitr; · iexact HR
  feed0 Ho5 He5 HO Tc5 Td5; iintro ⟨Cc5, HO⟩
  iapply (step_wait m ρ K c 1 6 (owed c 8 6) (mayWait_r1 c 6 6) (rCh 6) rfl (rPts m ρ c 6) rfl _); isplitr; · iexact HR
  isplitr; · iexact Hlev
  feed0 Cb6 HO Ab6; iintro ⟨HO, Ab6, Hv6⟩
  iapply (step_add m ρ c 0 hyF 6 _ rfl fo6); feed0 Hr6 Hv6 Ho6; iintro ⟨Hr6, Hv6, Ho6⟩
  iapply (step_send2 m ρ K c _ (Fin.ext (k0_dev17_eq c)) 0 hyF 6 fe6 _); isplitr; · iexact HR
  feed0 Ho6 He6 HO Tc6 Td6; iintro ⟨Cc6, HO⟩
  iapply (step_wait m ρ K c 1 7 (owed c 8 7) (mayWait_r1 c 7 7) (rCh 7) rfl (rPts m ρ c 7) rfl _); isplitr; · iexact HR
  isplitr; · iexact Hlev
  feed0 Cb7 HO Ab7; iintro ⟨HO, Ab7, Hv7⟩
  iapply (step_add m ρ c 0 hyF 7 _ rfl fo7); feed0 Hr7 Hv7 Ho7; iintro ⟨Hr7, Hv7, Ho7⟩
  iapply (step_send2 m ρ K c _ (Fin.ext (k0_dev18_eq c)) 0 hyF 7 fe7 _); isplitr; · iexact HR
  feed0 Ho7 He7 HO Tc7 Td7; iintro ⟨Cc7, HO⟩
  -- the mate's chunks arrive in the other half of the result buffer
  iapply (step_wait m ρ K c 3 0 (owed c 8 8) (mayWait_done0 c _) (oCh 0 0) rfl (oPts m ρ c (yG c) 0 (yp c)) rfl _); isplitr; · iexact HR
  isplitr; · iexact Hlev
  feed0 Cd0 HO Ad0; iintro ⟨HO, Ad0, Hu0⟩
  iapply (step_wait m ρ K c 3 1 (owed c 8 8) (mayWait_done0 c _) (oCh 0 1) rfl (oPts m ρ c (yG c) 1 (yp c)) rfl _); isplitr; · iexact HR
  isplitr; · iexact Hlev
  feed0 Cd1 HO Ad1; iintro ⟨HO, Ad1, Hu1⟩
  iapply (step_wait m ρ K c 3 2 (owed c 8 8) (mayWait_done0 c _) (oCh 0 2) rfl (oPts m ρ c (yG c) 2 (yp c)) rfl _); isplitr; · iexact HR
  isplitr; · iexact Hlev
  feed0 Cd2 HO Ad2; iintro ⟨HO, Ad2, Hu2⟩
  iapply (step_wait m ρ K c 3 3 (owed c 8 8) (mayWait_done0 c _) (oCh 0 3) rfl (oPts m ρ c (yG c) 3 (yp c)) rfl _); isplitr; · iexact HR
  isplitr; · iexact Hlev
  feed0 Cd3 HO Ad3; iintro ⟨HO, Ad3, Hu3⟩
  iapply (step_wait m ρ K c 3 4 (owed c 8 8) (mayWait_done0 c _) (oCh 0 4) rfl (oPts m ρ c (yG c) 4 (yp c)) rfl _); isplitr; · iexact HR
  isplitr; · iexact Hlev
  feed0 Cd4 HO Ad4; iintro ⟨HO, Ad4, Hu4⟩
  iapply (step_wait m ρ K c 3 5 (owed c 8 8) (mayWait_done0 c _) (oCh 0 5) rfl (oPts m ρ c (yG c) 5 (yp c)) rfl _); isplitr; · iexact HR
  isplitr; · iexact Hlev
  feed0 Cd5 HO Ad5; iintro ⟨HO, Ad5, Hu5⟩
  iapply (step_wait m ρ K c 3 6 (owed c 8 8) (mayWait_done0 c _) (oCh 0 6) rfl (oPts m ρ c (yG c) 6 (yp c)) rfl _); isplitr; · iexact HR
  isplitr; · iexact Hlev
  feed0 Cd6 HO Ad6; iintro ⟨HO, Ad6, Hu6⟩
  iapply (step_wait m ρ K c 3 7 (owed c 8 8) (mayWait_done0 c _) (oCh 0 7) rfl (oPts m ρ c (yG c) 7 (yp c)) rfl _); isplitr; · iexact HR
  isplitr; · iexact Hlev
  feed0 Cd7 HO Ad7; iintro ⟨HO, Ad7, Hu7⟩
  -- the transfers have left their sources
  iapply (step_wait m ρ K c 0 0 (owed c 8 8) (mayWait_done0 c _) (sCh 0) rfl (sPts m ρ c 0 fullShare.left) rfl _); isplitr; · iexact HR
  isplitr; · iexact Hlev
  feed0 Ca0 HO Aa0; iintro ⟨HO, Aa0, Hl0⟩
  iapply (step_wait m ρ K c 2 0 (owed c 8 8) (mayWait_done0 c _) (oCh 0 0) rfl (oPts m ρ c (yF c) 0 c) rfl _); isplitr; · iexact HR
  isplitr; · iexact Hlev
  feed0 Cc0 HO Ac0; iintro ⟨HO, Ac0, Ho0⟩
  iapply (step_wait m ρ K c 0 1 (owed c 8 8) (mayWait_done0 c _) (sCh 1) rfl (sPts m ρ c 1 fullShare.left) rfl _); isplitr; · iexact HR
  isplitr; · iexact Hlev
  feed0 Ca1 HO Aa1; iintro ⟨HO, Aa1, Hl1⟩
  iapply (step_wait m ρ K c 2 1 (owed c 8 8) (mayWait_done0 c _) (oCh 0 1) rfl (oPts m ρ c (yF c) 1 c) rfl _); isplitr; · iexact HR
  isplitr; · iexact Hlev
  feed0 Cc1 HO Ac1; iintro ⟨HO, Ac1, Ho1⟩
  iapply (step_wait m ρ K c 0 2 (owed c 8 8) (mayWait_done0 c _) (sCh 2) rfl (sPts m ρ c 2 fullShare.left) rfl _); isplitr; · iexact HR
  isplitr; · iexact Hlev
  feed0 Ca2 HO Aa2; iintro ⟨HO, Aa2, Hl2⟩
  iapply (step_wait m ρ K c 2 2 (owed c 8 8) (mayWait_done0 c _) (oCh 0 2) rfl (oPts m ρ c (yF c) 2 c) rfl _); isplitr; · iexact HR
  isplitr; · iexact Hlev
  feed0 Cc2 HO Ac2; iintro ⟨HO, Ac2, Ho2⟩
  iapply (step_wait m ρ K c 0 3 (owed c 8 8) (mayWait_done0 c _) (sCh 3) rfl (sPts m ρ c 3 fullShare.left) rfl _); isplitr; · iexact HR
  isplitr; · iexact Hlev
  feed0 Ca3 HO Aa3; iintro ⟨HO, Aa3, Hl3⟩
  iapply (step_wait m ρ K c 2 3 (owed c 8 8) (mayWait_done0 c _) (oCh 0 3) rfl (oPts m ρ c (yF c) 3 c) rfl _); isplitr; · iexact HR
  isplitr; · iexact Hlev
  feed0 Cc3 HO Ac3; iintro ⟨HO, Ac3, Ho3⟩
  iapply (step_wait m ρ K c 0 4 (owed c 8 8) (mayWait_done0 c _) (sCh 4) rfl (sPts m ρ c 4 fullShare.left) rfl _); isplitr; · iexact HR
  isplitr; · iexact Hlev
  feed0 Ca4 HO Aa4; iintro ⟨HO, Aa4, Hl4⟩
  iapply (step_wait m ρ K c 2 4 (owed c 8 8) (mayWait_done0 c _) (oCh 0 4) rfl (oPts m ρ c (yF c) 4 c) rfl _); isplitr; · iexact HR
  isplitr; · iexact Hlev
  feed0 Cc4 HO Ac4; iintro ⟨HO, Ac4, Ho4⟩
  iapply (step_wait m ρ K c 0 5 (owed c 8 8) (mayWait_done0 c _) (sCh 5) rfl (sPts m ρ c 5 fullShare.left) rfl _); isplitr; · iexact HR
  isplitr; · iexact Hlev
  feed0 Ca5 HO Aa5; iintro ⟨HO, Aa5, Hl5⟩
  iapply (step_wait m ρ K c 2 5 (owed c 8 8) (mayWait_done0 c _) (oCh 0 5) rfl (oPts m ρ c (yF c) 5 c) rfl _); isplitr; · iexact HR
  isplitr; · iexact Hlev
  feed0 Cc5 HO Ac5; iintro ⟨HO, Ac5, Ho5⟩
  iapply (step_wait m ρ K c 0 6 (owed c 8 8) (mayWait_done0 c _) (sCh 6) rfl (sPts m ρ c 6 fullShare.left) rfl _); isplitr; · iexact HR
  isplitr; · iexact Hlev
  feed0 Ca6 HO Aa6; iintro ⟨HO, Aa6, Hl6⟩
  iapply (step_wait m ρ K c 2 6 (owed c 8 8) (mayWait_done0 c _) (oCh 0 6) rfl (oPts m ρ c (yF c) 6 c) rfl _); isplitr; · iexact HR
  isplitr; · iexact Hlev
  feed0 Cc6 HO Ac6; iintro ⟨HO, Ac6, Ho6⟩
  iapply (step_wait m ρ K c 0 7 (owed c 8 8) (mayWait_done0 c _) (sCh 7) rfl (sPts m ρ c 7 fullShare.left) rfl _); isplitr; · iexact HR
  isplitr; · iexact Hlev
  feed0 Ca7 HO Aa7; iintro ⟨HO, Aa7, Hl7⟩
  iapply (step_wait m ρ K c 2 7 (owed c 8 8) (mayWait_done0 c _) (oCh 0 7) rfl (oPts m ρ c (yF c) 7 c) rfl _); isplitr; · iexact HR
  isplitr; · iexact Hlev
  feed0 Cc7 HO Ac7; iintro ⟨HO, Ac7, Ho7⟩
  -- the body returns: the cells are closed, the chunks joined
  rw [wp_ret]
  imod (body_finish0 m ρ K c _) $$ [Aa0 Aa1 Aa2 Aa3 Aa4 Aa5 Aa6 Aa7 Ab0 Ab1 Ab2 Ab3 Ab4 Ab5 Ab6 Ab7 Ac0 Ac1 Ac2 Ac3 Ac4 Ac5 Ac6 Ac7 Ad0 Ad1 Ad2 Ad3 Ad4 Ad5 Ad6 Ad7 Hl0 Hl1 Hl2 Hl3 Hl4 Hl5 Hl6 Hl7 Hr0 Hr1 Hr2 Hr3 Hr4 Hr5 Hr6 Hr7 Hv0 Hv1 Hv2 Hv3 Hv4 Hv5 Hv6 Hv7 Ho0 Ho1 Ho2 Ho3 Ho4 Ho5 Ho6 Ho7 Hu0 Hu1 Hu2 Hu3 Hu4 Hu5 Hu6 Hu7 Hx HO] with Hpost
  · isplitr; · iexact HR
    rw [bigSep_univ_prod, bigSep_fin4, bigSep_fin8, bigSep_fin8, bigSep_fin8, bigSep_fin8, bigSep_fin8, bigSep_fin8, bigSep_fin8, bigSep_fin8]
    isplitl [Aa0 Aa1 Aa2 Aa3 Aa4 Aa5 Aa6 Aa7 Ab0 Ab1 Ab2 Ab3 Ab4 Ab5 Ab6 Ab7 Ac0 Ac1 Ac2 Ac3 Ac4 Ac5 Ac6 Ac7 Ad0 Ad1 Ad2 Ad3 Ad4 Ad5 Ad6 Ad7]
    · isplitl [Aa0 Aa1 Aa2 Aa3 Aa4 Aa5 Aa6 Aa7]; · feed0 Aa0 Aa1 Aa2 Aa3 Aa4 Aa5 Aa6; iexact Aa7
      isplitl [Ab0 Ab1 Ab2 Ab3 Ab4 Ab5 Ab6 Ab7]; · feed0 Ab0 Ab1 Ab2 Ab3 Ab4 Ab5 Ab6; iexact Ab7
      isplitl [Ac0 Ac1 Ac2 Ac3 Ac4 Ac5 Ac6 Ac7]; · feed0 Ac0 Ac1 Ac2 Ac3 Ac4 Ac5 Ac6; iexact Ac7
      feed0 Ad0 Ad1 Ad2 Ad3 Ad4 Ad5 Ad6; iexact Ad7
    isplitl [Hl0 Hl1 Hl2 Hl3 Hl4 Hl5 Hl6 Hl7 Hr0 Hr1 Hr2 Hr3 Hr4 Hr5 Hr6 Hr7]
    · skip
      isplitl [Hl0 Hr0]; · (isplitl [Hl0]; · iexact Hl0); iexact Hr0
      isplitl [Hl1 Hr1]; · (isplitl [Hl1]; · iexact Hl1); iexact Hr1
      isplitl [Hl2 Hr2]; · (isplitl [Hl2]; · iexact Hl2); iexact Hr2
      isplitl [Hl3 Hr3]; · (isplitl [Hl3]; · iexact Hl3); iexact Hr3
      isplitl [Hl4 Hr4]; · (isplitl [Hl4]; · iexact Hl4); iexact Hr4
      isplitl [Hl5 Hr5]; · (isplitl [Hl5]; · iexact Hl5); iexact Hr5
      isplitl [Hl6 Hr6]; · (isplitl [Hl6]; · iexact Hl6); iexact Hr6
      isplitl [Hl7]; · iexact Hl7
      iexact Hr7
    isplitl [Hv0 Hv1 Hv2 Hv3 Hv4 Hv5 Hv6 Hv7]; · feed0 Hv0 Hv1 Hv2 Hv3 Hv4 Hv5 Hv6; iexact Hv7
    isplitl [Ho0 Ho1 Ho2 Ho3 Ho4 Ho5 Ho6 Ho7]; · feed0 Ho0 Ho1 Ho2 Ho3 Ho4 Ho5 Ho6; iexact Ho7
    isplitl [Hu0 Hu1 Hu2 Hu3 Hu4 Hu5 Hu6 Hu7]; · feed0 Hu0 Hu1 Hu2 Hu3 Hu4 Hu5 Hu6; iexact Hu7
    isplitl [Hx]; · iexact Hx
    iexact HO
  imodintro
  iapply Hk; iexact Hpost

end Cert.KernelIdeal.AR
end
-- ==== Proof.Body1.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import proofs.«900134_g7700000000000135_dist_ar_v7x_xy2x2_x_m512_n512_bf16_1_alg».proof.Proof.Levels
import proofs.«900134_g7700000000000135_dist_ar_v7x_xy2x2_x_m512_n512_bf16_1_alg».proof.Proof.Chunks
import proofs.«900134_g7700000000000135_dist_ar_v7x_xy2x2_x_m512_n512_bf16_1_alg».proof.Proof.Steps
import proofs.«900134_g7700000000000135_dist_ar_v7x_xy2x2_x_m512_n512_bf16_1_alg».proof.Proof.Launch
import proofs.«900134_g7700000000000135_dist_ar_v7x_xy2x2_x_m512_n512_bf16_1_alg».proof.Proof.Finish
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- `isplitl` one named hypothesis at a time. -/
syntax "feed1 " ident* : tactic
macro_rules
  | `(tactic| feed1) => `(tactic| skip)
  | `(tactic| feed1 $h $hs*) => `(tactic| ((isplitl [$h]; · iexact $h); feed1 $hs*))

/-! The body on a device whose `y` coordinate is 1: the region of `y = 1` is entered, the other is not. -/

theorem cond1_y1 (c : Dev nD) (hy : yOf c = 1) : k0_cond1 c = 0#1 := by revert c; decide
theorem cond2_y1 (c : Dev nD) (hy : yOf c = 1) : k0_cond2 c = 1#1 := by revert c; decide
theorem yF_y1 (c : Dev nD) (hy : yOf c = 1) : yF c = 1 := Fin.ext hy
theorem yG_y1 (c : Dev nD) (hy : yOf c = 1) : yG c = 0 := Fin.ext (by show 1 - yOf c = 0; rw [hy])
theorem devX_eq1 (c : Dev nD) : (⟨k0_dev1 c, k0_dev1_lt c⟩ : Dev nD) = xp c := Fin.ext (k0_dev1_eq c)
theorem devY_eq1 (c : Dev nD) : (⟨k0_dev2 c, k0_dev2_lt c⟩ : Dev nD) = yp c := Fin.ext (k0_dev2_eq c)

theorem bigSep_two1 (Φ : Fin 2 → sProp 𝕄) : bigSep Finset.univ Φ = iprop(Φ 0 ∗ Φ 1) :=
  bigSep_univ_eq_bigSepL [0, 1] (by decide) (by decide) Φ

/-- Once every transfer has been issued a device owes nothing: any wait is allowed. -/
theorem mayWait_done1 (c : Dev nD) (sm : SemLoc sig) : (levAts L lv : sProp 𝕄) ⊢ MayWait (c : Thread nD τ) sm () (owed c 8 8) := by
  rw [owed_done, MayWait_zero]; iintro -; iempintro

theorem body_finish1 (K : Dev nD × CK → ℕ) (c : Dev nD) (W : Waits sig Unit) :
    iprop(records m ρ K
        ∗ (bigSep Finset.univ fun jk : Fin 4 × Fin 8 => atPos ER (dCell c jk.1 jk.2) 1 ∅ 0)
        ∗ (bigSep Finset.univ fun k : Fin 8 => iprop(sPts m ρ c k fullShare.left ∗ sPts m ρ c k fullShare.right))
        ∗ (bigSep Finset.univ fun k : Fin 8 => rPts m ρ c k)
        ∗ (bigSep Finset.univ fun k : Fin 8 => oPts m ρ c (yF c) k c)
        ∗ (bigSep Finset.univ fun k : Fin 8 => oPts m ρ c (yG c) k (yp c))
        ∗ (((c : Thread nD τ).loc cc0_stg0_0) ↦{fullShare} xstg m ρ c)
        ∗ owes (c : Thread nD τ) (owed c 8 8) W)
      ⊢ |={Set.univ}=> bodyPost m ρ c := by
  rw [owed_done]; exact body_finish m ρ K c W

set_option maxHeartbeats 4000000 in
/-- One thread's body, stepped in program order from what the launch hands it to what it hands back. -/
theorem sound_body1 (K : Dev nD × CK → ℕ) (c : Dev nD) (hy : yOf c = 1) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [semSignalWord, semWaitWord, Prog.lift, Prog.bind_op, Prog.bind_ret, Prog.pure_eq_ret, wp_deviceId]
  simp only [cond1_y1 c hy, cond2_y1 c hy, ↓reduceDIte, dif_neg (show ¬ ((0#1 : BitVec 1) = 1#1) by decide)]
  simp only [k0_part34_eq_skeleton]; unfold k0_part34_skel
  simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret, Prog.bind_assoc]
  have hyF := yF_y1 c hy
  have hyG := yG_y1 c hy
  unfold bodyPre ghost linear payToks creds sAll rAll
  iintro ⟨⟨⟨⟨#HR, Hat, HtX, HtY, HT0, HT1, HT2, HT3⟩, ⟨HcB, HcR1, HcR3⟩, #Hlev, ⟨%fs, Hs⟩, ⟨%fr, Hr⟩⟩, Ho, ⟨%d0, %g0, %hg0, Hx⟩, ⟨%d1, %g1, %hg1, Hout⟩⟩, Hk⟩
  have hx : g0 = xstg m ρ c := by rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m ρ 0 c).owed t₀.castSucc = O₀ c from rfl]
  -- the receive buffer by chunks, for the mate along x; the result buffer by chunks, the other half for the mate along y
  ihave Hr8 := (split_r (F := F) c) $$ [Hr]
  · unfold rAll; iexists fr; iexact Hr
  ihave Ho16 := (split_o (F := F) c g1) $$ Hout
  ihave Ho16 := (Entails.of_eq (bigSep_univ_prod _)) $$ Ho16
  ihave Ho16 := (Entails.of_eq (bigSep_two1 _)) $$ Ho16
  icases Ho16 with ⟨Hh0, Hh1⟩
  -- the two signals
  iapply (step_sigX m ρ K c _ (devX_eq1 c) W); isplitr; · iexact HR
  feed1 HO HtX Hr8; iintro HO
  iapply (step_sigY m ρ K c _ (devY_eq1 c) W); isplitr; · iexact HR
  isplitl [HO]; · iexact HO
  isplitl [HtY]; · iexact HtY
  isplitl [Hh0]; · rw [hyG]; iexact Hh0
  iintro HO
  -- the send buffer and the own half of the result buffer, chunk by chunk
  ihave Hs8 := (split_s (F := F) c fs) $$ Hs
  ihave Hs8 := (Entails.of_eq (bigSep_fin8 _)) $$ Hs8
  icases Hs8 with ⟨Hs0, Hs1, Hs2, Hs3, Hs4, Hs5, Hs6, Hs7⟩
  ihave Hh1 := (Entails.of_eq (bigSep_fin8 _)) $$ Hh1
  unfold oAny
  icases Hh1 with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩
  -- chunk 0 narrowed
  iapply (step_conv m ρ c 1 hyF 0 _ rfl fs); feed1 Hx Hs0; iintro ⟨Hx, Hs0⟩
  -- the barrier wait: both mates are in; their buffers come with their signals
  iapply (step_barwait m ρ K c W); isplitr; · iexact HR
  isplitr; · iexact Hlev
  ihave Hat := (Entails.of_eq (bigSep_univ_option _)) $$ Hat
  icases Hat with ⟨HatB, Hat32⟩
  feed1 HcB HO HatB; iintro ⟨HO, HatB, HpX, HpY⟩
  ihave HpX := (Entails.of_eq (show barPayX (F := F) c = bigSep Finset.univ (fun k : Fin 8 => rAny (F := F) (xp c) k) from rfl)) $$ HpX
  ihave HpX := (Entails.of_eq (bigSep_fin8 _)) $$ HpX
  unfold rAny
  icases HpX with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩⟩
  ihave HpY := (Entails.of_eq (show barPayY (F := F) c = bigSep Finset.univ (fun k : Fin 8 => oAny (F := F) (yp c) 1 k) from by unfold barPayY; rw [hyF])) $$ HpY
  ihave HpY := (Entails.of_eq (bigSep_fin8 _)) $$ HpY
  unfold oAny
  icases HpY with ⟨⟨%fe0, He0⟩, ⟨%fe1, He1⟩, ⟨%fe2, He2⟩, ⟨%fe3, He3⟩, ⟨%fe4, He4⟩, ⟨%fe5, He5⟩, ⟨%fe6, He6⟩, ⟨%fe7, He7⟩⟩
  -- tokens, credits and positions, one by one
  ihave HT0 := (Entails.of_eq (bigSep_fin8 _)) $$ HT0
  icases HT0 with ⟨Ta0, Ta1, Ta2, Ta3, Ta4, Ta5, Ta6, Ta7⟩
  ihave HT1 := (Entails.of_eq (bigSep_fin8 _)) $$ HT1
  icases HT1 with ⟨Tb0, Tb1, Tb2, Tb3, Tb4, Tb5, Tb6, Tb7⟩
  ihave HT2 := (Entails.of_eq (bigSep_fin8 _)) $$ HT2
  icases HT2 with ⟨Tc0, Tc1, Tc2, Tc3, Tc4, Tc5, Tc6, Tc7⟩
  ihave HT3 := (Entails.of_eq (bigSep_fin8 _)) $$ HT3
  icases HT3 with ⟨Td0, Td1, Td2, Td3, Td4, Td5, Td6, Td7⟩
  ihave HcR1 := (Entails.of_eq (bigSep_fin8 _)) $$ HcR1
  icases HcR1 with ⟨Cb0, Cb1, Cb2, Cb3, Cb4, Cb5, Cb6, Cb7⟩
  ihave HcR3 := (Entails.of_eq (bigSep_fin8 _)) $$ HcR3
  icases HcR3 with ⟨Cd0, Cd1, Cd2, Cd3, Cd4, Cd5, Cd6, Cd7⟩
  ihave Hat32 := (Entails.of_eq (bigSep_univ_prod _)) $$ Hat32
  ihave Hat32 := (Entails.of_eq (bigSep_fin4 _)) $$ Hat32
  icases Hat32 with ⟨HatA, HatBb, HatC, HatD⟩
  ihave HatA := (Entails.of_eq (bigSep_fin8 _)) $$ HatA
  icases HatA with ⟨Aa0, Aa1, Aa2, Aa3, Aa4, Aa5, Aa6, Aa7⟩
  ihave HatBb := (Entails.of_eq (bigSep_fin8 _)) $$ HatBb
  icases HatBb with ⟨Ab0, Ab1, Ab2, Ab3, Ab4, Ab5, Ab6, Ab7⟩
  ihave HatC := (Entails.of_eq (bigSep_fin8 _)) $$ HatC
  icases HatC with ⟨Ac0, Ac1, Ac2, Ac3, Ac4, Ac5, Ac6, Ac7⟩
  ihave HatD := (Entails.of_eq (bigSep_fin8 _)) $$ HatD
  icases HatD with ⟨Ad0, Ad1, Ad2, Ad3, Ad4, Ad5, Ad6, Ad7⟩
  -- first phase: chunk k goes to the mate along x while chunk k + 1 is narrowed
  ihave Hs0 := (sPts_halves m ρ c 0).1 $$ Hs0
  icases Hs0 with ⟨Hl0, Hr0⟩
  iapply (step_send1 m ρ K c _ (Fin.ext (k0_dev19_eq c)) 0 0 fd0 _); isplitr; · iexact HR
  feed1 Hl0 Hd0 HO Ta0 Tb0; iintro ⟨Ca0, HO⟩
  iapply (step_conv m ρ c 1 hyF 1 _ rfl fs); feed1 Hx Hs1; iintro ⟨Hx, Hs1⟩
  ihave Hs1 := (sPts_halves m ρ c 1).1 $$ Hs1
  icases Hs1 with ⟨Hl1, Hr1⟩
  iapply (step_send1 m ρ K c _ (Fin.ext (k0_dev20_eq c)) 1 0 fd1 _); isplitr; · iexact HR
  feed1 Hl1 Hd1 HO Ta1 Tb1; iintro ⟨Ca1, HO⟩
  iapply (step_conv m ρ c 1 hyF 2 _ rfl fs); feed1 Hx Hs2; iintro ⟨Hx, Hs2⟩
  ihave Hs2 := (sPts_halves m ρ c 2).1 $$ Hs2
  icases Hs2 with ⟨Hl2, Hr2⟩
  iapply (step_send1 m ρ K c _ (Fin.ext (k0_dev21_eq c)) 2 0 fd2 _); isplitr; · iexact HR
  feed1 Hl2 Hd2 HO Ta2 Tb2; iintro ⟨Ca2, HO⟩
  iapply (step_conv m ρ c 1 hyF 3 _ rfl fs); feed1 Hx Hs3; iintro ⟨Hx, Hs3⟩
  ihave Hs3 := (sPts_halves m ρ c 3).1 $$ Hs3
  icases Hs3 with ⟨Hl3, Hr3⟩
  iapply (step_send1 m ρ K c _ (Fin.ext (k0_dev22_eq c)) 3 0 fd3 _); isplitr; · iexact HR
  feed1 Hl3 Hd3 HO Ta3 Tb3; iintro ⟨Ca3, HO⟩
  iapply (step_conv m ρ c 1 hyF 4 _ rfl fs); feed1 Hx Hs4; iintro ⟨Hx, Hs4⟩
  ihave Hs4 := (sPts_halves m ρ c 4).1 $$ Hs4
  icases Hs4 with ⟨Hl4, Hr4⟩
  iapply (step_send1 m ρ K c _ (Fin.ext (k0_dev23_eq c)) 4 0 fd4 _); isplitr; · iexact HR
  feed1 Hl4 Hd4 HO Ta4 Tb4; iintro ⟨Ca4, HO⟩
  iapply (step_conv m ρ c 1 hyF 5 _ rfl fs); feed1 Hx Hs5; iintro ⟨Hx, Hs5⟩
  ihave Hs5 := (sPts_halves m ρ c 5).1 $$ Hs5
  icases Hs5 with ⟨Hl5, Hr5⟩
  iapply (step_send1 m ρ K c _ (Fin.ext (k0_dev24_eq c)) 5 0 fd5 _); isplitr; · iexact HR
  feed1 Hl5 Hd5 HO Ta5 Tb5; iintro ⟨Ca5, HO⟩
  iapply (step_conv m ρ c 1 hyF 6 _ rfl fs); feed1 Hx Hs6; iintro ⟨Hx, Hs6⟩
  ihave Hs6 := (sPts_halves m ρ c 6).1 $$ Hs6
  icases Hs6 with ⟨Hl6, Hr6⟩
  iapply (step_send1 m ρ K c _ (Fin.ext (k0_dev25_eq c)) 6 0 fd6 _); isplitr; · iexact HR
  feed1 Hl6 Hd6 HO Ta6 Tb6; iintro ⟨Ca6, HO⟩
  iapply (step_conv m ρ c 1 hyF 7 _ rfl fs); feed1 Hx Hs7; iintro ⟨Hx, Hs7⟩
  ihave Hs7 := (sPts_halves m ρ c 7).1 $$ Hs7
  icases Hs7 with ⟨Hl7, Hr7⟩
  iapply (step_send1 m ρ K c _ (Fin.ext (k0_dev26_eq c)) 7 0 fd7 _); isplitr; · iexact HR
  feed1 Hl7 Hd7 HO Ta7 Tb7; iintro ⟨Ca7, HO⟩
  -- second phase: chunk k arrives from the mate along x, is added to the own chunk, and goes to the mate along y
  iapply (step_wait m ρ K c 1 0 (owed c 8 0) (mayWait_r1 c 0 0) (rCh 0) rfl (rPts m ρ c 0) rfl _); isplitr; · iexact HR
  isplitr; · iexact Hlev
  feed1 Cb0 HO Ab0; iintro ⟨HO, Ab0, Hv0⟩
  iapply (step_add m ρ c 1 hyF 0 _ rfl fo0); feed1 Hr0 Hv0 Ho0; iintro ⟨Hr0, Hv0, Ho0⟩
  iapply (step_send2 m ρ K c _ (Fin.ext (k0_dev27_eq c)) 1 hyF 0 fe0 _); isplitr; · iexact HR
  feed1 Ho0 He0 HO Tc0 Td0; iintro ⟨Cc0, HO⟩
  iapply (step_wait m ρ K c 1 1 (owed c 8 1) (mayWait_r1 c 1 1) (rCh 1) rfl (rPts m ρ c 1) rfl _); isplitr; · iexact HR
  isplitr; · iexact Hlev
  feed1 Cb1 HO Ab1; iintro ⟨HO, Ab1, Hv1⟩
  iapply (step_add m ρ c 1 hyF 1 _ rfl fo1); feed1 Hr1 Hv1 Ho1; iintro ⟨Hr1, Hv1, Ho1⟩
  iapply (step_send2 m ρ K c _ (Fin.ext (k0_dev28_eq c)) 1 hyF 1 fe1 _); isplitr; · iexact HR
  feed1 Ho1 He1 HO Tc1 Td1; iintro ⟨Cc1, HO⟩
  iapply (step_wait m ρ K c 1 2 (owed c 8 2) (mayWait_r1 c 2 2) (rCh 2) rfl (rPts m ρ c 2) rfl _); isplitr; · iexact HR
  isplitr; · iexact Hlev
  feed1 Cb2 HO Ab2; iintro ⟨HO, Ab2, Hv2⟩
  iapply (step_add m ρ c 1 hyF 2 _ rfl fo2); feed1 Hr2 Hv2 Ho2; iintro ⟨Hr2, Hv2, Ho2⟩
  iapply (step_send2 m ρ K c _ (Fin.ext (k0_dev29_eq c)) 1 hyF 2 fe2 _); isplitr; · iexact HR
  feed1 Ho2 He2 HO Tc2 Td2; iintro ⟨Cc2, HO⟩
  iapply (step_wait m ρ K c 1 3 (owed c 8 3) (mayWait_r1 c 3 3) (rCh 3) rfl (rPts m ρ c 3) rfl _); isplitr; · iexact HR
  isplitr; · iexact Hlev
  feed1 Cb3 HO Ab3; iintro ⟨HO, Ab3, Hv3⟩
  iapply (step_add m ρ c 1 hyF 3 _ rfl fo3); feed1 Hr3 Hv3 Ho3; iintro ⟨Hr3, Hv3, Ho3⟩
  iapply (step_send2 m ρ K c _ (Fin.ext (k0_dev30_eq c)) 1 hyF 3 fe3 _); isplitr; · iexact HR
  feed1 Ho3 He3 HO Tc3 Td3; iintro ⟨Cc3, HO⟩
  iapply (step_wait m ρ K c 1 4 (owed c 8 4) (mayWait_r1 c 4 4) (rCh 4) rfl (rPts m ρ c 4) rfl _); isplitr; · iexact HR
  isplitr; · iexact Hlev
  feed1 Cb4 HO Ab4; iintro ⟨HO, Ab4, Hv4⟩
  iapply (step_add m ρ c 1 hyF 4 _ rfl fo4); feed1 Hr4 Hv4 Ho4; iintro ⟨Hr4, Hv4, Ho4⟩
  iapply (step_send2 m ρ K c _ (Fin.ext (k0_dev31_eq c)) 1 hyF 4 fe4 _); isplitr; · iexact HR
  feed1 Ho4 He4 HO Tc4 Td4; iintro ⟨Cc4, HO⟩
  iapply (step_wait m ρ K c 1 5 (owed c 8 5) (mayWait_r1 c 5 5) (rCh 5) rfl (rPts m ρ c 5) rfl _); isplitr; · iexact HR
  isplitr; · iexact Hlev
  feed1 Cb5 HO Ab5; iintro ⟨HO, Ab5, Hv5⟩
  iapply (step_add m ρ c 1 hyF 5 _ rfl fo5); feed1 Hr5 Hv5 Ho5; iintro ⟨Hr5, Hv5, Ho5⟩
  iapply (step_send2 m ρ K c _ (Fin.ext (k0_dev32_eq c)) 1 hyF 5 fe5 _); isplitr; · iexact HR
  feed1 Ho5 He5 HO Tc5 Td5; iintro ⟨Cc5, HO⟩
  iapply (step_wait m ρ K c 1 6 (owed c 8 6) (mayWait_r1 c 6 6) (rCh 6) rfl (rPts m ρ c 6) rfl _); isplitr; · iexact HR
  isplitr; · iexact Hlev
  feed1 Cb6 HO Ab6; iintro ⟨HO, Ab6, Hv6⟩
  iapply (step_add m ρ c 1 hyF 6 _ rfl fo6); feed1 Hr6 Hv6 Ho6; iintro ⟨Hr6, Hv6, Ho6⟩
  iapply (step_send2 m ρ K c _ (Fin.ext (k0_dev33_eq c)) 1 hyF 6 fe6 _); isplitr; · iexact HR
  feed1 Ho6 He6 HO Tc6 Td6; iintro ⟨Cc6, HO⟩
  iapply (step_wait m ρ K c 1 7 (owed c 8 7) (mayWait_r1 c 7 7) (rCh 7) rfl (rPts m ρ c 7) rfl _); isplitr; · iexact HR
  isplitr; · iexact Hlev
  feed1 Cb7 HO Ab7; iintro ⟨HO, Ab7, Hv7⟩
  iapply (step_add m ρ c 1 hyF 7 _ rfl fo7); feed1 Hr7 Hv7 Ho7; iintro ⟨Hr7, Hv7, Ho7⟩
  iapply (step_send2 m ρ K c _ (Fin.ext (k0_dev34_eq c)) 1 hyF 7 fe7 _); isplitr; · iexact HR
  feed1 Ho7 He7 HO Tc7 Td7; iintro ⟨Cc7, HO⟩
  -- the mate's chunks arrive in the other half of the result buffer
  iapply (step_wait m ρ K c 3 0 (owed c 8 8) (mayWait_done1 c _) (oCh 1 0) rfl (oPts m ρ c (yG c) 0 (yp c)) rfl _); isplitr; · iexact HR
  isplitr; · iexact Hlev
  feed1 Cd0 HO Ad0; iintro ⟨HO, Ad0, Hu0⟩
  iapply (step_wait m ρ K c 3 1 (owed c 8 8) (mayWait_done1 c _) (oCh 1 1) rfl (oPts m ρ c (yG c) 1 (yp c)) rfl _); isplitr; · iexact HR
  isplitr; · iexact Hlev
  feed1 Cd1 HO Ad1; iintro ⟨HO, Ad1, Hu1⟩
  iapply (step_wait m ρ K c 3 2 (owed c 8 8) (mayWait_done1 c _) (oCh 1 2) rfl (oPts m ρ c (yG c) 2 (yp c)) rfl _); isplitr; · iexact HR
  isplitr; · iexact Hlev
  feed1 Cd2 HO Ad2; iintro ⟨HO, Ad2, Hu2⟩
  iapply (step_wait m ρ K c 3 3 (owed c 8 8) (mayWait_done1 c _) (oCh 1 3) rfl (oPts m ρ c (yG c) 3 (yp c)) rfl _); isplitr; · iexact HR
  isplitr; · iexact Hlev
  feed1 Cd3 HO Ad3; iintro ⟨HO, Ad3, Hu3⟩
  iapply (step_wait m ρ K c 3 4 (owed c 8 8) (mayWait_done1 c _) (oCh 1 4) rfl (oPts m ρ c (yG c) 4 (yp c)) rfl _); isplitr; · iexact HR
  isplitr; · iexact Hlev
  feed1 Cd4 HO Ad4; iintro ⟨HO, Ad4, Hu4⟩
  iapply (step_wait m ρ K c 3 5 (owed c 8 8) (mayWait_done1 c _) (oCh 1 5) rfl (oPts m ρ c (yG c) 5 (yp c)) rfl _); isplitr; · iexact HR
  isplitr; · iexact Hlev
  feed1 Cd5 HO Ad5; iintro ⟨HO, Ad5, Hu5⟩
  iapply (step_wait m ρ K c 3 6 (owed c 8 8) (mayWait_done1 c _) (oCh 1 6) rfl (oPts m ρ c (yG c) 6 (yp c)) rfl _); isplitr; · iexact HR
  isplitr; · iexact Hlev
  feed1 Cd6 HO Ad6; iintro ⟨HO, Ad6, Hu6⟩
  iapply (step_wait m ρ K c 3 7 (owed c 8 8) (mayWait_done1 c _) (oCh 1 7) rfl (oPts m ρ c (yG c) 7 (yp c)) rfl _); isplitr; · iexact HR
  isplitr; · iexact Hlev
  feed1 Cd7 HO Ad7; iintro ⟨HO, Ad7, Hu7⟩
  -- the transfers have left their sources
  iapply (step_wait m ρ K c 0 0 (owed c 8 8) (mayWait_done1 c _) (sCh 0) rfl (sPts m ρ c 0 fullShare.left) rfl _); isplitr; · iexact HR
  isplitr; · iexact Hlev
  feed1 Ca0 HO Aa0; iintro ⟨HO, Aa0, Hl0⟩
  iapply (step_wait m ρ K c 2 0 (owed c 8 8) (mayWait_done1 c _) (oCh 1 0) rfl (oPts m ρ c (yF c) 0 c) rfl _); isplitr; · iexact HR
  isplitr; · iexact Hlev
  feed1 Cc0 HO Ac0; iintro ⟨HO, Ac0, Ho0⟩
  iapply (step_wait m ρ K c 0 1 (owed c 8 8) (mayWait_done1 c _) (sCh 1) rfl (sPts m ρ c 1 fullShare.left) rfl _); isplitr; · iexact HR
  isplitr; · iexact Hlev
  feed1 Ca1 HO Aa1; iintro ⟨HO, Aa1, Hl1⟩
  iapply (step_wait m ρ K c 2 1 (owed c 8 8) (mayWait_done1 c _) (oCh 1 1) rfl (oPts m ρ c (yF c) 1 c) rfl _); isplitr; · iexact HR
  isplitr; · iexact Hlev
  feed1 Cc1 HO Ac1; iintro ⟨HO, Ac1, Ho1⟩
  iapply (step_wait m ρ K c 0 2 (owed c 8 8) (mayWait_done1 c _) (sCh 2) rfl (sPts m ρ c 2 fullShare.left) rfl _); isplitr; · iexact HR
  isplitr; · iexact Hlev
  feed1 Ca2 HO Aa2; iintro ⟨HO, Aa2, Hl2⟩
  iapply (step_wait m ρ K c 2 2 (owed c 8 8) (mayWait_done1 c _) (oCh 1 2) rfl (oPts m ρ c (yF c) 2 c) rfl _); isplitr; · iexact HR
  isplitr; · iexact Hlev
  feed1 Cc2 HO Ac2; iintro ⟨HO, Ac2, Ho2⟩
  iapply (step_wait m ρ K c 0 3 (owed c 8 8) (mayWait_done1 c _) (sCh 3) rfl (sPts m ρ c 3 fullShare.left) rfl _); isplitr; · iexact HR
  isplitr; · iexact Hlev
  feed1 Ca3 HO Aa3; iintro ⟨HO, Aa3, Hl3⟩
  iapply (step_wait m ρ K c 2 3 (owed c 8 8) (mayWait_done1 c _) (oCh 1 3) rfl (oPts m ρ c (yF c) 3 c) rfl _); isplitr; · iexact HR
  isplitr; · iexact Hlev
  feed1 Cc3 HO Ac3; iintro ⟨HO, Ac3, Ho3⟩
  iapply (step_wait m ρ K c 0 4 (owed c 8 8) (mayWait_done1 c _) (sCh 4) rfl (sPts m ρ c 4 fullShare.left) rfl _); isplitr; · iexact HR
  isplitr; · iexact Hlev
  feed1 Ca4 HO Aa4; iintro ⟨HO, Aa4, Hl4⟩
  iapply (step_wait m ρ K c 2 4 (owed c 8 8) (mayWait_done1 c _) (oCh 1 4) rfl (oPts m ρ c (yF c) 4 c) rfl _); isplitr; · iexact HR
  isplitr; · iexact Hlev
  feed1 Cc4 HO Ac4; iintro ⟨HO, Ac4, Ho4⟩
  iapply (step_wait m ρ K c 0 5 (owed c 8 8) (mayWait_done1 c _) (sCh 5) rfl (sPts m ρ c 5 fullShare.left) rfl _); isplitr; · iexact HR
  isplitr; · iexact Hlev
  feed1 Ca5 HO Aa5; iintro ⟨HO, Aa5, Hl5⟩
  iapply (step_wait m ρ K c 2 5 (owed c 8 8) (mayWait_done1 c _) (oCh 1 5) rfl (oPts m ρ c (yF c) 5 c) rfl _); isplitr; · iexact HR
  isplitr; · iexact Hlev
  feed1 Cc5 HO Ac5; iintro ⟨HO, Ac5, Ho5⟩
  iapply (step_wait m ρ K c 0 6 (owed c 8 8) (mayWait_done1 c _) (sCh 6) rfl (sPts m ρ c 6 fullShare.left) rfl _); isplitr; · iexact HR
  isplitr; · iexact Hlev
  feed1 Ca6 HO Aa6; iintro ⟨HO, Aa6, Hl6⟩
  iapply (step_wait m ρ K c 2 6 (owed c 8 8) (mayWait_done1 c _) (oCh 1 6) rfl (oPts m ρ c (yF c) 6 c) rfl _); isplitr; · iexact HR
  isplitr; · iexact Hlev
  feed1 Cc6 HO Ac6; iintro ⟨HO, Ac6, Ho6⟩
  iapply (step_wait m ρ K c 0 7 (owed c 8 8) (mayWait_done1 c _) (sCh 7) rfl (sPts m ρ c 7 fullShare.left) rfl _); isplitr; · iexact HR
  isplitr; · iexact Hlev
  feed1 Ca7 HO Aa7; iintro ⟨HO, Aa7, Hl7⟩
  iapply (step_wait m ρ K c 2 7 (owed c 8 8) (mayWait_done1 c _) (oCh 1 7) rfl (oPts m ρ c (yF c) 7 c) rfl _); isplitr; · iexact HR
  isplitr; · iexact Hlev
  feed1 Cc7 HO Ac7; iintro ⟨HO, Ac7, Ho7⟩
  -- the body returns: the cells are closed, the chunks joined
  rw [wp_ret]
  imod (body_finish1 m ρ K c _) $$ [Aa0 Aa1 Aa2 Aa3 Aa4 Aa5 Aa6 Aa7 Ab0 Ab1 Ab2 Ab3 Ab4 Ab5 Ab6 Ab7 Ac0 Ac1 Ac2 Ac3 Ac4 Ac5 Ac6 Ac7 Ad0 Ad1 Ad2 Ad3 Ad4 Ad5 Ad6 Ad7 Hl0 Hl1 Hl2 Hl3 Hl4 Hl5 Hl6 Hl7 Hr0 Hr1 Hr2 Hr3 Hr4 Hr5 Hr6 Hr7 Hv0 Hv1 Hv2 Hv3 Hv4 Hv5 Hv6 Hv7 Ho0 Ho1 Ho2 Ho3 Ho4 Ho5 Ho6 Ho7 Hu0 Hu1 Hu2 Hu3 Hu4 Hu5 Hu6 Hu7 Hx HO] with Hpost
  · isplitr; · iexact HR
    rw [bigSep_univ_prod, bigSep_fin4, bigSep_fin8, bigSep_fin8, bigSep_fin8, bigSep_fin8, bigSep_fin8, bigSep_fin8, bigSep_fin8, bigSep_fin8]
    isplitl [Aa0 Aa1 Aa2 Aa3 Aa4 Aa5 Aa6 Aa7 Ab0 Ab1 Ab2 Ab3 Ab4 Ab5 Ab6 Ab7 Ac0 Ac1 Ac2 Ac3 Ac4 Ac5 Ac6 Ac7 Ad0 Ad1 Ad2 Ad3 Ad4 Ad5 Ad6 Ad7]
    · isplitl [Aa0 Aa1 Aa2 Aa3 Aa4 Aa5 Aa6 Aa7]; · feed1 Aa0 Aa1 Aa2 Aa3 Aa4 Aa5 Aa6; iexact Aa7
      isplitl [Ab0 Ab1 Ab2 Ab3 Ab4 Ab5 Ab6 Ab7]; · feed1 Ab0 Ab1 Ab2 Ab3 Ab4 Ab5 Ab6; iexact Ab7
      isplitl [Ac0 Ac1 Ac2 Ac3 Ac4 Ac5 Ac6 Ac7]; · feed1 Ac0 Ac1 Ac2 Ac3 Ac4 Ac5 Ac6; iexact Ac7
      feed1 Ad0 Ad1 Ad2 Ad3 Ad4 Ad5 Ad6; iexact Ad7
    isplitl [Hl0 Hl1 Hl2 Hl3 Hl4 Hl5 Hl6 Hl7 Hr0 Hr1 Hr2 Hr3 Hr4 Hr5 Hr6 Hr7]
    · skip
      isplitl [Hl0 Hr0]; · (isplitl [Hl0]; · iexact Hl0); iexact Hr0
      isplitl [Hl1 Hr1]; · (isplitl [Hl1]; · iexact Hl1); iexact Hr1
      isplitl [Hl2 Hr2]; · (isplitl [Hl2]; · iexact Hl2); iexact Hr2
      isplitl [Hl3 Hr3]; · (isplitl [Hl3]; · iexact Hl3); iexact Hr3
      isplitl [Hl4 Hr4]; · (isplitl [Hl4]; · iexact Hl4); iexact Hr4
      isplitl [Hl5 Hr5]; · (isplitl [Hl5]; · iexact Hl5); iexact Hr5
      isplitl [Hl6 Hr6]; · (isplitl [Hl6]; · iexact Hl6); iexact Hr6
      isplitl [Hl7]; · iexact Hl7
      iexact Hr7
    isplitl [Hv0 Hv1 Hv2 Hv3 Hv4 Hv5 Hv6 Hv7]; · feed1 Hv0 Hv1 Hv2 Hv3 Hv4 Hv5 Hv6; iexact Hv7
    isplitl [Ho0 Ho1 Ho2 Ho3 Ho4 Ho5 Ho6 Ho7]; · feed1 Ho0 Ho1 Ho2 Ho3 Ho4 Ho5 Ho6; iexact Ho7
    isplitl [Hu0 Hu1 Hu2 Hu3 Hu4 Hu5 Hu6 Hu7]; · feed1 Hu0 Hu1 Hu2 Hu3 Hu4 Hu5 Hu6; iexact Hu7
    isplitl [Hx]; · iexact Hx
    iexact HO
  imodintro
  iapply Hk; iexact Hpost

end Cert.KernelIdeal.AR
end
-- ==== Proof.Body.lean ====
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import proofs.«900134_g7700000000000135_dist_ar_v7x_xy2x2_x_m512_n512_bf16_1_alg».proof.Proof.Levels
import proofs.«900134_g7700000000000135_dist_ar_v7x_xy2x2_x_m512_n512_bf16_1_alg».proof.Proof.Chunks
import proofs.«900134_g7700000000000135_dist_ar_v7x_xy2x2_x_m512_n512_bf16_1_alg».proof.Proof.Steps
import proofs.«900134_g7700000000000135_dist_ar_v7x_xy2x2_x_m512_n512_bf16_1_alg».proof.Proof.Launch
import proofs.«900134_g7700000000000135_dist_ar_v7x_xy2x2_x_m512_n512_bf16_1_alg».proof.Proof.Finish
import proofs.«900134_g7700000000000135_dist_ar_v7x_xy2x2_x_m512_n512_bf16_1_alg».proof.Proof.Oblig
import proofs.«900134_g7700000000000135_dist_ar_v7x_xy2x2_x_m512_n512_bf16_1_alg».proof.Proof.Body0
import proofs.«900134_g7700000000000135_dist_ar_v7x_xy2x2_x_m512_n512_bf16_1_alg».proof.Proof.Body1
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One thread's body on any device of the mesh: its `y` coordinate is 0 or 1, and the body enters that region. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  have h : yOf c = 0 ∨ yOf c = 1 := by have := yOf_lt c; omega
  rcases h with h | h
  · exact sound_body0 m ρ K c h Kt
  · exact sound_body1 m ρ K c h Kt

/-- At the compiled 2 × 2 mesh, for any float values, from any memory with zero counters: every weakly fair execution
    of @main terminates, and every final state has each device's result array at `outF` and its block of `x` unchanged. -/
theorem run : θ_run defs (onTc (τ := τ) (main (F := F))) (s₀ m ρ) (QC m ρ) :=
  run_of_sound m ρ (sound_body m ρ)

/-- info: 'Cert.KernelIdeal.AR.run' depends on axioms: [propext, Classical.choice, Quot.sound] -/
#guard_msgs in #print axioms run

end Cert.KernelIdeal.AR
end
-- ==== Proof.Bits.Sched.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The mesh: device `d = 2 x + y`; the mate along `x` and the mate along `y` -/

def xp (c : Dev nD) : Dev nD := ⟨(c.val % 2 + 2) - 2 * (c.val / 2), by have := c.isLt; revert this; generalize c.val = v; decide +revert⟩
def yp (c : Dev nD) : Dev nD := ⟨(2 * (c.val / 2) + 1) - c.val % 2, by have := c.isLt; revert this; generalize c.val = v; decide +revert⟩
def yOf (c : Dev nD) : ℕ := c.val % 2

theorem xp_xp (c : Dev nD) : xp (xp c) = c := by revert c; decide
theorem yp_yp (c : Dev nD) : yp (yp c) = c := by revert c; decide
theorem xp_ne (c : Dev nD) : xp c ≠ c := by revert c; decide
theorem yp_ne (c : Dev nD) : yp c ≠ c := by revert c; decide
theorem xp_ne_yp (c : Dev nD) : xp c ≠ yp c := by revert c; decide
theorem yOf_xp (c : Dev nD) : yOf (xp c) = yOf c := by revert c; decide
theorem yOf_yp (c : Dev nD) : yOf (yp c) = 1 - yOf c := by revert c; decide
theorem yOf_lt (c : Dev nD) : yOf c < 2 := Nat.mod_lt _ (by decide)

def xSwap : Dev nD ≃ Dev nD := ⟨xp, xp, xp_xp, xp_xp⟩
def ySwap : Dev nD ≃ Dev nD := ⟨yp, yp, yp_yp, yp_yp⟩

/-! ## Buffers, chunks, cells -/

abbrev xM : Memref sig .tc .vmem S512x512 .f32 := Memref.whole cc0_stg0_0
abbrev oM : Memref sig .tc .vmem S512x512 .bf16 := Memref.whole cc0_stg1_0
abbrev sM : Memref sig .tc .vmem S256x512 .bf16 := Memref.whole cc0_scratch0
abbrev rM : Memref sig .tc .vmem S256x512 .bf16 := Memref.whole cc0_scratch1

theorem inbH (k : Fin 8) : ∀ a, (![32 * k.val, 0] : Fin 2 → Nat) a + S32x512.size a ≤ S256x512.size a := by
  revert k; decide
theorem inbO (y : Fin 2) (k : Fin 8) : ∀ a, (![256 * y.val + 32 * k.val, 0] : Fin 2 → Nat) a + S32x512.size a ≤ S512x512.size a := by
  revert y k; decide

/-- Rows `32 k … 32 k + 31` of a half-height scratch buffer. -/
abbrev rH (k : Fin 8) : Rect S256x512 := Rect.unit (s := S256x512) ![32 * k.val, 0] S32x512.size (inbH k)
/-- Rows `256 y + 32 k …` of a full-height buffer. -/
abbrev rO (y : Fin 2) (k : Fin 8) : Rect S512x512 := Rect.unit (s := S512x512) ![256 * y.val + 32 * k.val, 0] S32x512.size (inbO y k)

abbrev sCh (k : Fin 8) : Memref sig .tc .vmem S32x512 .bf16 := sM.slice (rH k) (fun _ => rfl)
abbrev rCh (k : Fin 8) : Memref sig .tc .vmem S32x512 .bf16 := rM.slice (rH k) (fun _ => rfl)
abbrev oCh (y : Fin 2) (k : Fin 8) : Memref sig .tc .vmem S32x512 .bf16 := oM.slice (rO y k) (fun _ => rfl)

abbrev barS : Sem sig := (SemArray.scalar (sig.barrier 0 rfl) : Sems sig S_).sem
/-- The four families of eight DMA semaphores: 0 first-phase send, 1 first-phase receive, 2 second-phase send, 3 second-phase receive. -/
def dsem (j : Fin 4) (k : Fin 8) : DmaSem sig := ⟨2 + 8 * j.val + k.val, by have := j.isLt; have := k.isLt; show _ < 34; omega⟩

abbrev barCell (c : Dev nD) : GSem nD τ sig := ((c : Thread nD τ), .reg barS)
abbrev dCell (c : Dev nD) (j : Fin 4) (k : Fin 8) : GSem nD τ sig := ((c : Thread nD τ), .dma (dsem j k))

abbrev N : ℕ := (rCh 0 : Memref sig .tc .vmem S32x512 .bf16).view.dmaCredit
theorem N_pos : 0 < N := View.dmaCredit_pos _ (by decide)

/-! ## Contents -/

/-- Device `c`'s block of `x` as staged. -/
def xstg (c : Dev nD) : (cc0_stg0_0 : Ref sig .tc).ty.Contents (Elt F) :=
  (win0_0.blk (0 : Fin 1)).view.read (Elt F) ((s₀ m ρ).mem ((c : Thread nD τ).loc main_arg0))

def yF (c : Dev nD) : Fin 2 := ⟨yOf c, yOf_lt c⟩
def yG (c : Dev nD) : Fin 2 := ⟨1 - yOf c, by have := yOf_lt c; omega⟩

/-- The narrowing of one 32-row chunk. -/
def conv (v : Vec F S32x512 .f32) : FVec F S32x512 .bf16 := k0_pay1 v
/-- Chunk `k` of the rows device `c` reduces (rows `256 y + 32 k …` of its block), narrowed. -/
def sVal (c : Dev nD) (k : Fin 8) : FVec F S32x512 .bf16 :=
  conv ((xM : Memref sig .tc .vmem S512x512 .f32).view.readAt (Elt F) (rO (yF c) k).toLoadRect (xstg m ρ c))
/-- The same chunk summed over the two devices of the column. -/
def oVal (c : Dev nD) (k : Fin 8) : FVec F S32x512 .bf16 := addf (sVal m ρ c k) (sVal m ρ (xp c) k)

/-- Canonical contents of a buffer whose chunk under view `v` holds `w`. -/
def holds {s : Shape} {sp : Space} (v : View sig .tc sp s .bf16) (w : s.Idx → Elt F .bf16) : v.ty.Contents (Elt F) :=
  v.write (Elt F) (View.junk v) w Finset.univ

/-- Chunk `k` of the send buffer of `c` at share `q`, holding its narrowed rows. -/
def sPts (c : Dev nD) (k : Fin 8) (q : PosShare TreeShare) : sProp 𝕄 :=
  (sCh k).view.loc (c : Thread nD τ) ↦[(sCh k).view.set]{q} holds (sCh k).view (sVal m ρ c k)
/-- Chunk `k` of the receive buffer of `c`, holding the column mate's narrowed rows. -/
def rPts (c : Dev nD) (k : Fin 8) : sProp 𝕄 :=
  (rCh k).view.loc (c : Thread nD τ) ↦[(rCh k).view.set]{fullShare} holds (rCh k).view (sVal m ρ (xp c) k)
/-- Chunk `(y, k)` of the result buffer of `c`, holding the sums device `d` computed. -/
def oPts (c : Dev nD) (y : Fin 2) (k : Fin 8) (d : Dev nD) : sProp 𝕄 :=
  (oCh y k).view.loc (c : Thread nD τ) ↦[(oCh y k).view.set]{fullShare} holds (oCh y k).view (oVal m ρ d k)
/-- Chunks at some contents. -/
def rAny (c : Dev nD) (k : Fin 8) : sProp 𝕄 :=
  iprop(∃ f, (rCh k).view.loc (c : Thread nD τ) ↦[(rCh k).view.set]{fullShare} f)
def oAny (c : Dev nD) (y : Fin 2) (k : Fin 8) : sProp 𝕄 :=
  iprop(∃ f, (oCh y k).view.loc (c : Thread nD τ) ↦[(oCh y k).view.set]{fullShare} f)

/-! ## The schedule: one round; a barrier cell has two unit duties (`false` paid by the mate along `x`,
`true` by the mate along `y`), every transfer cell one duty of the chunk's credit -/

/-- What the `x` mate's barrier signal hands `c`: the mate's receive buffer, chunk by chunk. -/
def barPayX (c : Dev nD) : sProp 𝕄 := bigSep Finset.univ fun k : Fin 8 => rAny (xp c) k
/-- What the `y` mate's barrier signal hands `c`: the half of the mate's result buffer that `c` fills. -/
def barPayY (c : Dev nD) : sProp 𝕄 := bigSep Finset.univ fun k : Fin 8 => oAny (yp c) (yF c) k

def dmaPay (c : Dev nD) (j : Fin 4) (k : Fin 8) : sProp 𝕄 :=
  match j with
  | 0 => sPts m ρ c k fullShare.left
  | 1 => rPts m ρ c k
  | 2 => oPts m ρ c (yF c) k c
  | 3 => oPts m ρ c (yG c) k (yp c)

/-- The family and the chunk of a transfer semaphore. -/
def famOf (s : DmaSem sig) : Option (Fin 4 × Fin 8) :=
  if h : 2 ≤ s.val then some (⟨(s.val - 2) / 8, by have := s.isLt; change s.val < 34 at this; omega⟩, ⟨(s.val - 2) % 8, Nat.mod_lt _ (by decide)⟩) else none

theorem famOf_dsem (j : Fin 4) (k : Fin 8) : famOf (dsem j k) = some (j, k) := by revert j k; decide

def Rd : Rounds.Schedule (GSem nD τ sig) Bool 𝕄 where
  duties g r :=
    if r = 0 ∧ g.1.2 = .tc then
      match g.2 with
      | .reg _ => Finset.univ
      | .dma s => if (famOf s).isSome then {false} else ∅
    else ∅
  unitless _ := False
  amount g _ _ := match g.2 with | .reg _ => 1 | .dma _ => N
  payload g _ d :=
    match g.2 with
    | .reg _ => if d then barPayY g.1.1 else barPayX g.1.1
    | .dma s => match famOf s with
      | some (j, k) => dmaPay m ρ g.1.1 j k
      | none => iprop(emp)
  amount_pos g _ _ _ := by cases g.2 <;> first | exact Nat.one_pos | exact N_pos

instance Rd_payload_storable (g : GSem nD τ sig) (r : ℕ) (d : Bool) :
    BI.Storable (upEmb : UEmb _ 𝕄) ((Rd (F := F) m ρ).payload g r d) := by
  obtain ⟨t, s⟩ := g
  cases s with
  | reg s =>
    show BI.Storable upEmb (if d then barPayY t.1 else barPayX t.1)
    unfold barPayY barPayX oAny rAny
    split <;> infer_instance
  | dma s =>
    show BI.Storable upEmb (match famOf s with | some (j, k) => dmaPay m ρ t.1 j k | none => iprop(emp))
    cases famOf s with
    | none => show BI.Storable upEmb iprop(emp); infer_instance
    | some jk =>
      obtain ⟨j, k⟩ := jk
      show BI.Storable upEmb (dmaPay m ρ t.1 j k)
      unfold dmaPay sPts rPts oPts
      fin_cases j <;> infer_instance

section Tables
variable (c : Dev nD)

theorem duties_bar : (Rd (F := F) m ρ).duties (barCell c) 0 = Finset.univ := by dsimp only [Rd]; rw [if_pos ⟨rfl, rfl⟩]
theorem duties_dma (j : Fin 4) (k : Fin 8) : (Rd (F := F) m ρ).duties (dCell c j k) 0 = {false} := by
  dsimp only [Rd]; rw [if_pos ⟨rfl, rfl⟩]; show (if (famOf (dsem j k)).isSome then _ else _) = _; rw [famOf_dsem]; rfl
theorem duties_later (g : GSem nD τ sig) : ∀ r, 1 ≤ r → (Rd (F := F) m ρ).duties g r = ∅ :=
  fun r hr => by dsimp only [Rd]; rw [if_neg fun h => by omega]
theorem amount_bar (d : Bool) : (Rd (F := F) m ρ).amount (barCell c) 0 d = 1 := rfl
theorem amount_dma (j : Fin 4) (k : Fin 8) (d : Bool) : (Rd (F := F) m ρ).amount (dCell c j k) 0 d = N := rfl
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (j : Fin 4) (k : Fin 8) : (Rd (F := F) m ρ).expect (dCell c j k) 0 = N := by
  unfold Schedule.expect Schedule.amountOf; rw [duties_dma, Finset.sum_singleton, amount_dma]
theorem payload_bar_false : (Rd (F := F) m ρ).payload (barCell c) 0 false = barPayX c := rfl
theorem payload_bar_true : (Rd (F := F) m ρ).payload (barCell c) 0 true = barPayY c := rfl
theorem payload_dma (j : Fin 4) (k : Fin 8) (d : Bool) : (Rd (F := F) m ρ).payload (dCell c j k) 0 d = dmaPay m ρ c j k := by
  show (match famOf (dsem j k) with | some (j, k) => dmaPay m ρ c j k | none => iprop(emp)) = _
  rw [famOf_dsem]
theorem rest_bar : bigSep ((Rd (F := F) m ρ).duties (barCell c) 0 \ ∅) (fun d => (Rd (F := F) m ρ).payload (barCell c) 0 d)
    = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_dma (j : Fin 4) (k : Fin 8) : bigSep ((Rd (F := F) m ρ).duties (dCell c j k) 0 \ ∅) (fun d => (Rd (F := F) m ρ).payload (dCell c j k) 0 d)
    = dmaPay m ρ c j k := by
  rw [Finset.sdiff_empty, duties_dma, bigSep_singleton, payload_dma]
end Tables

/-! ## Levels and what each device owes at launch -/

def L (g : GSem nD τ sig) : Finset Unit := if g.1.2 = .tc then {()} else ∅
/-- Barrier cells at 1, first-phase receive cells at 2, second-phase receive cells at 3, everything else at 0. -/
def lv (g : GSem nD τ sig) (_ : Unit) : ℕ :=
  match g.2 with
  | .reg _ => 1
  | .dma s => match famOf s with
    | some (j, _) => if j = 1 then 2 else if j = 3 then 3 else 0
    | none => 0

/-- The first-phase receive credit of chunks `a ≤ k` owed to the `x` mate, the second-phase one of chunks `b ≤ k` owed to the `y` mate. -/
def owedX (c : Dev nD) (a : ℕ) : CellTallies nD τ sig Unit :=
  ∑ k ∈ Finset.univ.filter (fun k : Fin 8 => a ≤ k.val), tallyAt (dCell (xp c) 1 k) () N
def owedY (c : Dev nD) (b : ℕ) : CellTallies nD τ sig Unit :=
  ∑ k ∈ Finset.univ.filter (fun k : Fin 8 => b ≤ k.val), tallyAt (dCell (yp c) 3 k) () N
def owed (c : Dev nD) (a b : ℕ) : CellTallies nD τ sig Unit := owedX c a + owedY c b
def O₁ (c : Dev nD) : CellTallies nD τ sig Unit := owed c 0 0 + tallyAt (barCell (yp c)) () 1
def O₀ (c : Dev nD) : CellTallies nD τ sig Unit := O₁ c + tallyAt (barCell (xp c)) () 1

/-! ## Ghost state -/

abbrev CK : Type := Option (Fin 4 × Fin 8)
abbrev csem : CK → SemLoc sig
  | none => .reg barS
  | some jk => .dma (dsem jk.1 jk.2)
abbrev kcell (ck : Dev nD × CK) : GSem nD τ sig := ((ck.1 : Thread nD τ), csem ck.2)
abbrev osem : Fin 4 × Fin 8 → SemLoc sig := fun jk => .dma (dsem jk.1 jk.2)

/-- Every cell's invariant under the names `K`, and round 0 of every cell reached: persistent, every device holds a copy. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)
instance records_persistent (K : Dev nD × CK → ℕ) : BI.Persistent (records m ρ K) := by unfold records; infer_instance

/-- The duty tokens device `c` pays with: its mates' barrier duties, its own send cells', its mates' receive cells'. -/
def payToks (c : Dev nD) : sProp 𝕄 :=
  iprop(dutyTok ER (barCell (xp c)) 0 false ∗ dutyTok ER (barCell (yp c)) 0 true
    ∗ (bigSep Finset.univ fun k : Fin 8 => dutyTok ER (dCell c 0 k) 0 false)
    ∗ (bigSep Finset.univ fun k : Fin 8 => dutyTok ER (dCell (xp c) 1 k) 0 false)
    ∗ (bigSep Finset.univ fun k : Fin 8 => dutyTok ER (dCell c 2 k) 0 false)
    ∗ (bigSep Finset.univ fun k : Fin 8 => dutyTok ER (dCell (yp c) 3 k) 0 false))
def linear (c : Dev nD) : sProp 𝕄 :=
  iprop((bigSep Finset.univ fun ck : CK => atPos ER (kcell (c, ck)) 0 ∅ 0) ∗ payToks c)
def ghost (K : Dev nD × CK → ℕ) (c : Dev nD) : sProp 𝕄 := iprop(records m ρ K ∗ linear c)

/-- The credit a device holds at launch: its barrier's two units, its receive cells' chunk credits. -/
def creds (c : Dev nD) : sProp 𝕄 :=
  iprop(cred (tallyAt (barCell c) () 2)
    ∗ (bigSep Finset.univ fun k : Fin 8 => cred (tallyAt (dCell c 1 k) () N))
    ∗ (bigSep Finset.univ fun k : Fin 8 => cred (tallyAt (dCell c 3 k) () N)))
def start (c : Dev nD) : sProp 𝕄 := iprop((∃ K, ghost m ρ K c) ∗ creds c ∗ levAts L lv)

/-! ## The result buffer after the body, and the pipeline's proof data -/

def owner (c : Dev nD) (y : Fin 2) : Dev nD := if y = yF c then c else yp c

/-- The result buffer: chunk `(y, k)` holds the sums its owner computed. -/
def outF (c : Dev nD) : (cc0_stg1_0 : Ref sig .tc).ty.Contents (Elt F) := fun i =>
  let y : Fin 2 := ⟨(i 0).val / 256, by have := (i 0).isLt; change _ < 512 at this; omega⟩
  let k : Fin 8 := ⟨((i 0).val % 256) / 32, by omega⟩
  holds (oCh y k).view (oVal m ρ (owner c y) k) i

def sAll (c : Dev nD) : sProp 𝕄 := iprop(∃ f : Buf (Elt F) ((c : Thread nD τ).loc cc0_scratch0), ((c : Thread nD τ).loc cc0_scratch0) ↦{fullShare} f)
def rAll (c : Dev nD) : sProp 𝕄 := iprop(∃ f : Buf (Elt F) ((c : Thread nD τ).loc cc0_scratch1), ((c : Thread nD τ).loc cc0_scratch1) ↦{fullShare} f)

def Φ₀ (c : Dev nD) : sProp 𝕄 := iprop(start m ρ c ∗ sAll c ∗ rAll c)
def Φ₁ (c : Dev nD) : sProp 𝕄 :=
  iprop(sAll c ∗ rAll c ∗ bigSep Finset.univ fun jk : Fin 4 × Fin 8 => semVal ((c : Thread nD τ), osem jk) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m ρ K c ∗ creds c ∗ levAts L lv ∗ sAll c ∗ rAll c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (outF m ρ c))

/-! ## The arrays after the run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The `x` block after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Kernel.AR
end
-- ==== Proof.Bits.Levels.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import proofs.«900134_g7700000000000135_dist_ar_v7x_xy2x2_x_m512_n512_bf16_1_alg».proof.Proof.Bits.Sched
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Cert.Kernel.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

/-! ## Peeling one chunk off what is owed -/

/-- The chunks from `a` on are chunk `a` and the chunks from `a + 1` on. -/
theorem from_succ (a : ℕ) (ha : a < 8) :
    Finset.univ.filter (fun k : Fin 8 => a ≤ k.val)
      = insert (⟨a, ha⟩ : Fin 8) (Finset.univ.filter (fun k : Fin 8 => a + 1 ≤ k.val)) := by
  ext k
  rw [Finset.mem_insert, Finset.mem_filter, Finset.mem_filter, Fin.ext_iff]
  simp only [Finset.mem_univ, true_and]
  omega
theorem from_succ_notMem (a : ℕ) (ha : a < 8) :
    (⟨a, ha⟩ : Fin 8) ∉ Finset.univ.filter (fun k : Fin 8 => a + 1 ≤ k.val) := by
  rw [Finset.mem_filter]; rintro ⟨_, h⟩; exact Nat.not_succ_le_self a h
/-- No chunk from 8 on. -/
theorem from_eight : Finset.univ.filter (fun k : Fin 8 => 8 ≤ k.val) = ∅ :=
  Finset.filter_eq_empty_iff.mpr fun k _ h => absurd k.isLt (Nat.not_lt.mpr h)

theorem owedX_succ (c : Dev nD) (a : ℕ) (ha : a < 8) :
    owedX c a = owedX c (a + 1) + tallyAt (dCell (xp c) 1 ⟨a, ha⟩) () N := by
  unfold owedX; rw [from_succ a ha, Finset.sum_insert (from_succ_notMem a ha), add_comm]
theorem owedY_succ (c : Dev nD) (b : ℕ) (hb : b < 8) :
    owedY c b = owedY c (b + 1) + tallyAt (dCell (yp c) 3 ⟨b, hb⟩) () N := by
  unfold owedY; rw [from_succ b hb, Finset.sum_insert (from_succ_notMem b hb), add_comm]
theorem owedX_eight (c : Dev nD) : owedX c 8 = 0 := by unfold owedX; rw [from_eight, Finset.sum_empty]
theorem owedY_eight (c : Dev nD) : owedY c 8 = 0 := by unfold owedY; rw [from_eight, Finset.sum_empty]

/-- Issuing the first-phase transfer of chunk `a` takes its credit off what is owed. -/
theorem owed_peelX (c : Dev nD) (a b : ℕ) (ha : a < 8) :
    owed c a b = owed c (a + 1) b + tallyAt (dCell (xp c) 1 ⟨a, ha⟩) () N := by
  unfold owed; rw [owedX_succ c a ha, add_right_comm]
/-- Issuing the second-phase transfer of chunk `b` takes its credit off what is owed. -/
theorem owed_peelY (c : Dev nD) (a b : ℕ) (hb : b < 8) :
    owed c a b = owed c a (b + 1) + tallyAt (dCell (yp c) 3 ⟨b, hb⟩) () N := by
  unfold owed; rw [owedY_succ c b hb, add_assoc]
theorem owed_done (c : Dev nD) : owed c 8 8 = 0 := by
  unfold owed; rw [owedX_eight, owedY_eight, add_zero]

/-! ## Where the owed credit sits, and the levels there -/

theorem owedX_apply_ne (c : Dev nD) (a : ℕ) (g : GSem nD τ sig) (h : ∀ k, g ≠ dCell (xp c) 1 k) : owedX c a g = 0 := by
  unfold owedX; rw [Finset.sum_apply]; exact Finset.sum_eq_zero fun k _ => tallyAt_ne_cell (h k) () N
theorem owedY_apply_ne (c : Dev nD) (b : ℕ) (g : GSem nD τ sig) (h : ∀ k, g ≠ dCell (yp c) 3 k) : owedY c b g = 0 := by
  unfold owedY; rw [Finset.sum_apply]; exact Finset.sum_eq_zero fun k _ => tallyAt_ne_cell (h k) () N

/-- Transfer credit is owed only to the `x` mate's first-phase receive cells and the `y` mate's second-phase ones. -/
theorem owed_pos {c : Dev nD} {a b : ℕ} {g : GSem nD τ sig} {u : Unit} (h : 0 < owed c a b g u) :
    (∃ k, g = dCell (xp c) 1 k) ∨ (∃ k, g = dCell (yp c) 3 k) := by
  by_contra hn
  rw [not_or, not_exists, not_exists] at hn
  unfold owed at h
  rw [Pi.add_apply, owedX_apply_ne c a g hn.1, owedY_apply_ne c b g hn.2, add_zero, Finsupp.zero_apply] at h
  exact Nat.lt_irrefl 0 h

/-- At launch a device owes, besides, one unit to each mate's barrier cell. -/
theorem O₀_pos {c : Dev nD} {g : GSem nD τ sig} {u : Unit} (h : 0 < O₀ c g u) :
    (∃ k, g = dCell (xp c) 1 k) ∨ (∃ k, g = dCell (yp c) 3 k) ∨ g = barCell (yp c) ∨ g = barCell (xp c) := by
  by_cases h1 : g = barCell (yp c)
  · exact Or.inr (Or.inr (Or.inl h1))
  by_cases h2 : g = barCell (xp c)
  · exact Or.inr (Or.inr (Or.inr h2))
  unfold O₀ O₁ at h
  rw [Pi.add_apply, Finsupp.add_apply, Pi.add_apply, Finsupp.add_apply, tallyAt_ne_cell h1, tallyAt_ne_cell h2,
    Finsupp.zero_apply, add_zero, add_zero] at h
  rcases owed_pos h with h | h
  · exact Or.inl h
  · exact Or.inr (Or.inl h)

theorem lv_bar (d : Dev nD) (u : Unit) : lv (barCell d) u = 1 := rfl
theorem lv_dma (d : Dev nD) (j : Fin 4) (k : Fin 8) (u : Unit) :
    lv (dCell d j k) u = if j = 1 then 2 else if j = 3 then 3 else 0 := by
  show (match famOf (dsem j k) with | some (j, _) => if j = 1 then 2 else if j = 3 then 3 else 0 | none => 0) = _
  rw [famOf_dsem]
theorem lv_none (t : Thread nD τ) (q : DmaSem sig) (hq : famOf q = none) (u : Unit) : lv (t, .dma q) u = 0 := by
  show (match famOf q with | some (j, _) => if j = 1 then 2 else if j = 3 then 3 else 0 | none => 0) = 0
  rw [hq]

/-- A staging cell's wait (level 0) lies below everything a device owes at launch. -/
theorem mayWait_stage (c : Dev nD) (q : DmaSem sig) (hq : famOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨k, rfl⟩ | ⟨k, rfl⟩ | rfl | rfl <;> (rw [L_tc]; exact Finset.mem_singleton_self _))
      (fun p hp => by rw [Finset.mem_singleton.mp hp]; exact Nat.le_of_eq (lv_none _ q hq _))
      (fun g u hg => by
        rcases O₀_pos hg with ⟨k, rfl⟩ | ⟨k, rfl⟩ | rfl | rfl
        · rw [lv_dma]; decide
        · rw [lv_dma]; decide
        · rw [lv_bar]; decide
        · rw [lv_bar]; decide)
  · rw [MayWait_zero]; iintro -; iempintro
/-- At its barrier wait a device owes transfer credits only: receive cells, above its barrier cell. -/
theorem mayWait_bar (c : Dev nD) :
    (levAts L lv : sProp 𝕄) ⊢ MayWait (c : Thread nD τ) (.reg barS) () (owed c 0 0) :=
  MayOwe.of_cut (L := L) (lev := lv) 1
    (fun p hp => by rw [Finset.mem_singleton.mp hp, L_tc]; exact Finset.mem_singleton_self _)
    (fun g u hg => by
      rcases owed_pos hg with ⟨k, rfl⟩ | ⟨k, rfl⟩ <;> (rw [L_tc]; exact Finset.mem_singleton_self _))
    (fun p hp => by rw [Finset.mem_singleton.mp hp]; exact Nat.le_of_eq (lv_bar c _))
    (fun g u hg => by
      rcases owed_pos hg with ⟨k, rfl⟩ | ⟨k, rfl⟩
      · rw [lv_dma]; decide
      · rw [lv_dma]; decide)
/-- With the first phase issued, what is left is owed to the `y` mate's second-phase receive cells. -/
theorem owed_eight_pos {c : Dev nD} {b : ℕ} {g : GSem nD τ sig} {u : Unit} (h : 0 < owed c 8 b g u) :
    ∃ k, g = dCell (yp c) 3 k := by
  by_contra hn
  rw [not_exists] at hn
  unfold owed at h
  rw [owedX_eight, zero_add, owedY_apply_ne c b g hn, Finsupp.zero_apply] at h
  exact Nat.lt_irrefl 0 h

/-- At a first-phase receive wait a device owes second-phase credits only. -/
theorem mayWait_r1 (c : Dev nD) (k : Fin 8) (b : ℕ) :
    (levAts L lv : sProp 𝕄) ⊢ MayWait (c : Thread nD τ) (.dma (dsem 1 k)) () (owed c 8 b) :=
  MayOwe.of_cut (L := L) (lev := lv) 2
    (fun p hp => by rw [Finset.mem_singleton.mp hp, L_tc]; exact Finset.mem_singleton_self _)
    (fun g u hg => by obtain ⟨k', rfl⟩ := owed_eight_pos hg; rw [L_tc]; exact Finset.mem_singleton_self _)
    (fun p hp => by rw [Finset.mem_singleton.mp hp]; show lv (dCell c 1 k) () ≤ 2; rw [lv_dma]; decide)
    (fun g u hg => by obtain ⟨k', rfl⟩ := owed_eight_pos hg; rw [lv_dma]; decide)

/-! ## The launch credit -/

theorem dsem_inj {j j' : Fin 4} {k k' : Fin 8} (h : dsem j k = dsem j' k') : j = j' ∧ k = k' := by
  have h' : 2 + 8 * j.val + k.val = 2 + 8 * j'.val + k'.val := congrArg (fun s : DmaSem sig => s.val) h
  have := k.isLt; have := k'.isLt
  exact ⟨Fin.ext (by omega), Fin.ext (by omega)⟩

theorem dCell_eq_iff {c c' : Dev nD} {j j' : Fin 4} {k k' : Fin 8} :
    dCell c j k = dCell c' j' k' ↔ c = c' ∧ j = j' ∧ k = k' := by
  constructor
  · intro h
    have h1 : c = c' := congrArg (fun g : GSem nD τ sig => g.1.1) h
    have h2 : dsem j k = dsem j' k' := SemLoc.dma.inj (congrArg Prod.snd h)
    exact ⟨h1, dsem_inj h2⟩
  · rintro ⟨rfl, rfl, rfl⟩; rfl
theorem bar_eq_iff {a b : Dev nD} : barCell a = barCell b ↔ a = b :=
  ⟨fun h => congrArg (fun g : GSem nD τ sig => g.1.1) h, fun h => h ▸ rfl⟩
theorem bar_ne_dCell (a d : Dev nD) (j : Fin 4) (k : Fin 8) : barCell a ≠ dCell d j k :=
  fun h => by cases congrArg Prod.snd h
theorem dCell_ne_bar (a d : Dev nD) (j : Fin 4) (k : Fin 8) : dCell d j k ≠ barCell a :=
  fun h => by cases congrArg Prod.snd h

theorem O₀_apply (d : Dev nD) (g : GSem nD τ sig) (u : Unit) :
    O₀ d g u = owedX d 0 g u + owedY d 0 g u + tallyAt (barCell (yp d)) () 1 g u + tallyAt (barCell (xp d)) () 1 g u := by
  unfold O₀ O₁ owed
  rw [Pi.add_apply, Finsupp.add_apply, Pi.add_apply, Finsupp.add_apply, Pi.add_apply, Finsupp.add_apply]

/-- The first-phase receive cell of chunk `k` on `c` is owed its credit by the `x` mate, -/
theorem owedX_zero_at (d c : Dev nD) (k : Fin 8) : owedX d 0 (dCell c 1 k) () = if d = xp c then N else 0 := by
  unfold owedX
  rw [Finset.filter_true_of_mem (fun _ _ => Nat.zero_le _), Finset.sum_apply, Finsupp.finsetSum_apply]
  by_cases h : d = xp c
  · subst h
    rw [if_pos rfl, xp_xp, Fintype.sum_eq_single k fun k' hk' => by
      rw [tallyAt_ne_cell (fun e => hk' (dCell_eq_iff.mp e).2.2.symm), Finsupp.zero_apply]]
    exact tallyAt_self _ _ _
  · rw [if_neg h]
    exact Finset.sum_eq_zero fun k' _ => by
      rw [tallyAt_ne_cell (fun e => h (by rw [(dCell_eq_iff.mp e).1, xp_xp])), Finsupp.zero_apply]
/-- the second-phase one by the `y` mate. -/
theorem owedY_zero_at (d c : Dev nD) (k : Fin 8) : owedY d 0 (dCell c 3 k) () = if d = yp c then N else 0 := by
  unfold owedY
  rw [Finset.filter_true_of_mem (fun _ _ => Nat.zero_le _), Finset.sum_apply, Finsupp.finsetSum_apply]
  by_cases h : d = yp c
  · subst h
    rw [if_pos rfl, yp_yp, Fintype.sum_eq_single k fun k' hk' => by
      rw [tallyAt_ne_cell (fun e => hk' (dCell_eq_iff.mp e).2.2.symm), Finsupp.zero_apply]]
    exact tallyAt_self _ _ _
  · rw [if_neg h]
    exact Finset.sum_eq_zero fun k' _ => by
      rw [tallyAt_ne_cell (fun e => h (by rw [(dCell_eq_iff.mp e).1, yp_yp])), Finsupp.zero_apply]

/-- What device `d` owes device `c`'s barrier cell: a unit if it is the `y` mate, a unit if it is the `x` mate. -/
theorem owed_bar (d c : Dev nD) : O₀ d (barCell c) () = (if d = yp c then 1 else 0) + (if d = xp c then 1 else 0) := by
  rw [O₀_apply, owedX_apply_ne d 0 _ (fun k => bar_ne_dCell c _ 1 k), owedY_apply_ne d 0 _ (fun k => bar_ne_dCell c _ 3 k),
    Finsupp.zero_apply, Nat.zero_add, Nat.zero_add, tallyAt_apply, tallyAt_apply]
  congr 1
  · by_cases h : d = yp c
    · subst h; rw [yp_yp, if_pos ⟨rfl, rfl⟩, if_pos rfl]
    · rw [if_neg (fun h' => h (by rw [bar_eq_iff.mp h'.1, yp_yp])), if_neg h]
  · by_cases h : d = xp c
    · subst h; rw [xp_xp, if_pos ⟨rfl, rfl⟩, if_pos rfl]
    · rw [if_neg (fun h' => h (by rw [bar_eq_iff.mp h'.1, xp_xp])), if_neg h]

theorem owed_r1 (d c : Dev nD) (k : Fin 8) : O₀ d (dCell c 1 k) () = if d = xp c then N else 0 := by
  rw [O₀_apply, owedX_zero_at, owedY_apply_ne d 0 _ (fun k' e => absurd (dCell_eq_iff.mp e).2.1 (by decide)),
    tallyAt_ne_cell (dCell_ne_bar _ c 1 k), tallyAt_ne_cell (dCell_ne_bar _ c 1 k), Finsupp.zero_apply, Nat.add_zero, Nat.add_zero, Nat.add_zero]
theorem owed_r3 (d c : Dev nD) (k : Fin 8) : O₀ d (dCell c 3 k) () = if d = yp c then N else 0 := by
  rw [O₀_apply, owedY_zero_at, owedX_apply_ne d 0 _ (fun k' e => absurd (dCell_eq_iff.mp e).2.1 (by decide)),
    tallyAt_ne_cell (dCell_ne_bar _ c 3 k), tallyAt_ne_cell (dCell_ne_bar _ c 3 k), Finsupp.zero_apply, Nat.zero_add, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1,
    if_pos (Finset.mem_univ _), if_pos (Finset.mem_univ _)]
theorem launch_r1 (c : Dev nD) (k : Fin 8) :
    tallyOn (dCell c 1 k) (launchCredit (Pipeline.owing O₀) 0 (dCell c 1 k)) = (tallyAt (dCell c 1 k) () N : CellTallies nD τ sig Unit) := by
  unfold tallyAt; refine congrArg _ (Finsupp.ext fun u => ?_); cases u
  rw [Pipeline.launchCredit_owing, Finsupp.single_eq_same, Finset.sum_congr rfl fun d _ => owed_r1 d c k,
    Finset.sum_ite_eq' Finset.univ (xp c) fun _ => N, if_pos (Finset.mem_univ _)]
theorem launch_r3 (c : Dev nD) (k : Fin 8) :
    tallyOn (dCell c 3 k) (launchCredit (Pipeline.owing O₀) 0 (dCell c 3 k)) = (tallyAt (dCell c 3 k) () N : CellTallies nD τ sig Unit) := by
  unfold tallyAt; refine congrArg _ (Finsupp.ext fun u => ?_); cases u
  rw [Pipeline.launchCredit_owing, Finsupp.single_eq_same, Finset.sum_congr rfl fun d _ => owed_r3 d c k,
    Finset.sum_ite_eq' Finset.univ (yp c) fun _ => N, if_pos (Finset.mem_univ _)]

/-- The semaphores of one transfer family, as an embedding of the chunks. -/
def famE (j : Fin 4) : Fin 8 ↪ SemLoc sig :=
  ⟨fun k => .dma (dsem j k), fun k k' h => (dsem_inj (SemLoc.dma.inj h)).2⟩
theorem fam_disjoint : Disjoint (Finset.univ.map (famE 1)) (Finset.univ.map (famE 3)) := by
  rw [Finset.disjoint_left]
  intro s h1 h3
  obtain ⟨k, -, rfl⟩ := Finset.mem_map.mp h1
  obtain ⟨k', -, e⟩ := Finset.mem_map.mp h3
  exact absurd (dsem_inj (SemLoc.dma.inj e)).1 (by decide)
theorem fam_subset : Finset.univ.map (famE 1) ∪ Finset.univ.map (famE 3) ⊆ (Finset.univ : Finset (SemLoc sig)).erase (.reg barS) := by
  intro s hs
  refine Finset.mem_erase.mpr ⟨?_, Finset.mem_univ _⟩
  rcases Finset.mem_union.mp hs with h | h <;> (obtain ⟨k, -, rfl⟩ := Finset.mem_map.mp h; exact fun e => by cases e)

/-- The launch deals each device the credit its mates owe its cells. -/
theorem launch_creds (c : Dev nD) : (Pipeline.launchCred O₀ c : sProp 𝕄) ⊢ creds c := by
  unfold Pipeline.launchCred creds
  rw [bigSep_univ_at _ (SemLoc.reg barS), launch_bar]
  refine sep_mono_right ((bigSep_subset fam_subset).trans ?_)
  rw [bigSep_union fam_disjoint, bigSep_map, bigSep_map]
  exact (sep_mono_left (Entails.of_eq (bigSep_congr fun k _ => congrArg cred (launch_r1 c k)))).trans
    (sep_mono_right (Entails.of_eq (bigSep_congr fun k _ => congrArg cred (launch_r3 c k))))

end Cert.Kernel.AR
end
-- ==== Proof.Bits.Chunks.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import proofs.«900134_g7700000000000135_dist_ar_v7x_xy2x2_x_m512_n512_bf16_1_alg».proof.Proof.Bits.Sched
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Cert.Kernel.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## Rows: a half-height buffer is its eight chunks of 32 rows -/

/-- Row `r` lies in chunk `k` exactly when `32 k ≤ r < 32 k + 32`; the column is free. -/
theorem mem_rH {k : Fin 8} {i : S256x512.Idx} :
    i ∈ (rH k).set ↔ 32 * k.val ≤ (i 0).val ∧ (i 0).val < 32 * k.val + 32 := by
  rw [Rect.mem_set_unit]
  have h1 : (i 1).val < 512 := (i 1).isLt
  constructor
  · intro h
    have := h 0
    simp only [Matrix.cons_val_zero] at this
    exact this
  · intro h a
    fin_cases a
    · exact h
    · exact ⟨Nat.zero_le _, by simpa using h1⟩

/-- Every row lies in the chunk `r / 32`. -/
theorem rH_cover (i : S256x512.Idx) : ∃ k : Fin 8, i ∈ (rH k).set := by
  have h0 : (i 0).val < 256 := (i 0).isLt
  exact ⟨⟨(i 0).val / 32, by omega⟩, mem_rH.mpr ⟨by show 32 * ((i 0).val / 32) ≤ _; omega, by show _ < 32 * ((i 0).val / 32) + 32; omega⟩⟩

/-- Two chunks with a common row are the same chunk. -/
theorem rH_disjoint {k k' : Fin 8} (h : k ≠ k') : Disjoint (rH k).set (rH k').set := by
  rw [Finset.disjoint_left]
  intro i hi hi'
  rw [mem_rH] at hi hi'
  exact h (Fin.ext (by omega))

/-! ## A buffer held whole is its pieces, for any finite family of pairwise disjoint pieces that cover it -/

theorem univ_eq_biUnion {X T : Type} [Fintype X] [DecidableEq X] [Fintype T] (K : T → Finset X) (hc : ∀ i, ∃ t, i ∈ K t) :
    (Finset.univ : Finset X) = Finset.univ.biUnion K := by
  ext i
  simp only [Finset.mem_univ, Finset.mem_biUnion, true_and, true_iff]
  exact hc i

theorem split_cover {ℓ : Loc nD τ sig} {T : Type} [Fintype T] (K : T → Finset (Idx ℓ))
    (hc : ∀ i, ∃ t, i ∈ K t) (hd : ∀ t t', t ≠ t' → Disjoint (K t) (K t'))
    (q : PosShare TreeShare) (f : Buf (Elt F) ℓ) :
    (ℓ ↦{q} f : sProp 𝕄) = bigSep Finset.univ fun t => (ℓ ↦[K t]{q} f : sProp 𝕄) := by
  have h := pointsTo_biUnion (Val := Elt F) (Name := ℕ) (U := UU) (Lvl := ℕ) (Ix := Unit) (q := q) (f := f) Finset.univ K (fun t _ t' _ h => hd t t' h)
  rw [← univ_eq_biUnion K hc] at h
  exact h

/-- Pieces each at contents of its own join to the whole at contents that agree with each on its piece. -/
theorem join_cover {ℓ : Loc nD τ sig} {T : Type} [Fintype T] (K : T → Finset (Idx ℓ))
    (hc : ∀ i, ∃ t, i ∈ K t) (hd : ∀ t t', t ≠ t' → Disjoint (K t) (K t'))
    (q : PosShare TreeShare) (fs : T → Buf (Elt F) ℓ) :
    (bigSep Finset.univ fun t => (ℓ ↦[K t]{q} fs t : sProp 𝕄))
      ⊢ iprop(∃ g, ⌜∀ t, ∀ i ∈ K t, g i = fs t i⌝ ∗ ℓ ↦{q} g) := by
  refine (pointsTo_biUnion_join Finset.univ K fs (fun _ => Classical.arbitrary _) (fun t _ t' _ h => hd t t' h)).trans ?_
  rw [← univ_eq_biUnion K hc]
  iintro ⟨%g, %hg, H⟩
  iexists g
  isplitr
  · ipureintro; exact fun t => hg t (Finset.mem_univ t)
  · iexact H

/-- Pieces each at some contents join to the whole at some contents. -/
theorem join_cover_exists {ℓ : Loc nD τ sig} {T : Type} [Fintype T] [DecidableEq T] (K : T → Finset (Idx ℓ))
    (hc : ∀ i, ∃ t, i ∈ K t) (hd : ∀ t t', t ≠ t' → Disjoint (K t) (K t'))
    (q : PosShare TreeShare) :
    (bigSep Finset.univ fun t => (iprop(∃ f, ℓ ↦[K t]{q} f) : sProp 𝕄)) ⊢ iprop(∃ g, ℓ ↦{q} g) := by
  refine (bigSep_exists_pi Finset.univ (fun t (f : Buf (Elt F) ℓ) => (ℓ ↦[K t]{q} f : sProp 𝕄))).trans ?_
  iintro ⟨%fs, H⟩
  ihave H' := (join_cover K hc hd q fs) $$ H
  icases H' with ⟨%g, -, H'⟩
  iexists g
  iexact H'

/-! ## The send and the receive buffer -/

theorem sCh_set (k : Fin 8) : (sCh k).view.set = (rH k).set := View.set_slice_whole _ _
theorem rCh_set (k : Fin 8) : (rCh k).view.set = (rH k).set := View.set_slice_whole _ _

theorem sCh_cover (i : (cc0_scratch0 : Ref sig .tc).ty.Idx) : ∃ k : Fin 8, i ∈ (sCh k).view.set := by
  obtain ⟨k, hk⟩ := rH_cover i
  exact ⟨k, by rw [sCh_set]; exact hk⟩
theorem rCh_cover (i : (cc0_scratch1 : Ref sig .tc).ty.Idx) : ∃ k : Fin 8, i ∈ (rCh k).view.set := by
  obtain ⟨k, hk⟩ := rH_cover i
  exact ⟨k, by rw [rCh_set]; exact hk⟩
theorem sCh_disjoint (k k' : Fin 8) (h : k ≠ k') : Disjoint (sCh k).view.set (sCh k').view.set := by
  rw [sCh_set, sCh_set]; exact rH_disjoint h
theorem rCh_disjoint (k k' : Fin 8) (h : k ≠ k') : Disjoint (rCh k).view.set (rCh k').view.set := by
  rw [rCh_set, rCh_set]; exact rH_disjoint h

/-! ## Rows: the full-height result buffer is its sixteen chunks, row `r` in chunk `(r / 256, (r % 256) / 32)` -/

theorem mem_rO {y : Fin 2} {k : Fin 8} {i : S512x512.Idx} :
    i ∈ (rO y k).set ↔ 256 * y.val + 32 * k.val ≤ (i 0).val ∧ (i 0).val < 256 * y.val + 32 * k.val + 32 := by
  rw [Rect.mem_set_unit]
  have h1 : (i 1).val < 512 := (i 1).isLt
  constructor
  · intro h
    have := h 0
    simp only [Matrix.cons_val_zero] at this
    exact this
  · intro h a
    fin_cases a
    · exact h
    · exact ⟨Nat.zero_le _, by simpa using h1⟩

/-- The chunk of a row is determined by the row. -/
theorem rO_chunk {y : Fin 2} {k : Fin 8} {i : S512x512.Idx} (hi : i ∈ (rO y k).set) :
    (i 0).val / 256 = y.val ∧ ((i 0).val % 256) / 32 = k.val := by
  rw [mem_rO] at hi
  have := y.isLt; have := k.isLt
  omega

theorem rO_cover (i : S512x512.Idx) : ∃ yk : Fin 2 × Fin 8, i ∈ (rO yk.1 yk.2).set := by
  have h0 : (i 0).val < 512 := (i 0).isLt
  refine ⟨(⟨(i 0).val / 256, by omega⟩, ⟨((i 0).val % 256) / 32, by omega⟩), mem_rO.mpr ⟨?_, ?_⟩⟩
  · show 256 * ((i 0).val / 256) + 32 * (((i 0).val % 256) / 32) ≤ _; omega
  · show _ < 256 * ((i 0).val / 256) + 32 * (((i 0).val % 256) / 32) + 32; omega

theorem rO_disjoint {yk yk' : Fin 2 × Fin 8} (h : yk ≠ yk') : Disjoint (rO yk.1 yk.2).set (rO yk'.1 yk'.2).set := by
  rw [Finset.disjoint_left]
  intro i hi hi'
  obtain ⟨a, b⟩ := rO_chunk hi
  obtain ⟨a', b'⟩ := rO_chunk hi'
  exact h (Prod.ext (Fin.ext (a.symm.trans a')) (Fin.ext (b.symm.trans b')))

theorem oCh_set (y : Fin 2) (k : Fin 8) : (oCh y k).view.set = (rO y k).set := View.set_slice_whole _ _

theorem oCh_cover (i : (cc0_stg1_0 : Ref sig .tc).ty.Idx) : ∃ yk : Fin 2 × Fin 8, i ∈ (oCh yk.1 yk.2).view.set := by
  obtain ⟨yk, hk⟩ := rO_cover i
  exact ⟨yk, by rw [oCh_set]; exact hk⟩
theorem oCh_disjoint (yk yk' : Fin 2 × Fin 8) (h : yk ≠ yk') : Disjoint (oCh yk.1 yk.2).view.set (oCh yk'.1 yk'.2).view.set := by
  rw [oCh_set, oCh_set]; exact rO_disjoint h

/-- On chunk `(y, k)` the result contents `outF` are that chunk's canonical contents at its owner's sums. -/
theorem outF_on_chunk (c : Dev nD) (y : Fin 2) (k : Fin 8) (i : (cc0_stg1_0 : Ref sig .tc).ty.Idx)
    (hi : i ∈ (oCh y k).view.set) : outF m ρ c i = holds (oCh y k).view (oVal m ρ (owner c y) k) i := by
  rw [oCh_set] at hi
  obtain ⟨a, b⟩ := rO_chunk hi
  -- `outF` picks the chunk `(r / 256, (r % 256) / 32)` of the row `r`, which is `(y, k)`
  have key : ∀ (y' : Fin 2) (k' : Fin 8), y' = y → k' = k →
      holds (oCh y' k').view (oVal m ρ (owner c y') k') i = holds (oCh y k).view (oVal m ρ (owner c y) k) i := by
    rintro _ _ rfl rfl; rfl
  have h0 : (i 0).val < 512 := (i 0).isLt
  exact key ⟨(i 0).val / 256, by omega⟩ ⟨((i 0).val % 256) / 32, by omega⟩ (Fin.ext a) (Fin.ext b)

/-- On a view's own elements a full write does not see what was there before. -/
theorem write_eq_holds {s : Shape} {sp : Space} (v : View sig .tc sp s .bf16) (f : v.ty.Contents (Elt F)) (w : s.Idx → Elt F .bf16) :
    ∀ i ∈ v.set, v.write (Elt F) f w Finset.univ i = holds v w i := by
  intro i hi
  -- an element of the view's set is the place of one of the view's indices; there both sides hold the payload
  obtain ⟨y, -, rfl⟩ := Finset.mem_map.mp hi
  unfold holds
  rw [View.write_emb_of_mem _ _ (Finset.mem_univ y), View.write_emb_of_mem _ _ (Finset.mem_univ y)]

/-- The send buffer, cut into its eight chunks. -/
theorem split_s (c : Dev nD) (f : Buf (Elt F) ((c : Thread nD τ).loc cc0_scratch0)) :
    ((((c : Thread nD τ).loc cc0_scratch0) ↦{fullShare} f : sProp 𝕄))
      ⊢ bigSep Finset.univ fun k : Fin 8 => ((sCh k).view.loc (c : Thread nD τ) ↦[(sCh k).view.set]{fullShare} f : sProp 𝕄) :=
  Entails.of_eq (split_cover (ℓ := (c : Thread nD τ).loc cc0_scratch0) (fun k : Fin 8 => (sCh k).view.set) sCh_cover sCh_disjoint fullShare f)
theorem join_s (c : Dev nD) :
    (bigSep Finset.univ fun k : Fin 8 => (iprop(∃ f, (sCh k).view.loc (c : Thread nD τ) ↦[(sCh k).view.set]{fullShare} f) : sProp 𝕄))
      ⊢ sAll c :=
  join_cover_exists (ℓ := (c : Thread nD τ).loc cc0_scratch0) (fun k : Fin 8 => (sCh k).view.set) sCh_cover sCh_disjoint fullShare
/-- The receive buffer, cut into its eight chunks, and back. -/
theorem split_r (c : Dev nD) : (rAll c : sProp 𝕄) ⊢ bigSep Finset.univ fun k : Fin 8 => rAny c k := by
  unfold rAll
  iintro ⟨%f, H⟩
  -- the whole at `f` is its chunks at `f`, and each chunk at `f` is a chunk at some contents
  have h1 : ((c : Thread nD τ).loc cc0_scratch1 ↦{fullShare} f : sProp 𝕄) ⊢ bigSep Finset.univ fun k : Fin 8 => rAny c k :=
    (Entails.of_eq (split_cover (ℓ := (c : Thread nD τ).loc cc0_scratch1) (fun k : Fin 8 => (rCh k).view.set) rCh_cover rCh_disjoint fullShare f)).trans
      (bigSep_mono fun k _ =>
        show ((c : Thread nD τ).loc cc0_scratch1 ↦[(rCh k).view.set]{fullShare} f : sProp 𝕄) ⊢ rAny c k from by
          unfold rAny; iintro H; iexists f; iexact H)
  iapply h1
  iexact H
theorem join_r (c : Dev nD) : (bigSep Finset.univ fun k : Fin 8 => (rAny c k : sProp 𝕄)) ⊢ rAll c :=
  join_cover_exists (ℓ := (c : Thread nD τ).loc cc0_scratch1) (fun k : Fin 8 => (rCh k).view.set) rCh_cover rCh_disjoint fullShare
/-- The result buffer, cut into its sixteen chunks. -/
theorem split_o (c : Dev nD) (f : Buf (Elt F) ((c : Thread nD τ).loc cc0_stg1_0)) :
    ((((c : Thread nD τ).loc cc0_stg1_0) ↦{fullShare} f : sProp 𝕄))
      ⊢ bigSep Finset.univ fun yk : Fin 2 × Fin 8 => oAny c yk.1 yk.2 := by
  -- the whole at `f` is its sixteen chunks at `f`, and each chunk at `f` is a chunk at some contents
  exact (Entails.of_eq (split_cover (ℓ := (c : Thread nD τ).loc cc0_stg1_0) (fun yk : Fin 2 × Fin 8 => (oCh yk.1 yk.2).view.set) oCh_cover oCh_disjoint fullShare f)).trans
    (bigSep_mono fun yk _ =>
      show ((c : Thread nD τ).loc cc0_stg1_0 ↦[(oCh yk.1 yk.2).view.set]{fullShare} f : sProp 𝕄) ⊢ oAny c yk.1 yk.2 from by
        unfold oAny; iintro H; iexists f; iexact H)
/-- Sixteen chunks, each holding its owner's sums, are the result buffer at `outF`. -/
theorem join_o (c : Dev nD) :
    (bigSep Finset.univ fun yk : Fin 2 × Fin 8 => oPts m ρ c yk.1 yk.2 (owner c yk.1))
      ⊢ ((((c : Thread nD τ).loc cc0_stg1_0) ↦{fullShare} outF m ρ c : sProp 𝕄)) := by
  unfold oPts
  -- the sixteen chunks join to the whole at contents `g` that agree with each chunk's on its rows …
  refine (join_cover (ℓ := (c : Thread nD τ).loc cc0_stg1_0) (fun yk : Fin 2 × Fin 8 => (oCh yk.1 yk.2).view.set) oCh_cover oCh_disjoint fullShare
    (fun yk => holds (oCh yk.1 yk.2).view (oVal m ρ (owner c yk.1) yk.2))).trans ?_
  iintro ⟨%g, %hg, H⟩
  -- … and so does `outF`: every row lies in a chunk, where both are the chunk's canonical contents
  have e : ((c : Thread nD τ).loc cc0_stg1_0 ↦{fullShare} g : sProp 𝕄) = ((c : Thread nD τ).loc cc0_stg1_0 ↦{fullShare} outF m ρ c) :=
    pointsTo_congr fun i _ => by
      obtain ⟨yk, hi⟩ := oCh_cover i
      rw [hg yk i hi, outF_on_chunk m ρ c yk.1 yk.2 i hi]
  rw [← e]
  iexact H
/-- A send chunk held outright is its two half shares. -/
theorem sPts_halves (c : Dev nD) (k : Fin 8) :
    sPts m ρ c k fullShare ⊣⊢ iprop(sPts m ρ c k fullShare.left ∗ sPts m ρ c k fullShare.right) := by
  unfold sPts
  exact pointsTo_share (PosShare.mem_left_op_right fullShare)

end Cert.Kernel.AR
end
-- ==== Proof.Bits.Steps.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import proofs.«900134_g7700000000000135_dist_ar_v7x_xy2x2_x_m512_n512_bf16_1_alg».proof.Proof.Bits.Sched
import proofs.«900134_g7700000000000135_dist_ar_v7x_xy2x2_x_m512_n512_bf16_1_alg».proof.Proof.Bits.Levels
import proofs.«900134_g7700000000000135_dist_ar_v7x_xy2x2_x_m512_n512_bf16_1_alg».proof.Proof.Bits.Chunks
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Cert.Kernel.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : Dev nD × CK → ℕ)

theorem within_H (k : Fin 8) : LoadRect.within (rH k) (rH k).toLoadRect = true := by revert k; decide
theorem within_O (y : Fin 2) (k : Fin 8) : LoadRect.within (rO y k) (rO y k).toLoadRect = true := by revert y k; decide

/-- A chunk's own view reads back what the chunk holds. -/
theorem read_holds {s : Shape} {sp : Space} (v : View sig .tc sp s .bf16) (w : s.Idx → Elt F .bf16) : v.read (Elt F) (holds v w) = w :=
  View.read_write_univ _ _

/-- The invariant of a cell, and that its round 0 is reached, out of the records. -/
theorem inv_at (ck : Dev nD × CK) : (records m ρ K : sProp 𝕄) ⊢ cellInv ER (Rd m ρ) (K ck) (kcell ck) := by
  unfold records; iintro ⟨#HI, -⟩
  iapply (show (bigSep Finset.univ fun ck : Dev nD × CK => (cellInv ER (Rd m ρ) (K ck) (kcell ck) : sProp 𝕄)) ⊢ cellInv ER (Rd m ρ) (K ck) (kcell ck) from bigSep_elim (Finset.mem_univ ck))
  iexact HI
theorem reached_at (ck : Dev nD × CK) : (records m ρ K : sProp 𝕄) ⊢ reached ER (kcell ck) 0 := by
  unfold records; iintro ⟨-, #HR⟩
  iapply (show (bigSep Finset.univ fun ck : Dev nD × CK => (reached ER (kcell ck) 0 : sProp 𝕄)) ⊢ reached ER (kcell ck) 0 from bigSep_elim (Finset.mem_univ ck))
  iexact HR

/-- A full store into a chunk leaves the chunk holding the stored vector, whatever it held. -/
theorem restate_s (c : Dev nD) (k : Fin 8) (f : Buf (Elt F) ((sCh k).view.loc (c : Thread nD τ))) (w : S32x512.Idx → Elt F .bf16) :
    (((sM : Memref sig .tc .vmem S256x512 .bf16).access (rH k)).loc (c : Thread nD τ) ↦[(sCh k).view.set]{fullShare}
        ((sM : Memref sig .tc .vmem S256x512 .bf16).access (rH k)).write (Elt F) f w Finset.univ : sProp 𝕄)
      = ((sCh k).view.loc (c : Thread nD τ) ↦[(sCh k).view.set]{fullShare} holds (sCh k).view w) :=
  pointsTo_congr (write_eq_holds (sCh k).view f w)

/-- Narrowing chunk `k`: the rows are loaded, the chunk of the send buffer is overwritten with them narrowed. -/
theorem step_conv (c : Dev nD) (y : Fin 2) (hyc : yF c = y) (k : Fin 8)
    {hl1 : (xM : Memref sig .tc .vmem S512x512 .f32).view.LoadsAt (rO y k).toLoadRect}
    {hl2 : (sM : Memref sig .tc .vmem S256x512 .bf16).view.LoadsAt (rH k).toLoadRect}
    {hx : ((sM : Memref sig .tc .vmem S256x512 .bf16).access (rH k)).Stores Finset.univ}
    {hm : (Finset.univ : Finset (rH k).shape.Idx) = Finset.univ ∨ ∀ a, (rH k).stride a = 1}
    {α : Type} {Q : α → sProp 𝕄} {kont : PUnit → Prog (TpuEff nD τ sig (Elt F) Λ₀ .tc) α}
    (pay : Vec F S32x512 .f32 → FVec F S32x512 .bf16) (hpay : pay = conv)
    (f : Buf (Elt F) ((sCh k).view.loc (c : Thread nD τ))) :
    iprop((((c : Thread nD τ).loc cc0_stg0_0) ↦{fullShare} xstg m ρ c)
        ∗ ((sCh k).view.loc (c : Thread nD τ) ↦[(sCh k).view.set]{fullShare} f)
        ∗ (((((c : Thread nD τ).loc cc0_stg0_0) ↦{fullShare} xstg m ρ c) ∗ sPts m ρ c k fullShare)
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.load xM (rO y k).toLoadRect hl1) fun x =>
            .op (.load sM (rH k).toLoadRect hl2) fun _ =>
            .op (.store sM (rH k) (pay x) Finset.univ hx hm) kont) Q := by
  subst hpay hyc
  iintro ⟨Hx, Hs, Hk⟩
  iapply (wp_load 𝒱₀ (c : Thread nD τ) none Set.univ (m := xM) (Finset.subset_univ _)) $$ Hx; iintro Hx
  iapply (wp_load 𝒱₀ (c : Thread nD τ) none Set.univ (m := sM) (Memref.setOn_subset_slice_of_within sM (rH k) (fun _ => rfl) _ (within_H k))) $$ Hs; iintro Hs
  iapply (wp_store 𝒱₀ (c : Thread nD τ) none Set.univ (m := sM) (r := rH k) (Mk := Finset.univ)
    (Memref.setOn_access_subset_slice_of_within sM (rH k) (fun _ => rfl) (rH k) Finset.univ (within_H k))) $$ Hs; iintro Hs
  iapply Hk
  isplitl [Hx]; · iexact Hx
  ihave Hs := (Entails.of_eq (restate_s (F := F) c k f _)) $$ Hs
  unfold sPts sVal
  iexact Hs

theorem yG_yp (c : Dev nD) : yG (yp c) = yF c := by revert c; decide
theorem yF_yp (c : Dev nD) : yF (yp c) = yG c := by revert c; decide

/-- A full store into a chunk of the result buffer, and a landing in a chunk of the receive buffer, restated. -/
theorem restate_o (c : Dev nD) (y : Fin 2) (k : Fin 8) (f : Buf (Elt F) ((oCh y k).view.loc (c : Thread nD τ))) (w : S32x512.Idx → Elt F .bf16) :
    (((oM : Memref sig .tc .vmem S512x512 .bf16).access (rO y k)).loc (c : Thread nD τ) ↦[(oCh y k).view.set]{fullShare}
        ((oM : Memref sig .tc .vmem S512x512 .bf16).access (rO y k)).write (Elt F) f w Finset.univ : sProp 𝕄)
      = ((oCh y k).view.loc (c : Thread nD τ) ↦[(oCh y k).view.set]{fullShare} holds (oCh y k).view w) :=
  pointsTo_congr (write_eq_holds (oCh y k).view f w)

/-- The first signal: to the mate along `x`, handing over this device's receive buffer. -/
theorem step_sigX (c n : Dev nD) (hn : n = xp c) {α : Type} {Q : α → sProp 𝕄} {kont : PUnit → Prog (TpuEff nD τ sig (Elt F) Λ₀ .tc) α} (W : Waits sig Unit) :
    iprop(records m ρ K ∗ owes (c : Thread nD τ) (O₀ c) W ∗ dutyTok ER (barCell (xp c)) 0 false
        ∗ (bigSep Finset.univ fun k : Fin 8 => rAny (F := F) c k)
        ∗ (owes (c : Thread nD τ) (O₁ c) W -∗ wp frame (wpE (defs₀ (F := F)) 𝒱₀ (c : Thread nD τ) none) Set.univ (kont ⟨⟩) Q))
      ⊢ wp frame (wpE (defs₀ (F := F)) 𝒱₀ (c : Thread nD τ) none) Set.univ (.op (.semSignal (n : Thread nD τ) barS 1) kont) Q := by
  subst hn
  iintro ⟨#HR, HO, Ht, Hp, Hk⟩
  iapply (Rounds.wp_signal 𝒱₀ ER (Rd m ρ) (c : Thread nD τ) none (dst := (xp c : Thread nD τ)) (κ := K (xp c, none))
      (d := false) (by rw [duties_bar]; exact Finset.mem_univ _) (amount_bar m ρ (xp c) false) () (O₁ c) rfl) $$ [HO Ht Hp]
  · isplitr; · iapply (inv_at m ρ K (xp c, none)); iexact HR
    isplitl [HO]; · iexact HO
    isplitl [Ht]; · iexact Ht
    isplitl [Hp]; · rw [payload_bar_false]; unfold barPayX; rw [xp_xp]; iexact Hp
    iapply (reached_at m ρ K (xp c, none)); iexact HR
  iexact Hk

/-- The second signal: to the mate along `y`, handing over the half of this device's result buffer the mate fills. -/
theorem step_sigY (c n : Dev nD) (hn : n = yp c) {α : Type} {Q : α → sProp 𝕄} {kont : PUnit → Prog (TpuEff nD τ sig (Elt F) Λ₀ .tc) α} (W : Waits sig Unit) :
    iprop(records m ρ K ∗ owes (c : Thread nD τ) (O₁ c) W ∗ dutyTok ER (barCell (yp c)) 0 true
        ∗ (bigSep Finset.univ fun k : Fin 8 => oAny (F := F) c (yG c) k)
        ∗ (owes (c : Thread nD τ) (owed c 0 0) W -∗ wp frame (wpE (defs₀ (F := F)) 𝒱₀ (c : Thread nD τ) none) Set.univ (kont ⟨⟩) Q))
      ⊢ wp frame (wpE (defs₀ (F := F)) 𝒱₀ (c : Thread nD τ) none) Set.univ (.op (.semSignal (n : Thread nD τ) barS 1) kont) Q := by
  subst hn
  iintro ⟨#HR, HO, Ht, Hp, Hk⟩
  iapply (Rounds.wp_signal 𝒱₀ ER (Rd m ρ) (c : Thread nD τ) none (dst := (yp c : Thread nD τ)) (κ := K (yp c, none))
      (d := true) (by rw [duties_bar]; exact Finset.mem_univ _) (amount_bar m ρ (yp c) true) () (owed c 0 0) rfl) $$ [HO Ht Hp]
  · isplitr; · iapply (inv_at m ρ K (yp c, none)); iexact HR
    isplitl [HO]; · iexact HO
    isplitl [Ht]; · iexact Ht
    isplitl [Hp]; · rw [payload_bar_true]; unfold barPayY; rw [yp_yp, yF_yp]; iexact Hp
    iapply (reached_at m ρ K (yp c, none)); iexact HR
  iexact Hk

/-- The barrier wait: both mates are inside the kernel, and their buffers come with their signals. -/
theorem step_barwait (c : Dev nD) {α : Type} {Q : α → sProp 𝕄} {kont : PUnit → Prog (TpuEff nD τ sig (Elt F) Λ₀ .tc) α} (W : Waits sig Unit) :
    iprop(records m ρ K ∗ levAts L lv ∗ cred (tallyAt (barCell c) () 2) ∗ owes (c : Thread nD τ) (owed c 0 0) W
        ∗ atPos ER (barCell c) 0 ∅ 0
        ∗ ((owes (c : Thread nD τ) (owed c 0 0) (insert (SemLoc.reg barS, ()) W) ∗ atPos ER (barCell c) 1 ∅ 0
              ∗ barPayX (F := F) c ∗ barPayY (F := F) c) -∗ wp frame (wpE (defs₀ (F := F)) 𝒱₀ (c : Thread nD τ) none) Set.univ (kont ⟨⟩) Q))
      ⊢ wp frame (wpE (defs₀ (F := F)) 𝒱₀ (c : Thread nD τ) none) Set.univ (.op (.semWait barS 2) kont) Q := by
  iintro ⟨#HR, #Hlev, Hc, HO, Hat, Hk⟩
  iapply (Rounds.wp_wait_rest_token 𝒱₀ ER (Rd m ρ) (c : Thread nD τ) none (κ := K (c, none))
      (wpE_semWait_eq 𝒱₀ (c : Thread nD τ) none Set.univ) (Set.mem_univ _) () (O := owed c 0 0) (W := W) (R := 0) (m := 0) (T := ∅)
      (by rw [expect_bar])) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

/-- A wait on one of the device's own transfer cells for its one duty: the duty's payload comes back. -/
theorem step_wait (c : Dev nD) (j : Fin 4) (k : Fin 8) (O : CellTallies nD τ sig Unit)
    (hmw : (levAts L lv : sProp 𝕄) ⊢ MayWait (c : Thread nD τ) (.dma (dsem j k)) () O)
    {sp sp' : Space} {s s' : Shape} {e e' : EltTy} {src : Memref sig .tc sp' s' e'} (dst : Memref sig .tc sp s e)
    {hsrc : src.view.WordExact} {hdst : dst.view.WordExact} (hamt : dst.view.dmaCredit = N)
    (P : sProp 𝕄) (hP : dmaPay m ρ c j k = P)
    {α : Type} {Q : α → sProp 𝕄} {kont : PUnit → Prog (TpuEff nD τ sig (Elt F) Λ₀ .tc) α} (W : Waits sig Unit) :
    iprop(records m ρ K ∗ levAts L lv ∗ cred (tallyAt (dCell c j k) () N) ∗ owes (c : Thread nD τ) O W ∗ atPos ER (dCell c j k) 0 ∅ 0
        ∗ ((owes (c : Thread nD τ) O (insert (SemLoc.dma (dsem j k), ()) W) ∗ atPos ER (dCell c j k) 1 ∅ 0 ∗ P)
            -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 (dsem j k) src dst hsrc hdst) kont) Q := by
  subst hP
  iintro ⟨#HR, #Hlev, Hc, HO, Hat, Hk⟩
  have e : (cred (tallyAt (dCell c j k) () N) : sProp 𝕄) = cred (tallyAt (dCell c j k) () dst.view.dmaCredit) := by rw [hamt]
  ihave Hc := (Entails.of_eq e) $$ Hc
  iapply (Rounds.wp_wait_rest_token 𝒱₀ ER (Rd m ρ) (c : Thread nD τ) none (κ := K (c, some (j, k)))
      (wpE_waitDma2_eq 𝒱₀ (c : Thread nD τ) none Set.univ) (Set.mem_univ _) () (O := O) (W := W) (R := 0) (m := 0) (T := ∅)
      (by rw [Nat.zero_add, expect_dma, hamt])) $$ [Hc HO Hat]
  · isplitr; · iapply (inv_at m ρ K (c, some (j, k))); iexact HR
    isplitl [Hc]; · iexact Hc
    isplitl [HO]; · iexact HO
    isplitr; · iapply hmw; iexact Hlev
    iexact Hat
  iintro ⟨HO, Hat, -, Hpay⟩
  ihave Hp := (Entails.of_eq (rest_dma m ρ c j k)) $$ Hpay
  iapply Hk
  isplitl [HO]; · iexact HO
  isplitl [Hat]; · iexact Hat
  iexact Hp

/-- The first-phase transfer of chunk `k`: half of the send chunk's share is lent, the mate's receive chunk is filled. -/
theorem step_send1 (c n : Dev nD) (hn : n = xp c) (k : Fin 8) (b : ℕ)
    {hsc : ((rCh k : Memref sig (Dev.tc n : Thread nD τ).2.kind .vmem S32x512 .bf16)).view.ref.isScScratch = false}
    {hsrc : (sCh k).view.WordExact} {hdst : (rCh k).view.WordExact}
    {hsem : DmaTarget.Typed .vmem (.dma (dsem 1 k)) (.remote (Dev.tc n : Thread nD τ) (rCh k) (.dma (dsem 0 k)) hsc)}
    {α : Type} {Q : α → sProp 𝕄} {kont : PUnit → Prog (TpuEff nD τ sig (Elt F) Λ₀ .tc) α}
    (fd : Buf (Elt F) ((rCh k).view.loc (xp c : Thread nD τ))) (W : Waits sig Unit) :
    iprop(records m ρ K ∗ sPts m ρ c k fullShare.left
        ∗ ((rCh k).view.loc (xp c : Thread nD τ) ↦[(rCh k).view.set]{fullShare} fd)
        ∗ owes (c : Thread nD τ) (owed c k.val b) W
        ∗ dutyTok ER (dCell c 0 k) 0 false ∗ dutyTok ER (dCell (xp c) 1 k) 0 false
        ∗ ((cred (tallyAt (dCell c 0 k) () N) ∗ owes (c : Thread nD τ) (owed c (k.val + 1) b) W) -∗ wp frame (wpE (defs₀ (F := F)) 𝒱₀ (c : Thread nD τ) none) Set.univ (kont ⟨⟩) Q))
      ⊢ wp frame (wpE (defs₀ (F := F)) 𝒱₀ (c : Thread nD τ) none) Set.univ (.op (.enqueueDma (sCh k) (.remote (Dev.tc n : Thread nD τ) (rCh k) (.dma (dsem 0 k)) hsc) (.dma (dsem 1 k)) hsrc hdst hsem) kont) Q := by
  subst hn
  iintro ⟨#HR, Hs, Hd, HO, Ht0, Ht1, Hk⟩
  unfold sPts
  iapply (Rounds.wp_send_pointsTo 𝒱₀ ER (Rd m ρ) (c : Thread nD τ) none (κ₁ := K (c, some (0, k))) (κ₂ := K (xp c, some (1, k)))
      (src := sCh k) (dst := rCh k) (c' := (xp c : Thread nD τ)) (q := fullShare.left)
      (fs := holds (sCh k).view (sVal m ρ c k)) (r₁ := 0) (r₂ := 0) (d₁ := false) (d₂ := false) (fd := fd)
      (by rw [duties_dma]; exact Finset.mem_singleton_self _) (by rw [duties_dma]; exact Finset.mem_singleton_self _)
      () () N rfl (amount_dma m ρ c 0 k false) (amount_dma m ρ (xp c) 1 k false) (owed c (k.val + 1) b) (owed_peelX c k.val b k.isLt) (W := W)
      (by rw [payload_dma]; exact BI.Entails.refl _)
      (by rw [payload_dma]; show _ ⊢ rPts m ρ (xp c) k; unfold rPts
          rw [xp_xp, read_holds, pointsTo_congr (write_eq_holds (rCh k).view fd _)])) $$ [Hs Hd HO Ht0 Ht1]
  · isplitr; · iapply (inv_at m ρ K (c, some (0, k))); iexact HR
    isplitr; · iapply (inv_at m ρ K (xp c, some (1, k))); iexact HR
    isplitl [Hs]; · iexact Hs
    isplitl [Hd]; · iexact Hd
    isplitl [HO]; · iexact HO
    isplitl [Ht0]; · iexact Ht0
    isplitr; · iapply (reached_at m ρ K (c, some (0, k))); iexact HR
    isplitl [Ht1]; · iexact Ht1
    iapply (reached_at m ρ K (xp c, some (1, k))); iexact HR
  iexact Hk

/-- Adding chunk `k`: the device's own narrowed rows and the mate's, summed into the result buffer. -/
theorem step_add (c : Dev nD) (y : Fin 2) (hyc : yF c = y) (k : Fin 8)
    {hl1 : (sM : Memref sig .tc .vmem S256x512 .bf16).view.LoadsAt (rH k).toLoadRect}
    {hl2 : (rM : Memref sig .tc .vmem S256x512 .bf16).view.LoadsAt (rH k).toLoadRect}
    {hl3 : (oM : Memref sig .tc .vmem S512x512 .bf16).view.LoadsAt (rO y k).toLoadRect}
    {hx : ((oM : Memref sig .tc .vmem S512x512 .bf16).access (rO y k)).Stores Finset.univ}
    {hm : (Finset.univ : Finset (rO y k).shape.Idx) = Finset.univ ∨ ∀ a, (rO y k).stride a = 1}
    {α : Type} {Q : α → sProp 𝕄} {kont : PUnit → Prog (TpuEff nD τ sig (Elt F) Λ₀ .tc) α}
    (pay : Vec F S32x512 .bf16 → Vec F S32x512 .bf16 → FVec F S32x512 .bf16) (hpay : pay = fun a b => addf a b)
    (f : Buf (Elt F) ((oCh y k).view.loc (c : Thread nD τ))) :
    iprop(sPts m ρ c k fullShare.right ∗ rPts m ρ c k
        ∗ ((oCh y k).view.loc (c : Thread nD τ) ↦[(oCh y k).view.set]{fullShare} f)
        ∗ ((sPts m ρ c k fullShare.right ∗ rPts m ρ c k ∗ oPts m ρ c y k c) -∗ wp frame (wpE (defs₀ (F := F)) 𝒱₀ (c : Thread nD τ) none) Set.univ (kont ⟨⟩) Q))
      ⊢ wp frame (wpE (defs₀ (F := F)) 𝒱₀ (c : Thread nD τ) none) Set.univ
          (.op (.load sM (rH k).toLoadRect hl1) fun a =>
            .op (.load rM (rH k).toLoadRect hl2) fun b =>
            .op (.load oM (rO y k).toLoadRect hl3) fun _ =>
            .op (.store oM (rO y k) (pay a b) Finset.univ hx hm) kont) Q := by
  subst hpay hyc
  iintro ⟨Hs, Hr, Ho, Hk⟩
  unfold sPts rPts
  iapply (wp_load 𝒱₀ (c : Thread nD τ) none Set.univ (m := sM) (Memref.setOn_subset_slice_of_within sM (rH k) (fun _ => rfl) _ (within_H k))) $$ Hs; iintro Hs
  iapply (wp_load 𝒱₀ (c : Thread nD τ) none Set.univ (m := rM) (Memref.setOn_subset_slice_of_within rM (rH k) (fun _ => rfl) _ (within_H k))) $$ Hr; iintro Hr
  iapply (wp_load 𝒱₀ (c : Thread nD τ) none Set.univ (m := oM) (Memref.setOn_subset_slice_of_within oM (rO (yF c) k) (fun _ => rfl) _ (within_O (yF c) k))) $$ Ho; iintro Ho
  iapply (wp_store 𝒱₀ (c : Thread nD τ) none Set.univ (m := oM) (r := rO (yF c) k) (Mk := Finset.univ)
    (Memref.setOn_access_subset_slice_of_within oM (rO (yF c) k) (fun _ => rfl) (rO (yF c) k) Finset.univ (within_O (yF c) k))) $$ Ho; iintro Ho
  iapply Hk
  isplitl [Hs]; · iexact Hs
  isplitl [Hr]; · iexact Hr
  ihave Ho := (Entails.of_eq (restate_o (F := F) c (yF c) k f _)) $$ Ho
  unfold oPts oVal
  have e1 : (sM : Memref sig .tc .vmem S256x512 .bf16).view.readAt (Elt F) (rH k).toLoadRect (holds (sCh k).view (sVal m ρ c k)) = sVal m ρ c k :=
    read_holds (sCh k).view _
  have e2 : (rM : Memref sig .tc .vmem S256x512 .bf16).view.readAt (Elt F) (rH k).toLoadRect (holds (rCh k).view (sVal m ρ (xp c) k)) = sVal m ρ (xp c) k :=
    read_holds (rCh k).view _
  rw [e1, e2]
  iexact Ho

/-- The second-phase transfer of chunk `k`: the summed chunk goes to the mate along `y`. -/
theorem step_send2 (c n : Dev nD) (hn : n = yp c) (y : Fin 2) (hyc : yF c = y) (k : Fin 8)
    {hsc : ((oCh y k : Memref sig (Dev.tc n : Thread nD τ).2.kind .vmem S32x512 .bf16)).view.ref.isScScratch = false}
    {hsrc : (oCh y k).view.WordExact} {hdst : (oCh y k).view.WordExact}
    {hsem : DmaTarget.Typed .vmem (.dma (dsem 3 k)) (.remote (Dev.tc n : Thread nD τ) (oCh y k) (.dma (dsem 2 k)) hsc)}
    {α : Type} {Q : α → sProp 𝕄} {kont : PUnit → Prog (TpuEff nD τ sig (Elt F) Λ₀ .tc) α}
    (fd : Buf (Elt F) ((oCh y k).view.loc (yp c : Thread nD τ))) (W : Waits sig Unit) :
    iprop(records m ρ K ∗ oPts m ρ c y k c
        ∗ ((oCh y k).view.loc (yp c : Thread nD τ) ↦[(oCh y k).view.set]{fullShare} fd)
        ∗ owes (c : Thread nD τ) (owed c 8 k.val) W
        ∗ dutyTok ER (dCell c 2 k) 0 false ∗ dutyTok ER (dCell (yp c) 3 k) 0 false
        ∗ ((cred (tallyAt (dCell c 2 k) () N) ∗ owes (c : Thread nD τ) (owed c 8 (k.val + 1)) W) -∗ wp frame (wpE (defs₀ (F := F)) 𝒱₀ (c : Thread nD τ) none) Set.univ (kont ⟨⟩) Q))
      ⊢ wp frame (wpE (defs₀ (F := F)) 𝒱₀ (c : Thread nD τ) none) Set.univ (.op (.enqueueDma (oCh y k) (.remote (Dev.tc n : Thread nD τ) (oCh y k) (.dma (dsem 2 k)) hsc) (.dma (dsem 3 k)) hsrc hdst hsem) kont) Q := by
  subst hn hyc
  iintro ⟨#HR, Hs, Hd, HO, Ht0, Ht1, Hk⟩
  unfold oPts
  iapply (Rounds.wp_send_pointsTo 𝒱₀ ER (Rd m ρ) (c : Thread nD τ) none (κ₁ := K (c, some (2, k))) (κ₂ := K (yp c, some (3, k)))
      (src := oCh (yF c) k) (dst := oCh (yF c) k) (c' := (yp c : Thread nD τ)) (q := fullShare)
      (fs := holds (oCh (yF c) k).view (oVal m ρ c k)) (r₁ := 0) (r₂ := 0) (d₁ := false) (d₂ := false) (fd := fd)
      (by rw [duties_dma]; exact Finset.mem_singleton_self _) (by rw [duties_dma]; exact Finset.mem_singleton_self _)
      () () N rfl (amount_dma m ρ c 2 k false) (amount_dma m ρ (yp c) 3 k false) (owed c 8 (k.val + 1)) (owed_peelY c 8 k.val k.isLt) (W := W)
      (by rw [payload_dma]; exact BI.Entails.refl _)
      (by rw [payload_dma]; show _ ⊢ oPts m ρ (yp c) (yG (yp c)) k (yp (yp c)); unfold oPts
          rw [yp_yp, yG_yp, read_holds, pointsTo_congr (write_eq_holds (oCh (yF c) k).view fd _)])) $$ [Hs Hd HO Ht0 Ht1]
  · isplitr; · iapply (inv_at m ρ K (c, some (2, k))); iexact HR
    isplitr; · iapply (inv_at m ρ K (yp c, some (3, k))); iexact HR
    isplitl [Hs]; · iexact Hs
    isplitl [Hd]; · iexact Hd
    isplitl [HO]; · iexact HO
    isplitl [Ht0]; · iexact Ht0
    isplitr; · iapply (reached_at m ρ K (c, some (2, k))); iexact HR
    isplitl [Ht1]; · iexact Ht1
    iapply (reached_at m ρ K (yp c, some (3, k))); iexact HR
  iexact Hk

/-- A transfer cell whose one round is over goes back to the launch at zero. -/
theorem close_cell (c : Dev nD) (j : Fin 4) (k : Fin 8) :
    iprop(records m ρ K ∗ atPos ER (dCell c j k) 1 ∅ 0) ⊢ |={Set.univ}=> (semVal (dCell c j k) 0 : sProp 𝕄) := by
  iintro ⟨#HR, Hat⟩
  iapply (Rounds.cell_close ER (Rd m ρ) (Set.mem_univ (K (c, some (j, k)))) (fun h => h) (R := 0 + 1) (duties_later m ρ (dCell c j k))) $$ [Hat]
  isplitr; · iapply (inv_at m ρ K (c, some (j, k))); iexact HR
  iexact Hat

end Steps

end Cert.Kernel.AR
end
-- ==== Proof.Bits.Launch.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import proofs.«900134_g7700000000000135_dist_ar_v7x_xy2x2_x_m512_n512_bf16_1_alg».proof.Proof.Bits.Sched
import proofs.«900134_g7700000000000135_dist_ar_v7x_xy2x2_x_m512_n512_bf16_1_alg».proof.Proof.Bits.Levels
import proofs.«900134_g7700000000000135_dist_ar_v7x_xy2x2_x_m512_n512_bf16_1_alg».proof.Proof.Bits.Chunks
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Cert.Kernel.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions over the index types of the launch -/

theorem bigSep_bool (Φ : Bool → sProp 𝕄) : bigSep Finset.univ Φ = iprop(Φ false ∗ Φ true) :=
  bigSep_univ_eq_bigSepL [false, true] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A conjunction over an optional index is the summand at no index and the conjunction over the indices. -/
theorem bigSep_univ_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x; cases x <;> simp
  rw [bigSep_univ_at Φ none, h, bigSep_map]
  rfl

/-! ## The launch -/

theorem ownSemFacts : Pipeline.OwnSemFacts cfg0.spec osem := by decide

theorem share_eq (c : Dev nD) (w : Fin cfg0.W) : (dats m ρ 0 c).share w = fullShare := by unfold Dat.share; split <;> rfl

/-- Distinct (family, chunk) pairs name distinct transfer semaphores. -/

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    rcases k with _ | ⟨j, k⟩ <;> rcases k' with _ | ⟨j', k'⟩
    · rfl
    · exact absurd h2 (fun h' => by cases h')
    · exact absurd h2 (fun h' => by cases h')
    · obtain ⟨rfl, rfl⟩ := dsem_inj (j := j) (j' := j') (k := k) (k' := k') (SemLoc.dma.inj h2); rfl
  subst this; rfl

/-- Every device's thirty-three cells. -/
def arCells : Finset (GSem nD τ sig) := Finset.univ.map ⟨kcell, kcell_injective⟩

/-- The duties of a device's own cells: its barrier cell's two, one of each transfer cell. -/
abbrev TK : Type := Bool ⊕ (Fin 4 × Fin 8)
abbrev tokOf (ct : Dev nD × TK) : GSem nD τ sig × ℕ × Bool := match ct.2 with
  | .inl b => (barCell ct.1, 0, b)
  | .inr jk => (dCell ct.1 jk.1 jk.2, 0, false)
theorem tokOf_injective : Function.Injective (tokOf : Dev nD × TK → GSem nD τ sig × ℕ × Bool) := by
  rintro ⟨c, t⟩ ⟨c', t'⟩ h
  have h1 : c = c' := by
    have := congrArg (fun x : GSem nD τ sig × ℕ × Bool => x.1.1.1) h
    rcases t with b | jk <;> rcases t' with b' | jk' <;> exact this
  subst h1
  have : t = t' := by
    rcases t with b | ⟨j, k⟩ <;> rcases t' with b' | ⟨j', k'⟩
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · obtain ⟨rfl, rfl⟩ := dsem_inj (j := j) (j' := j') (k := k) (k' := k') (SemLoc.dma.inj (congrArg (fun x : GSem nD τ sig × ℕ × Bool => x.1.2) h)); rfl
  subst this; rfl
def arToks : Finset (GSem nD τ sig × ℕ × Bool) := Finset.univ.map ⟨tokOf, tokOf_injective⟩

/-- The launch element: the pipeline's staging cells beside the protocol's cells and duty tokens. -/
def u₀ : UU :=
  (initOf (Pipeline.cells cfgs cellOf_inj) (Pipeline.launchToks cfgs cellOf_inj), initOf arCells arToks)

/-- The duty tokens of device c's own cells, as minted. -/
def toks (c : Dev nD) : sProp 𝕄 :=
  iprop((dutyTok ER (barCell c) 0 false ∗ dutyTok ER (barCell c) 0 true)
    ∗ ((bigSep Finset.univ fun k : Fin 8 => dutyTok ER (dCell c 0 k) 0 false)
      ∗ (bigSep Finset.univ fun k : Fin 8 => dutyTok ER (dCell c 1 k) 0 false)
      ∗ (bigSep Finset.univ fun k : Fin 8 => dutyTok ER (dCell c 2 k) 0 false)
      ∗ (bigSep Finset.univ fun k : Fin 8 => dutyTok ER (dCell c 3 k) 0 false)))

/-- What the launch element deals device c: its cells' round states, their positions with round 0 reached, their tokens. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ar : BI.own (ER (initOf arCells arToks)) ⊢ (|==> bigSep Finset.univ (G m ρ) : sProp 𝕄) := by
  have hX (Φ : GSem nD τ sig → sProp 𝕄) : bigSep arCells Φ = bigSep Finset.univ fun c : Dev nD => bigSep Finset.univ fun k : CK => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by
      unfold toks
      rw [bigSep_univ_sum, bigSep_bool, bigSep_univ_prod, bigSep_fin4]
      rfl
  iintro HX
  imod (Rounds.fund ER (Rd m ρ) arCells arToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's thirty-three counters at zero: its transfer semaphores' and its barrier semaphore's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_option]
  unfold Pipeline.ownSems0
  iintro ⟨HO, HB⟩
  isplitl [HB]; · iexact HB
  iexact HO

/-- Each of a device's cells gets its invariant, from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m ρ K ∗ linear c) ⊢ G' m ρ c := by
  unfold G' ghost
  iintro H
  iexists K
  iexact H

/-- The tokens dealt to the devices that pay the duties: a barrier cell's false token to the mate along x, its true token
    to the mate along y, a first-phase receive cell's token to the mate along x, a second-phase receive cell's to the
    mate along y; the send cells' tokens stay. Both mates are involutions of the mesh. -/
theorem toks_around : (bigSep Finset.univ fun c : Dev nD => (toks c : sProp 𝕄)) ⊢ bigSep Finset.univ fun c : Dev nD => payToks c := by
  unfold toks payToks
  simp only [bigSep_sep']
  rw [bigSep_univ_equiv xSwap (fun c : Dev nD => (dutyTok ER (barCell c) 0 false : sProp 𝕄)),
    bigSep_univ_equiv ySwap (fun c : Dev nD => (dutyTok ER (barCell c) 0 true : sProp 𝕄)),
    bigSep_univ_equiv xSwap (fun c : Dev nD => (bigSep Finset.univ fun k : Fin 8 => dutyTok ER (dCell c 1 k) 0 false : sProp 𝕄)),
    bigSep_univ_equiv ySwap (fun c : Dev nD => (bigSep Finset.univ fun k : Fin 8 => dutyTok ER (dCell c 3 k) 0 false : sProp 𝕄))]
  iintro ⟨⟨Hf, Ht⟩, H0, H1, H2, H3⟩
  isplitl [Hf]; · iexact Hf
  isplitl [Ht]; · iexact Ht
  isplitl [H0]; · iexact H0
  isplitl [H1]; · iexact H1
  isplitl [H2]; · iexact H2
  iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names gathered into one table, the records copied to every device, the tokens dealt. -/
theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq rfl))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sAll rAll
  iintro ⟨Hs, -, Hsc, Hrc⟩
  isplitl [Hs]; · iexact Hs
  isplitl [Hsc]; · iexact Hsc
  iexact Hrc

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ sAll rAll Pipeline.ownSems0
  iintro ⟨Hs, Hr, Hz⟩
  isplitr; · iempintro
  isplitl [Hz]; · iexact Hz
  isplitl [Hs]; · iexact Hs
  iexact Hr

/-- The staging cells' waits sit at level 0, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled 2 × 2 mesh, for any float values, from any memory with zero counters: given each device's body
    proved against the protocol's proof data, every weakly fair execution of @main terminates, and every final state
    has each device's arrays at the proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ar m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.AR
end
-- ==== Proof.Bits.Finish.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import proofs.«900134_g7700000000000135_dist_ar_v7x_xy2x2_x_m512_n512_bf16_1_alg».proof.Proof.Bits.Sched
import proofs.«900134_g7700000000000135_dist_ar_v7x_xy2x2_x_m512_n512_bf16_1_alg».proof.Proof.Bits.Levels
import proofs.«900134_g7700000000000135_dist_ar_v7x_xy2x2_x_m512_n512_bf16_1_alg».proof.Proof.Bits.Chunks
import proofs.«900134_g7700000000000135_dist_ar_v7x_xy2x2_x_m512_n512_bf16_1_alg».proof.Proof.Bits.Steps
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Cert.Kernel.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces of the post-condition -/

/-- Every transfer cell of the device, its one round over, goes back at zero: one update for all thirty-two. -/
theorem cells_close (K : Dev nD × CK → ℕ) (c : Dev nD) :
    iprop(records m ρ K ∗ bigSep Finset.univ fun jk : Fin 4 × Fin 8 => atPos ER (dCell c jk.1 jk.2) 1 ∅ 0)
      ⊢ |={Set.univ}=> (bigSep Finset.univ fun jk : Fin 4 × Fin 8 => semVal ((c : Thread nD τ), osem jk) 0 : sProp 𝕄) :=
  (bigSep_with_persistent (R := records m ρ K) fun jk _ => close_cell m ρ K c jk.1 jk.2).trans (bigSep_fupd _ _)

/-- The send buffer back whole: each chunk's two half shares are the chunk, the chunks are the buffer. -/
theorem sAll_intro (c : Dev nD) :
    (bigSep Finset.univ fun k : Fin 8 => iprop(sPts m ρ c k fullShare.left ∗ sPts m ρ c k fullShare.right)) ⊢ sAll c :=
  (bigSep_mono fun k _ => (sPts_halves m ρ c k).2.trans
    (show sPts m ρ c k fullShare ⊢ iprop(∃ f, (sCh k).view.loc (c : Thread nD τ) ↦[(sCh k).view.set]{fullShare} f) from by
      unfold sPts; iintro H; iexists _; iexact H)).trans (join_s c)

/-- The receive buffer back whole. -/
theorem rAll_intro (c : Dev nD) : (bigSep Finset.univ fun k : Fin 8 => rPts m ρ c k) ⊢ rAll c :=
  (bigSep_mono fun k _ => show rPts m ρ c k ⊢ rAny c k from by
    unfold rPts rAny; iintro H; iexists _; iexact H).trans (join_r c)

/-- The two halves of the result buffer are its own half and the other one; the device owns the first, its `y` mate the second. -/
theorem yG_ne_yF (c : Dev nD) : yG c ≠ yF c := by revert c; decide
theorem erase_yF (c : Dev nD) : (Finset.univ : Finset (Fin 2)).erase (yF c) = {yG c} := by revert c; decide
theorem owner_yF (c : Dev nD) : owner c (yF c) = c := by unfold owner; rw [if_pos rfl]
theorem owner_yG (c : Dev nD) : owner c (yG c) = yp c := by unfold owner; rw [if_neg (yG_ne_yF c)]

theorem out_halves (c : Dev nD) :
    (bigSep Finset.univ fun yk : Fin 2 × Fin 8 => oPts m ρ c yk.1 yk.2 (owner c yk.1))
      = iprop((bigSep Finset.univ fun k : Fin 8 => oPts m ρ c (yF c) k c)
          ∗ (bigSep Finset.univ fun k : Fin 8 => oPts m ρ c (yG c) k (yp c))) := by
  rw [bigSep_univ_prod, bigSep_univ_at _ (yF c), erase_yF, bigSep_singleton]
  show iprop((bigSep Finset.univ fun k : Fin 8 => oPts m ρ c (yF c) k (owner c (yF c)))
      ∗ (bigSep Finset.univ fun k : Fin 8 => oPts m ρ c (yG c) k (owner c (yG c)))) = _
  rw [owner_yF, owner_yG]

/-- After the last wait: every transfer cell's round is over, every chunk is back where it belongs; the cells go back to
    the launch at zero, the chunks are joined into their buffers, and the result buffer holds `outF`. -/
theorem body_finish (K : Dev nD × CK → ℕ) (c : Dev nD) (W : Waits sig Unit) :
    iprop(records m ρ K
        ∗ (bigSep Finset.univ fun jk : Fin 4 × Fin 8 => atPos ER (dCell c jk.1 jk.2) 1 ∅ 0)
        ∗ (bigSep Finset.univ fun k : Fin 8 => iprop(sPts m ρ c k fullShare.left ∗ sPts m ρ c k fullShare.right))
        ∗ (bigSep Finset.univ fun k : Fin 8 => rPts m ρ c k)
        ∗ (bigSep Finset.univ fun k : Fin 8 => oPts m ρ c (yF c) k c)
        ∗ (bigSep Finset.univ fun k : Fin 8 => oPts m ρ c (yG c) k (yp c))
        ∗ (((c : Thread nD τ).loc cc0_stg0_0) ↦{fullShare} xstg m ρ c)
        ∗ owes (c : Thread nD τ) 0 W)
      ⊢ |={Set.univ}=> bodyPost m ρ c := by
  iintro ⟨#HR, Hat, Hs, Hr, Ho1, Ho2, Hx, HO⟩
  imod (cells_close m ρ K c) $$ [Hat] with Hz
  · isplitr; · iexact HR
    iexact Hat
  imodintro
  unfold bodyPost Φ₁
  isplitl [Hs Hr Hz]
  · isplitl [Hs]; · iapply (sAll_intro m ρ c); iexact Hs
    isplitl [Hr]; · iapply (rAll_intro m ρ c); iexact Hr
    iexact Hz
  isplitl [HO]
  · unfold Dat.owesAt Pipeline.owesWithin
    rw [show (dats m ρ 0 c).owed t₀.succ = 0 from rfl]
    iexists W
    isplitr; · ipureintro; exact fun _ _ => Or.inl trivial
    iexact HO
  isplitl [Hx]
  · iexists _; isplitr; · (ipureintro; rfl)
    iexact Hx
  iexists _; isplitr; · (ipureintro; rfl)
  iapply (join_o m ρ c)
  rw [out_halves m ρ c]
  isplitl [Ho1]; · iexact Ho1
  iexact Ho2

end Cert.Kernel.AR
end
-- ==== Proof.Bits.Oblig.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import proofs.«900134_g7700000000000135_dist_ar_v7x_xy2x2_x_m512_n512_bf16_1_alg».proof.Proof.Bits.Sched
import proofs.«900134_g7700000000000135_dist_ar_v7x_xy2x2_x_m512_n512_bf16_1_alg».proof.Proof.Bits.Levels
import proofs.«900134_g7700000000000135_dist_ar_v7x_xy2x2_x_m512_n512_bf16_1_alg».proof.Proof.Bits.Chunks
import proofs.«900134_g7700000000000135_dist_ar_v7x_xy2x2_x_m512_n512_bf16_1_alg».proof.Proof.Bits.Launch
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Cert.Kernel.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## From the body lemma to the body obligation, and to the run -/

/-- A whole buffer owned at contents X is the buffer at some contents equal to X. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition at the one grid point: the invariant at the point, what the device owes there, and the
    two staging buffers at what they hold before the body. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation of every device from the body lemma: the grid has one point; there the obligation's precondition is
    the lemma's with the table of invariant names opened, and its postcondition is the lemma's. -/
theorem body_obligation_of
    (hsound : ∀ (K : Dev nD × CK → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              cc0_scratch2 cc0_scratch3 cc0_scratch4 cc0_scratch5) Kt) :
    ∀ c : Dev nD, BodyObligation (dats (F := F) m ρ 0 c) (defs₀ (F := F)) 𝒱₀ () Set.univ := fun c t => by
  rw [fin_N t]
  rw [Gen.bigSep_W0, Gen.bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  unfold bodyPre' Φ₀ start
  iintro ⟨⟨⟨⟨%K, Hg⟩, Hcr, Hlev⟩, Hs, Hr⟩, Ho, Hx, Hout⟩
  iapply (hsound K c fun _ => bodyPost m ρ c)
  unfold bodyPre
  isplitr []
  · isplitl [Hg Hcr Hlev Hs Hr]
    · isplitl [Hg]; · iexact Hg
      isplitl [Hcr]; · iexact Hcr
      isplitl [Hlev]; · iexact Hlev
      isplitl [Hs]; · iexact Hs
      iexact Hr
    isplitl [Ho]; · iexact Ho
    isplitl [Hx] <;> iassumption
  · iintro H; iexact H

/-- The run of @main from the body lemma, at one memory and generator state. -/
theorem run_of_sound
    (hsound : ∀ (K : Dev nD × CK → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              cc0_scratch2 cc0_scratch3 cc0_scratch4 cc0_scratch5) Kt) :
    θ_run defs (onTc (τ := τ) (main (F := F))) (s₀ m ρ) (QC m ρ) :=
  run_main m ρ (body_obligation_of m ρ hsound)

/-- The same from every memory with zero counters and every generator state. -/
theorem run_of_sound_all
    (hsound : ∀ (m : (ℓ : Loc nD τ sig) → Buf (Elt F) ℓ) (ρ : Dev nD → PrngReg)
        (K : Dev nD × CK → ℕ) (c : Dev nD) (Kt : PUnit → sProp 𝕄),
      iprop(bodyPre m ρ K c ∗ (bodyPost m ρ c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              cc0_scratch2 cc0_scratch3 cc0_scratch4 cc0_scratch5) Kt) :
    ∀ (m : (ℓ : Loc nD τ sig) → Buf (Elt F) ℓ) (ρ : Dev nD → PrngReg),
      θ_run defs (onTc (τ := τ) (main (F := F))) (s₀ m ρ) (QC m ρ) :=
  fun m ρ => run_of_sound m ρ (hsound m ρ)

end Cert.Kernel.AR
end
-- ==== Proof.Bits.Body0.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import proofs.«900134_g7700000000000135_dist_ar_v7x_xy2x2_x_m512_n512_bf16_1_alg».proof.Proof.Bits.Sched
import proofs.«900134_g7700000000000135_dist_ar_v7x_xy2x2_x_m512_n512_bf16_1_alg».proof.Proof.Bits.Levels
import proofs.«900134_g7700000000000135_dist_ar_v7x_xy2x2_x_m512_n512_bf16_1_alg».proof.Proof.Bits.Chunks
import proofs.«900134_g7700000000000135_dist_ar_v7x_xy2x2_x_m512_n512_bf16_1_alg».proof.Proof.Bits.Steps
import proofs.«900134_g7700000000000135_dist_ar_v7x_xy2x2_x_m512_n512_bf16_1_alg».proof.Proof.Bits.Launch
import proofs.«900134_g7700000000000135_dist_ar_v7x_xy2x2_x_m512_n512_bf16_1_alg».proof.Proof.Bits.Finish
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Cert.Kernel.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- `isplitl` one named hypothesis at a time. -/
syntax "feed0 " ident* : tactic
macro_rules
  | `(tactic| feed0) => `(tactic| skip)
  | `(tactic| feed0 $h $hs*) => `(tactic| ((isplitl [$h]; · iexact $h); feed0 $hs*))

/-! The body on a device whose `y` coordinate is 0: the region of `y = 0` is entered, the other is not. -/

theorem cond1_y0 (c : Dev nD) (hy : yOf c = 0) : k0_cond1 c = 1#1 := by revert c; decide
theorem cond2_y0 (c : Dev nD) (hy : yOf c = 0) : k0_cond2 c = 0#1 := by revert c; decide
theorem yF_y0 (c : Dev nD) (hy : yOf c = 0) : yF c = 0 := Fin.ext hy
theorem yG_y0 (c : Dev nD) (hy : yOf c = 0) : yG c = 1 := Fin.ext (by show 1 - yOf c = 1; rw [hy])
theorem devX_eq0 (c : Dev nD) : (⟨k0_dev1 c, k0_dev1_lt c⟩ : Dev nD) = xp c := Fin.ext (k0_dev1_eq c)
theorem devY_eq0 (c : Dev nD) : (⟨k0_dev2 c, k0_dev2_lt c⟩ : Dev nD) = yp c := Fin.ext (k0_dev2_eq c)

theorem bigSep_two0 (Φ : Fin 2 → sProp 𝕄) : bigSep Finset.univ Φ = iprop(Φ 0 ∗ Φ 1) :=
  bigSep_univ_eq_bigSepL [0, 1] (by decide) (by decide) Φ

/-- Once every transfer has been issued a device owes nothing: any wait is allowed. -/
theorem mayWait_done0 (c : Dev nD) (sm : SemLoc sig) : (levAts L lv : sProp 𝕄) ⊢ MayWait (c : Thread nD τ) sm () (owed c 8 8) := by
  rw [owed_done, MayWait_zero]; iintro -; iempintro

theorem body_finish0 (K : Dev nD × CK → ℕ) (c : Dev nD) (W : Waits sig Unit) :
    iprop(records m ρ K
        ∗ (bigSep Finset.univ fun jk : Fin 4 × Fin 8 => atPos ER (dCell c jk.1 jk.2) 1 ∅ 0)
        ∗ (bigSep Finset.univ fun k : Fin 8 => iprop(sPts m ρ c k fullShare.left ∗ sPts m ρ c k fullShare.right))
        ∗ (bigSep Finset.univ fun k : Fin 8 => rPts m ρ c k)
        ∗ (bigSep Finset.univ fun k : Fin 8 => oPts m ρ c (yF c) k c)
        ∗ (bigSep Finset.univ fun k : Fin 8 => oPts m ρ c (yG c) k (yp c))
        ∗ (((c : Thread nD τ).loc cc0_stg0_0) ↦{fullShare} xstg m ρ c)
        ∗ owes (c : Thread nD τ) (owed c 8 8) W)
      ⊢ |={Set.univ}=> bodyPost m ρ c := by
  rw [owed_done]; exact body_finish m ρ K c W

set_option maxHeartbeats 4000000 in
/-- One thread's body, stepped in program order from what the launch hands it to what it hands back. -/
theorem sound_body0 (K : Dev nD × CK → ℕ) (c : Dev nD) (hy : yOf c = 0) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [semSignalWord, semWaitWord, Prog.lift, Prog.bind_op, Prog.bind_ret, Prog.pure_eq_ret, wp_deviceId]
  simp only [cond1_y0 c hy, cond2_y0 c hy, ↓reduceDIte, dif_neg (show ¬ ((0#1 : BitVec 1) = 1#1) by decide)]
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, Prog.bind_assoc]
  have hyF := yF_y0 c hy
  have hyG := yG_y0 c hy
  unfold bodyPre ghost linear payToks creds sAll rAll
  iintro ⟨⟨⟨⟨#HR, Hat, HtX, HtY, HT0, HT1, HT2, HT3⟩, ⟨HcB, HcR1, HcR3⟩, #Hlev, ⟨%fs, Hs⟩, ⟨%fr, Hr⟩⟩, Ho, ⟨%d0, %g0, %hg0, Hx⟩, ⟨%d1, %g1, %hg1, Hout⟩⟩, Hk⟩
  have hx : g0 = xstg m ρ c := by rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m ρ 0 c).owed t₀.castSucc = O₀ c from rfl]
  -- the receive buffer by chunks, for the mate along x; the result buffer by chunks, the other half for the mate along y
  ihave Hr8 := (split_r (F := F) c) $$ [Hr]
  · unfold rAll; iexists fr; iexact Hr
  ihave Ho16 := (split_o (F := F) c g1) $$ Hout
  ihave Ho16 := (Entails.of_eq (bigSep_univ_prod _)) $$ Ho16
  ihave Ho16 := (Entails.of_eq (bigSep_two0 _)) $$ Ho16
  icases Ho16 with ⟨Hh0, Hh1⟩
  -- the two signals
  iapply (step_sigX m ρ K c _ (devX_eq0 c) W); isplitr; · iexact HR
  feed0 HO HtX Hr8; iintro HO
  iapply (step_sigY m ρ K c _ (devY_eq0 c) W); isplitr; · iexact HR
  isplitl [HO]; · iexact HO
  isplitl [HtY]; · iexact HtY
  isplitl [Hh1]; · rw [hyG]; iexact Hh1
  iintro HO
  -- the send buffer and the own half of the result buffer, chunk by chunk
  ihave Hs8 := (split_s (F := F) c fs) $$ Hs
  ihave Hs8 := (Entails.of_eq (bigSep_fin8 _)) $$ Hs8
  icases Hs8 with ⟨Hs0, Hs1, Hs2, Hs3, Hs4, Hs5, Hs6, Hs7⟩
  ihave Hh0 := (Entails.of_eq (bigSep_fin8 _)) $$ Hh0
  unfold oAny
  icases Hh0 with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩
  -- chunk 0 narrowed
  iapply (step_conv m ρ c 0 hyF 0 _ rfl fs); feed0 Hx Hs0; iintro ⟨Hx, Hs0⟩
  -- the barrier wait: both mates are in; their buffers come with their signals
  iapply (step_barwait m ρ K c W); isplitr; · iexact HR
  isplitr; · iexact Hlev
  ihave Hat := (Entails.of_eq (bigSep_univ_option _)) $$ Hat
  icases Hat with ⟨HatB, Hat32⟩
  feed0 HcB HO HatB; iintro ⟨HO, HatB, HpX, HpY⟩
  ihave HpX := (Entails.of_eq (show barPayX (F := F) c = bigSep Finset.univ (fun k : Fin 8 => rAny (F := F) (xp c) k) from rfl)) $$ HpX
  ihave HpX := (Entails.of_eq (bigSep_fin8 _)) $$ HpX
  unfold rAny
  icases HpX with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩⟩
  ihave HpY := (Entails.of_eq (show barPayY (F := F) c = bigSep Finset.univ (fun k : Fin 8 => oAny (F := F) (yp c) 0 k) from by unfold barPayY; rw [hyF])) $$ HpY
  ihave HpY := (Entails.of_eq (bigSep_fin8 _)) $$ HpY
  unfold oAny
  icases HpY with ⟨⟨%fe0, He0⟩, ⟨%fe1, He1⟩, ⟨%fe2, He2⟩, ⟨%fe3, He3⟩, ⟨%fe4, He4⟩, ⟨%fe5, He5⟩, ⟨%fe6, He6⟩, ⟨%fe7, He7⟩⟩
  -- tokens, credits and positions, one by one
  ihave HT0 := (Entails.of_eq (bigSep_fin8 _)) $$ HT0
  icases HT0 with ⟨Ta0, Ta1, Ta2, Ta3, Ta4, Ta5, Ta6, Ta7⟩
  ihave HT1 := (Entails.of_eq (bigSep_fin8 _)) $$ HT1
  icases HT1 with ⟨Tb0, Tb1, Tb2, Tb3, Tb4, Tb5, Tb6, Tb7⟩
  ihave HT2 := (Entails.of_eq (bigSep_fin8 _)) $$ HT2
  icases HT2 with ⟨Tc0, Tc1, Tc2, Tc3, Tc4, Tc5, Tc6, Tc7⟩
  ihave HT3 := (Entails.of_eq (bigSep_fin8 _)) $$ HT3
  icases HT3 with ⟨Td0, Td1, Td2, Td3, Td4, Td5, Td6, Td7⟩
  ihave HcR1 := (Entails.of_eq (bigSep_fin8 _)) $$ HcR1
  icases HcR1 with ⟨Cb0, Cb1, Cb2, Cb3, Cb4, Cb5, Cb6, Cb7⟩
  ihave HcR3 := (Entails.of_eq (bigSep_fin8 _)) $$ HcR3
  icases HcR3 with ⟨Cd0, Cd1, Cd2, Cd3, Cd4, Cd5, Cd6, Cd7⟩
  ihave Hat32 := (Entails.of_eq (bigSep_univ_prod _)) $$ Hat32
  ihave Hat32 := (Entails.of_eq (bigSep_fin4 _)) $$ Hat32
  icases Hat32 with ⟨HatA, HatBb, HatC, HatD⟩
  ihave HatA := (Entails.of_eq (bigSep_fin8 _)) $$ HatA
  icases HatA with ⟨Aa0, Aa1, Aa2, Aa3, Aa4, Aa5, Aa6, Aa7⟩
  ihave HatBb := (Entails.of_eq (bigSep_fin8 _)) $$ HatBb
  icases HatBb with ⟨Ab0, Ab1, Ab2, Ab3, Ab4, Ab5, Ab6, Ab7⟩
  ihave HatC := (Entails.of_eq (bigSep_fin8 _)) $$ HatC
  icases HatC with ⟨Ac0, Ac1, Ac2, Ac3, Ac4, Ac5, Ac6, Ac7⟩
  ihave HatD := (Entails.of_eq (bigSep_fin8 _)) $$ HatD
  icases HatD with ⟨Ad0, Ad1, Ad2, Ad3, Ad4, Ad5, Ad6, Ad7⟩
  -- first phase: chunk k goes to the mate along x while chunk k + 1 is narrowed
  ihave Hs0 := (sPts_halves m ρ c 0).1 $$ Hs0
  icases Hs0 with ⟨Hl0, Hr0⟩
  iapply (step_send1 m ρ K c _ (Fin.ext (k0_dev3_eq c)) 0 0 fd0 _); isplitr; · iexact HR
  feed0 Hl0 Hd0 HO Ta0 Tb0; iintro ⟨Ca0, HO⟩
  iapply (step_conv m ρ c 0 hyF 1 _ rfl fs); feed0 Hx Hs1; iintro ⟨Hx, Hs1⟩
  ihave Hs1 := (sPts_halves m ρ c 1).1 $$ Hs1
  icases Hs1 with ⟨Hl1, Hr1⟩
  iapply (step_send1 m ρ K c _ (Fin.ext (k0_dev4_eq c)) 1 0 fd1 _); isplitr; · iexact HR
  feed0 Hl1 Hd1 HO Ta1 Tb1; iintro ⟨Ca1, HO⟩
  iapply (step_conv m ρ c 0 hyF 2 _ rfl fs); feed0 Hx Hs2; iintro ⟨Hx, Hs2⟩
  ihave Hs2 := (sPts_halves m ρ c 2).1 $$ Hs2
  icases Hs2 with ⟨Hl2, Hr2⟩
  iapply (step_send1 m ρ K c _ (Fin.ext (k0_dev5_eq c)) 2 0 fd2 _); isplitr; · iexact HR
  feed0 Hl2 Hd2 HO Ta2 Tb2; iintro ⟨Ca2, HO⟩
  iapply (step_conv m ρ c 0 hyF 3 _ rfl fs); feed0 Hx Hs3; iintro ⟨Hx, Hs3⟩
  ihave Hs3 := (sPts_halves m ρ c 3).1 $$ Hs3
  icases Hs3 with ⟨Hl3, Hr3⟩
  iapply (step_send1 m ρ K c _ (Fin.ext (k0_dev6_eq c)) 3 0 fd3 _); isplitr; · iexact HR
  feed0 Hl3 Hd3 HO Ta3 Tb3; iintro ⟨Ca3, HO⟩
  iapply (step_conv m ρ c 0 hyF 4 _ rfl fs); feed0 Hx Hs4; iintro ⟨Hx, Hs4⟩
  ihave Hs4 := (sPts_halves m ρ c 4).1 $$ Hs4
  icases Hs4 with ⟨Hl4, Hr4⟩
  iapply (step_send1 m ρ K c _ (Fin.ext (k0_dev7_eq c)) 4 0 fd4 _); isplitr; · iexact HR
  feed0 Hl4 Hd4 HO Ta4 Tb4; iintro ⟨Ca4, HO⟩
  iapply (step_conv m ρ c 0 hyF 5 _ rfl fs); feed0 Hx Hs5; iintro ⟨Hx, Hs5⟩
  ihave Hs5 := (sPts_halves m ρ c 5).1 $$ Hs5
  icases Hs5 with ⟨Hl5, Hr5⟩
  iapply (step_send1 m ρ K c _ (Fin.ext (k0_dev8_eq c)) 5 0 fd5 _); isplitr; · iexact HR
  feed0 Hl5 Hd5 HO Ta5 Tb5; iintro ⟨Ca5, HO⟩
  iapply (step_conv m ρ c 0 hyF 6 _ rfl fs); feed0 Hx Hs6; iintro ⟨Hx, Hs6⟩
  ihave Hs6 := (sPts_halves m ρ c 6).1 $$ Hs6
  icases Hs6 with ⟨Hl6, Hr6⟩
  iapply (step_send1 m ρ K c _ (Fin.ext (k0_dev9_eq c)) 6 0 fd6 _); isplitr; · iexact HR
  feed0 Hl6 Hd6 HO Ta6 Tb6; iintro ⟨Ca6, HO⟩
  iapply (step_conv m ρ c 0 hyF 7 _ rfl fs); feed0 Hx Hs7; iintro ⟨Hx, Hs7⟩
  ihave Hs7 := (sPts_halves m ρ c 7).1 $$ Hs7
  icases Hs7 with ⟨Hl7, Hr7⟩
  iapply (step_send1 m ρ K c _ (Fin.ext (k0_dev10_eq c)) 7 0 fd7 _); isplitr; · iexact HR
  feed0 Hl7 Hd7 HO Ta7 Tb7; iintro ⟨Ca7, HO⟩
  -- second phase: chunk k arrives from the mate along x, is added to the own chunk, and goes to the mate along y
  iapply (step_wait m ρ K c 1 0 (owed c 8 0) (mayWait_r1 c 0 0) (rCh 0) rfl (rPts m ρ c 0) rfl _); isplitr; · iexact HR
  isplitr; · iexact Hlev
  feed0 Cb0 HO Ab0; iintro ⟨HO, Ab0, Hv0⟩
  iapply (step_add m ρ c 0 hyF 0 _ rfl fo0); feed0 Hr0 Hv0 Ho0; iintro ⟨Hr0, Hv0, Ho0⟩
  iapply (step_send2 m ρ K c _ (Fin.ext (k0_dev11_eq c)) 0 hyF 0 fe0 _); isplitr; · iexact HR
  feed0 Ho0 He0 HO Tc0 Td0; iintro ⟨Cc0, HO⟩
  iapply (step_wait m ρ K c 1 1 (owed c 8 1) (mayWait_r1 c 1 1) (rCh 1) rfl (rPts m ρ c 1) rfl _); isplitr; · iexact HR
  isplitr; · iexact Hlev
  feed0 Cb1 HO Ab1; iintro ⟨HO, Ab1, Hv1⟩
  iapply (step_add m ρ c 0 hyF 1 _ rfl fo1); feed0 Hr1 Hv1 Ho1; iintro ⟨Hr1, Hv1, Ho1⟩
  iapply (step_send2 m ρ K c _ (Fin.ext (k0_dev12_eq c)) 0 hyF 1 fe1 _); isplitr; · iexact HR
  feed0 Ho1 He1 HO Tc1 Td1; iintro ⟨Cc1, HO⟩
  iapply (step_wait m ρ K c 1 2 (owed c 8 2) (mayWait_r1 c 2 2) (rCh 2) rfl (rPts m ρ c 2) rfl _); isplitr; · iexact HR
  isplitr; · iexact Hlev
  feed0 Cb2 HO Ab2; iintro ⟨HO, Ab2, Hv2⟩
  iapply (step_add m ρ c 0 hyF 2 _ rfl fo2); feed0 Hr2 Hv2 Ho2; iintro ⟨Hr2, Hv2, Ho2⟩
  iapply (step_send2 m ρ K c _ (Fin.ext (k0_dev13_eq c)) 0 hyF 2 fe2 _); isplitr; · iexact HR
  feed0 Ho2 He2 HO Tc2 Td2; iintro ⟨Cc2, HO⟩
  iapply (step_wait m ρ K c 1 3 (owed c 8 3) (mayWait_r1 c 3 3) (rCh 3) rfl (rPts m ρ c 3) rfl _); isplitr; · iexact HR
  isplitr; · iexact Hlev
  feed0 Cb3 HO Ab3; iintro ⟨HO, Ab3, Hv3⟩
  iapply (step_add m ρ c 0 hyF 3 _ rfl fo3); feed0 Hr3 Hv3 Ho3; iintro ⟨Hr3, Hv3, Ho3⟩
  iapply (step_send2 m ρ K c _ (Fin.ext (k0_dev14_eq c)) 0 hyF 3 fe3 _); isplitr; · iexact HR
  feed0 Ho3 He3 HO Tc3 Td3; iintro ⟨Cc3, HO⟩
  iapply (step_wait m ρ K c 1 4 (owed c 8 4) (mayWait_r1 c 4 4) (rCh 4) rfl (rPts m ρ c 4) rfl _); isplitr; · iexact HR
  isplitr; · iexact Hlev
  feed0 Cb4 HO Ab4; iintro ⟨HO, Ab4, Hv4⟩
  iapply (step_add m ρ c 0 hyF 4 _ rfl fo4); feed0 Hr4 Hv4 Ho4; iintro ⟨Hr4, Hv4, Ho4⟩
  iapply (step_send2 m ρ K c _ (Fin.ext (k0_dev15_eq c)) 0 hyF 4 fe4 _); isplitr; · iexact HR
  feed0 Ho4 He4 HO Tc4 Td4; iintro ⟨Cc4, HO⟩
  iapply (step_wait m ρ K c 1 5 (owed c 8 5) (mayWait_r1 c 5 5) (rCh 5) rfl (rPts m ρ c 5) rfl _); isplitr; · iexact HR
  isplitr; · iexact Hlev
  feed0 Cb5 HO Ab5; iintro ⟨HO, Ab5, Hv5⟩
  iapply (step_add m ρ c 0 hyF 5 _ rfl fo5); feed0 Hr5 Hv5 Ho5; iintro ⟨Hr5, Hv5, Ho5⟩
  iapply (step_send2 m ρ K c _ (Fin.ext (k0_dev16_eq c)) 0 hyF 5 fe5 _); isplitr; · iexact HR
  feed0 Ho5 He5 HO Tc5 Td5; iintro ⟨Cc5, HO⟩
  iapply (step_wait m ρ K c 1 6 (owed c 8 6) (mayWait_r1 c 6 6) (rCh 6) rfl (rPts m ρ c 6) rfl _); isplitr; · iexact HR
  isplitr; · iexact Hlev
  feed0 Cb6 HO Ab6; iintro ⟨HO, Ab6, Hv6⟩
  iapply (step_add m ρ c 0 hyF 6 _ rfl fo6); feed0 Hr6 Hv6 Ho6; iintro ⟨Hr6, Hv6, Ho6⟩
  iapply (step_send2 m ρ K c _ (Fin.ext (k0_dev17_eq c)) 0 hyF 6 fe6 _); isplitr; · iexact HR
  feed0 Ho6 He6 HO Tc6 Td6; iintro ⟨Cc6, HO⟩
  iapply (step_wait m ρ K c 1 7 (owed c 8 7) (mayWait_r1 c 7 7) (rCh 7) rfl (rPts m ρ c 7) rfl _); isplitr; · iexact HR
  isplitr; · iexact Hlev
  feed0 Cb7 HO Ab7; iintro ⟨HO, Ab7, Hv7⟩
  iapply (step_add m ρ c 0 hyF 7 _ rfl fo7); feed0 Hr7 Hv7 Ho7; iintro ⟨Hr7, Hv7, Ho7⟩
  iapply (step_send2 m ρ K c _ (Fin.ext (k0_dev18_eq c)) 0 hyF 7 fe7 _); isplitr; · iexact HR
  feed0 Ho7 He7 HO Tc7 Td7; iintro ⟨Cc7, HO⟩
  -- the mate's chunks arrive in the other half of the result buffer
  iapply (step_wait m ρ K c 3 0 (owed c 8 8) (mayWait_done0 c _) (oCh 0 0) rfl (oPts m ρ c (yG c) 0 (yp c)) rfl _); isplitr; · iexact HR
  isplitr; · iexact Hlev
  feed0 Cd0 HO Ad0; iintro ⟨HO, Ad0, Hu0⟩
  iapply (step_wait m ρ K c 3 1 (owed c 8 8) (mayWait_done0 c _) (oCh 0 1) rfl (oPts m ρ c (yG c) 1 (yp c)) rfl _); isplitr; · iexact HR
  isplitr; · iexact Hlev
  feed0 Cd1 HO Ad1; iintro ⟨HO, Ad1, Hu1⟩
  iapply (step_wait m ρ K c 3 2 (owed c 8 8) (mayWait_done0 c _) (oCh 0 2) rfl (oPts m ρ c (yG c) 2 (yp c)) rfl _); isplitr; · iexact HR
  isplitr; · iexact Hlev
  feed0 Cd2 HO Ad2; iintro ⟨HO, Ad2, Hu2⟩
  iapply (step_wait m ρ K c 3 3 (owed c 8 8) (mayWait_done0 c _) (oCh 0 3) rfl (oPts m ρ c (yG c) 3 (yp c)) rfl _); isplitr; · iexact HR
  isplitr; · iexact Hlev
  feed0 Cd3 HO Ad3; iintro ⟨HO, Ad3, Hu3⟩
  iapply (step_wait m ρ K c 3 4 (owed c 8 8) (mayWait_done0 c _) (oCh 0 4) rfl (oPts m ρ c (yG c) 4 (yp c)) rfl _); isplitr; · iexact HR
  isplitr; · iexact Hlev
  feed0 Cd4 HO Ad4; iintro ⟨HO, Ad4, Hu4⟩
  iapply (step_wait m ρ K c 3 5 (owed c 8 8) (mayWait_done0 c _) (oCh 0 5) rfl (oPts m ρ c (yG c) 5 (yp c)) rfl _); isplitr; · iexact HR
  isplitr; · iexact Hlev
  feed0 Cd5 HO Ad5; iintro ⟨HO, Ad5, Hu5⟩
  iapply (step_wait m ρ K c 3 6 (owed c 8 8) (mayWait_done0 c _) (oCh 0 6) rfl (oPts m ρ c (yG c) 6 (yp c)) rfl _); isplitr; · iexact HR
  isplitr; · iexact Hlev
  feed0 Cd6 HO Ad6; iintro ⟨HO, Ad6, Hu6⟩
  iapply (step_wait m ρ K c 3 7 (owed c 8 8) (mayWait_done0 c _) (oCh 0 7) rfl (oPts m ρ c (yG c) 7 (yp c)) rfl _); isplitr; · iexact HR
  isplitr; · iexact Hlev
  feed0 Cd7 HO Ad7; iintro ⟨HO, Ad7, Hu7⟩
  -- the transfers have left their sources
  iapply (step_wait m ρ K c 0 0 (owed c 8 8) (mayWait_done0 c _) (sCh 0) rfl (sPts m ρ c 0 fullShare.left) rfl _); isplitr; · iexact HR
  isplitr; · iexact Hlev
  feed0 Ca0 HO Aa0; iintro ⟨HO, Aa0, Hl0⟩
  iapply (step_wait m ρ K c 2 0 (owed c 8 8) (mayWait_done0 c _) (oCh 0 0) rfl (oPts m ρ c (yF c) 0 c) rfl _); isplitr; · iexact HR
  isplitr; · iexact Hlev
  feed0 Cc0 HO Ac0; iintro ⟨HO, Ac0, Ho0⟩
  iapply (step_wait m ρ K c 0 1 (owed c 8 8) (mayWait_done0 c _) (sCh 1) rfl (sPts m ρ c 1 fullShare.left) rfl _); isplitr; · iexact HR
  isplitr; · iexact Hlev
  feed0 Ca1 HO Aa1; iintro ⟨HO, Aa1, Hl1⟩
  iapply (step_wait m ρ K c 2 1 (owed c 8 8) (mayWait_done0 c _) (oCh 0 1) rfl (oPts m ρ c (yF c) 1 c) rfl _); isplitr; · iexact HR
  isplitr; · iexact Hlev
  feed0 Cc1 HO Ac1; iintro ⟨HO, Ac1, Ho1⟩
  iapply (step_wait m ρ K c 0 2 (owed c 8 8) (mayWait_done0 c _) (sCh 2) rfl (sPts m ρ c 2 fullShare.left) rfl _); isplitr; · iexact HR
  isplitr; · iexact Hlev
  feed0 Ca2 HO Aa2; iintro ⟨HO, Aa2, Hl2⟩
  iapply (step_wait m ρ K c 2 2 (owed c 8 8) (mayWait_done0 c _) (oCh 0 2) rfl (oPts m ρ c (yF c) 2 c) rfl _); isplitr; · iexact HR
  isplitr; · iexact Hlev
  feed0 Cc2 HO Ac2; iintro ⟨HO, Ac2, Ho2⟩
  iapply (step_wait m ρ K c 0 3 (owed c 8 8) (mayWait_done0 c _) (sCh 3) rfl (sPts m ρ c 3 fullShare.left) rfl _); isplitr; · iexact HR
  isplitr; · iexact Hlev
  feed0 Ca3 HO Aa3; iintro ⟨HO, Aa3, Hl3⟩
  iapply (step_wait m ρ K c 2 3 (owed c 8 8) (mayWait_done0 c _) (oCh 0 3) rfl (oPts m ρ c (yF c) 3 c) rfl _); isplitr; · iexact HR
  isplitr; · iexact Hlev
  feed0 Cc3 HO Ac3; iintro ⟨HO, Ac3, Ho3⟩
  iapply (step_wait m ρ K c 0 4 (owed c 8 8) (mayWait_done0 c _) (sCh 4) rfl (sPts m ρ c 4 fullShare.left) rfl _); isplitr; · iexact HR
  isplitr; · iexact Hlev
  feed0 Ca4 HO Aa4; iintro ⟨HO, Aa4, Hl4⟩
  iapply (step_wait m ρ K c 2 4 (owed c 8 8) (mayWait_done0 c _) (oCh 0 4) rfl (oPts m ρ c (yF c) 4 c) rfl _); isplitr; · iexact HR
  isplitr; · iexact Hlev
  feed0 Cc4 HO Ac4; iintro ⟨HO, Ac4, Ho4⟩
  iapply (step_wait m ρ K c 0 5 (owed c 8 8) (mayWait_done0 c _) (sCh 5) rfl (sPts m ρ c 5 fullShare.left) rfl _); isplitr; · iexact HR
  isplitr; · iexact Hlev
  feed0 Ca5 HO Aa5; iintro ⟨HO, Aa5, Hl5⟩
  iapply (step_wait m ρ K c 2 5 (owed c 8 8) (mayWait_done0 c _) (oCh 0 5) rfl (oPts m ρ c (yF c) 5 c) rfl _); isplitr; · iexact HR
  isplitr; · iexact Hlev
  feed0 Cc5 HO Ac5; iintro ⟨HO, Ac5, Ho5⟩
  iapply (step_wait m ρ K c 0 6 (owed c 8 8) (mayWait_done0 c _) (sCh 6) rfl (sPts m ρ c 6 fullShare.left) rfl _); isplitr; · iexact HR
  isplitr; · iexact Hlev
  feed0 Ca6 HO Aa6; iintro ⟨HO, Aa6, Hl6⟩
  iapply (step_wait m ρ K c 2 6 (owed c 8 8) (mayWait_done0 c _) (oCh 0 6) rfl (oPts m ρ c (yF c) 6 c) rfl _); isplitr; · iexact HR
  isplitr; · iexact Hlev
  feed0 Cc6 HO Ac6; iintro ⟨HO, Ac6, Ho6⟩
  iapply (step_wait m ρ K c 0 7 (owed c 8 8) (mayWait_done0 c _) (sCh 7) rfl (sPts m ρ c 7 fullShare.left) rfl _); isplitr; · iexact HR
  isplitr; · iexact Hlev
  feed0 Ca7 HO Aa7; iintro ⟨HO, Aa7, Hl7⟩
  iapply (step_wait m ρ K c 2 7 (owed c 8 8) (mayWait_done0 c _) (oCh 0 7) rfl (oPts m ρ c (yF c) 7 c) rfl _); isplitr; · iexact HR
  isplitr; · iexact Hlev
  feed0 Cc7 HO Ac7; iintro ⟨HO, Ac7, Ho7⟩
  -- the body returns: the cells are closed, the chunks joined
  rw [wp_ret]
  imod (body_finish0 m ρ K c _) $$ [Aa0 Aa1 Aa2 Aa3 Aa4 Aa5 Aa6 Aa7 Ab0 Ab1 Ab2 Ab3 Ab4 Ab5 Ab6 Ab7 Ac0 Ac1 Ac2 Ac3 Ac4 Ac5 Ac6 Ac7 Ad0 Ad1 Ad2 Ad3 Ad4 Ad5 Ad6 Ad7 Hl0 Hl1 Hl2 Hl3 Hl4 Hl5 Hl6 Hl7 Hr0 Hr1 Hr2 Hr3 Hr4 Hr5 Hr6 Hr7 Hv0 Hv1 Hv2 Hv3 Hv4 Hv5 Hv6 Hv7 Ho0 Ho1 Ho2 Ho3 Ho4 Ho5 Ho6 Ho7 Hu0 Hu1 Hu2 Hu3 Hu4 Hu5 Hu6 Hu7 Hx HO] with Hpost
  · isplitr; · iexact HR
    rw [bigSep_univ_prod, bigSep_fin4, bigSep_fin8, bigSep_fin8, bigSep_fin8, bigSep_fin8, bigSep_fin8, bigSep_fin8, bigSep_fin8, bigSep_fin8]
    isplitl [Aa0 Aa1 Aa2 Aa3 Aa4 Aa5 Aa6 Aa7 Ab0 Ab1 Ab2 Ab3 Ab4 Ab5 Ab6 Ab7 Ac0 Ac1 Ac2 Ac3 Ac4 Ac5 Ac6 Ac7 Ad0 Ad1 Ad2 Ad3 Ad4 Ad5 Ad6 Ad7]
    · isplitl [Aa0 Aa1 Aa2 Aa3 Aa4 Aa5 Aa6 Aa7]; · feed0 Aa0 Aa1 Aa2 Aa3 Aa4 Aa5 Aa6; iexact Aa7
      isplitl [Ab0 Ab1 Ab2 Ab3 Ab4 Ab5 Ab6 Ab7]; · feed0 Ab0 Ab1 Ab2 Ab3 Ab4 Ab5 Ab6; iexact Ab7
      isplitl [Ac0 Ac1 Ac2 Ac3 Ac4 Ac5 Ac6 Ac7]; · feed0 Ac0 Ac1 Ac2 Ac3 Ac4 Ac5 Ac6; iexact Ac7
      feed0 Ad0 Ad1 Ad2 Ad3 Ad4 Ad5 Ad6; iexact Ad7
    isplitl [Hl0 Hl1 Hl2 Hl3 Hl4 Hl5 Hl6 Hl7 Hr0 Hr1 Hr2 Hr3 Hr4 Hr5 Hr6 Hr7]
    · skip
      isplitl [Hl0 Hr0]; · (isplitl [Hl0]; · iexact Hl0); iexact Hr0
      isplitl [Hl1 Hr1]; · (isplitl [Hl1]; · iexact Hl1); iexact Hr1
      isplitl [Hl2 Hr2]; · (isplitl [Hl2]; · iexact Hl2); iexact Hr2
      isplitl [Hl3 Hr3]; · (isplitl [Hl3]; · iexact Hl3); iexact Hr3
      isplitl [Hl4 Hr4]; · (isplitl [Hl4]; · iexact Hl4); iexact Hr4
      isplitl [Hl5 Hr5]; · (isplitl [Hl5]; · iexact Hl5); iexact Hr5
      isplitl [Hl6 Hr6]; · (isplitl [Hl6]; · iexact Hl6); iexact Hr6
      isplitl [Hl7]; · iexact Hl7
      iexact Hr7
    isplitl [Hv0 Hv1 Hv2 Hv3 Hv4 Hv5 Hv6 Hv7]; · feed0 Hv0 Hv1 Hv2 Hv3 Hv4 Hv5 Hv6; iexact Hv7
    isplitl [Ho0 Ho1 Ho2 Ho3 Ho4 Ho5 Ho6 Ho7]; · feed0 Ho0 Ho1 Ho2 Ho3 Ho4 Ho5 Ho6; iexact Ho7
    isplitl [Hu0 Hu1 Hu2 Hu3 Hu4 Hu5 Hu6 Hu7]; · feed0 Hu0 Hu1 Hu2 Hu3 Hu4 Hu5 Hu6; iexact Hu7
    isplitl [Hx]; · iexact Hx
    iexact HO
  imodintro
  iapply Hk; iexact Hpost

end Cert.Kernel.AR
end
-- ==== Proof.Bits.Body1.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import proofs.«900134_g7700000000000135_dist_ar_v7x_xy2x2_x_m512_n512_bf16_1_alg».proof.Proof.Bits.Sched
import proofs.«900134_g7700000000000135_dist_ar_v7x_xy2x2_x_m512_n512_bf16_1_alg».proof.Proof.Bits.Levels
import proofs.«900134_g7700000000000135_dist_ar_v7x_xy2x2_x_m512_n512_bf16_1_alg».proof.Proof.Bits.Chunks
import proofs.«900134_g7700000000000135_dist_ar_v7x_xy2x2_x_m512_n512_bf16_1_alg».proof.Proof.Bits.Steps
import proofs.«900134_g7700000000000135_dist_ar_v7x_xy2x2_x_m512_n512_bf16_1_alg».proof.Proof.Bits.Launch
import proofs.«900134_g7700000000000135_dist_ar_v7x_xy2x2_x_m512_n512_bf16_1_alg».proof.Proof.Bits.Finish
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Cert.Kernel.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- `isplitl` one named hypothesis at a time. -/
syntax "feed1 " ident* : tactic
macro_rules
  | `(tactic| feed1) => `(tactic| skip)
  | `(tactic| feed1 $h $hs*) => `(tactic| ((isplitl [$h]; · iexact $h); feed1 $hs*))

/-! The body on a device whose `y` coordinate is 1: the region of `y = 1` is entered, the other is not. -/

theorem cond1_y1 (c : Dev nD) (hy : yOf c = 1) : k0_cond1 c = 0#1 := by revert c; decide
theorem cond2_y1 (c : Dev nD) (hy : yOf c = 1) : k0_cond2 c = 1#1 := by revert c; decide
theorem yF_y1 (c : Dev nD) (hy : yOf c = 1) : yF c = 1 := Fin.ext hy
theorem yG_y1 (c : Dev nD) (hy : yOf c = 1) : yG c = 0 := Fin.ext (by show 1 - yOf c = 0; rw [hy])
theorem devX_eq1 (c : Dev nD) : (⟨k0_dev1 c, k0_dev1_lt c⟩ : Dev nD) = xp c := Fin.ext (k0_dev1_eq c)
theorem devY_eq1 (c : Dev nD) : (⟨k0_dev2 c, k0_dev2_lt c⟩ : Dev nD) = yp c := Fin.ext (k0_dev2_eq c)

theorem bigSep_two1 (Φ : Fin 2 → sProp 𝕄) : bigSep Finset.univ Φ = iprop(Φ 0 ∗ Φ 1) :=
  bigSep_univ_eq_bigSepL [0, 1] (by decide) (by decide) Φ

/-- Once every transfer has been issued a device owes nothing: any wait is allowed. -/
theorem mayWait_done1 (c : Dev nD) (sm : SemLoc sig) : (levAts L lv : sProp 𝕄) ⊢ MayWait (c : Thread nD τ) sm () (owed c 8 8) := by
  rw [owed_done, MayWait_zero]; iintro -; iempintro

theorem body_finish1 (K : Dev nD × CK → ℕ) (c : Dev nD) (W : Waits sig Unit) :
    iprop(records m ρ K
        ∗ (bigSep Finset.univ fun jk : Fin 4 × Fin 8 => atPos ER (dCell c jk.1 jk.2) 1 ∅ 0)
        ∗ (bigSep Finset.univ fun k : Fin 8 => iprop(sPts m ρ c k fullShare.left ∗ sPts m ρ c k fullShare.right))
        ∗ (bigSep Finset.univ fun k : Fin 8 => rPts m ρ c k)
        ∗ (bigSep Finset.univ fun k : Fin 8 => oPts m ρ c (yF c) k c)
        ∗ (bigSep Finset.univ fun k : Fin 8 => oPts m ρ c (yG c) k (yp c))
        ∗ (((c : Thread nD τ).loc cc0_stg0_0) ↦{fullShare} xstg m ρ c)
        ∗ owes (c : Thread nD τ) (owed c 8 8) W)
      ⊢ |={Set.univ}=> bodyPost m ρ c := by
  rw [owed_done]; exact body_finish m ρ K c W

set_option maxHeartbeats 4000000 in
/-- One thread's body, stepped in program order from what the launch hands it to what it hands back. -/
theorem sound_body1 (K : Dev nD × CK → ℕ) (c : Dev nD) (hy : yOf c = 1) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  simp only [semSignalWord, semWaitWord, Prog.lift, Prog.bind_op, Prog.bind_ret, Prog.pure_eq_ret, wp_deviceId]
  simp only [cond1_y1 c hy, cond2_y1 c hy, ↓reduceDIte, dif_neg (show ¬ ((0#1 : BitVec 1) = 1#1) by decide)]
  simp only [k0_part34_eq_skeleton]; unfold k0_part34_skel
  simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [semSignalWord, semWaitWord, Prog.lift, Prog.bind_op, Prog.bind_ret, Prog.pure_eq_ret, Prog.bind_assoc]
  have hyF := yF_y1 c hy
  have hyG := yG_y1 c hy
  unfold bodyPre ghost linear payToks creds sAll rAll
  iintro ⟨⟨⟨⟨#HR, Hat, HtX, HtY, HT0, HT1, HT2, HT3⟩, ⟨HcB, HcR1, HcR3⟩, #Hlev, ⟨%fs, Hs⟩, ⟨%fr, Hr⟩⟩, Ho, ⟨%d0, %g0, %hg0, Hx⟩, ⟨%d1, %g1, %hg1, Hout⟩⟩, Hk⟩
  have hx : g0 = xstg m ρ c := by rw [hg0]; unfold Dat.before; rw [if_pos (show (cfg0.win (0 : Fin 2)).fetch t₀ = true from rfl)]; rfl
  subst hx
  unfold Dat.owesAt Pipeline.owesWithin
  icases Ho with ⟨%W, %hW, HO⟩
  rw [show (dats m ρ 0 c).owed t₀.castSucc = O₀ c from rfl]
  -- the receive buffer by chunks, for the mate along x; the result buffer by chunks, the other half for the mate along y
  ihave Hr8 := (split_r (F := F) c) $$ [Hr]
  · unfold rAll; iexists fr; iexact Hr
  ihave Ho16 := (split_o (F := F) c g1) $$ Hout
  ihave Ho16 := (Entails.of_eq (bigSep_univ_prod _)) $$ Ho16
  ihave Ho16 := (Entails.of_eq (bigSep_two1 _)) $$ Ho16
  icases Ho16 with ⟨Hh0, Hh1⟩
  -- the two signals
  iapply (step_sigX m ρ K c _ (devX_eq1 c) W); isplitr; · iexact HR
  feed1 HO HtX Hr8; iintro HO
  iapply (step_sigY m ρ K c _ (devY_eq1 c) W); isplitr; · iexact HR
  isplitl [HO]; · iexact HO
  isplitl [HtY]; · iexact HtY
  isplitl [Hh0]; · rw [hyG]; iexact Hh0
  iintro HO
  -- the send buffer and the own half of the result buffer, chunk by chunk
  ihave Hs8 := (split_s (F := F) c fs) $$ Hs
  ihave Hs8 := (Entails.of_eq (bigSep_fin8 _)) $$ Hs8
  icases Hs8 with ⟨Hs0, Hs1, Hs2, Hs3, Hs4, Hs5, Hs6, Hs7⟩
  ihave Hh1 := (Entails.of_eq (bigSep_fin8 _)) $$ Hh1
  unfold oAny
  icases Hh1 with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩
  -- chunk 0 narrowed
  iapply (step_conv m ρ c 1 hyF 0 _ rfl fs); feed1 Hx Hs0; iintro ⟨Hx, Hs0⟩
  -- the barrier wait: both mates are in; their buffers come with their signals
  iapply (step_barwait m ρ K c W); isplitr; · iexact HR
  isplitr; · iexact Hlev
  ihave Hat := (Entails.of_eq (bigSep_univ_option _)) $$ Hat
  icases Hat with ⟨HatB, Hat32⟩
  feed1 HcB HO HatB; iintro ⟨HO, HatB, HpX, HpY⟩
  ihave HpX := (Entails.of_eq (show barPayX (F := F) c = bigSep Finset.univ (fun k : Fin 8 => rAny (F := F) (xp c) k) from rfl)) $$ HpX
  ihave HpX := (Entails.of_eq (bigSep_fin8 _)) $$ HpX
  unfold rAny
  icases HpX with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩⟩
  ihave HpY := (Entails.of_eq (show barPayY (F := F) c = bigSep Finset.univ (fun k : Fin 8 => oAny (F := F) (yp c) 1 k) from by unfold barPayY; rw [hyF])) $$ HpY
  ihave HpY := (Entails.of_eq (bigSep_fin8 _)) $$ HpY
  unfold oAny
  icases HpY with ⟨⟨%fe0, He0⟩, ⟨%fe1, He1⟩, ⟨%fe2, He2⟩, ⟨%fe3, He3⟩, ⟨%fe4, He4⟩, ⟨%fe5, He5⟩, ⟨%fe6, He6⟩, ⟨%fe7, He7⟩⟩
  -- tokens, credits and positions, one by one
  ihave HT0 := (Entails.of_eq (bigSep_fin8 _)) $$ HT0
  icases HT0 with ⟨Ta0, Ta1, Ta2, Ta3, Ta4, Ta5, Ta6, Ta7⟩
  ihave HT1 := (Entails.of_eq (bigSep_fin8 _)) $$ HT1
  icases HT1 with ⟨Tb0, Tb1, Tb2, Tb3, Tb4, Tb5, Tb6, Tb7⟩
  ihave HT2 := (Entails.of_eq (bigSep_fin8 _)) $$ HT2
  icases HT2 with ⟨Tc0, Tc1, Tc2, Tc3, Tc4, Tc5, Tc6, Tc7⟩
  ihave HT3 := (Entails.of_eq (bigSep_fin8 _)) $$ HT3
  icases HT3 with ⟨Td0, Td1, Td2, Td3, Td4, Td5, Td6, Td7⟩
  ihave HcR1 := (Entails.of_eq (bigSep_fin8 _)) $$ HcR1
  icases HcR1 with ⟨Cb0, Cb1, Cb2, Cb3, Cb4, Cb5, Cb6, Cb7⟩
  ihave HcR3 := (Entails.of_eq (bigSep_fin8 _)) $$ HcR3
  icases HcR3 with ⟨Cd0, Cd1, Cd2, Cd3, Cd4, Cd5, Cd6, Cd7⟩
  ihave Hat32 := (Entails.of_eq (bigSep_univ_prod _)) $$ Hat32
  ihave Hat32 := (Entails.of_eq (bigSep_fin4 _)) $$ Hat32
  icases Hat32 with ⟨HatA, HatBb, HatC, HatD⟩
  ihave HatA := (Entails.of_eq (bigSep_fin8 _)) $$ HatA
  icases HatA with ⟨Aa0, Aa1, Aa2, Aa3, Aa4, Aa5, Aa6, Aa7⟩
  ihave HatBb := (Entails.of_eq (bigSep_fin8 _)) $$ HatBb
  icases HatBb with ⟨Ab0, Ab1, Ab2, Ab3, Ab4, Ab5, Ab6, Ab7⟩
  ihave HatC := (Entails.of_eq (bigSep_fin8 _)) $$ HatC
  icases HatC with ⟨Ac0, Ac1, Ac2, Ac3, Ac4, Ac5, Ac6, Ac7⟩
  ihave HatD := (Entails.of_eq (bigSep_fin8 _)) $$ HatD
  icases HatD with ⟨Ad0, Ad1, Ad2, Ad3, Ad4, Ad5, Ad6, Ad7⟩
  -- first phase: chunk k goes to the mate along x while chunk k + 1 is narrowed
  ihave Hs0 := (sPts_halves m ρ c 0).1 $$ Hs0
  icases Hs0 with ⟨Hl0, Hr0⟩
  iapply (step_send1 m ρ K c _ (Fin.ext (k0_dev19_eq c)) 0 0 fd0 _); isplitr; · iexact HR
  feed1 Hl0 Hd0 HO Ta0 Tb0; iintro ⟨Ca0, HO⟩
  iapply (step_conv m ρ c 1 hyF 1 _ rfl fs); feed1 Hx Hs1; iintro ⟨Hx, Hs1⟩
  ihave Hs1 := (sPts_halves m ρ c 1).1 $$ Hs1
  icases Hs1 with ⟨Hl1, Hr1⟩
  iapply (step_send1 m ρ K c _ (Fin.ext (k0_dev20_eq c)) 1 0 fd1 _); isplitr; · iexact HR
  feed1 Hl1 Hd1 HO Ta1 Tb1; iintro ⟨Ca1, HO⟩
  iapply (step_conv m ρ c 1 hyF 2 _ rfl fs); feed1 Hx Hs2; iintro ⟨Hx, Hs2⟩
  ihave Hs2 := (sPts_halves m ρ c 2).1 $$ Hs2
  icases Hs2 with ⟨Hl2, Hr2⟩
  iapply (step_send1 m ρ K c _ (Fin.ext (k0_dev21_eq c)) 2 0 fd2 _); isplitr; · iexact HR
  feed1 Hl2 Hd2 HO Ta2 Tb2; iintro ⟨Ca2, HO⟩
  iapply (step_conv m ρ c 1 hyF 3 _ rfl fs); feed1 Hx Hs3; iintro ⟨Hx, Hs3⟩
  ihave Hs3 := (sPts_halves m ρ c 3).1 $$ Hs3
  icases Hs3 with ⟨Hl3, Hr3⟩
  iapply (step_send1 m ρ K c _ (Fin.ext (k0_dev22_eq c)) 3 0 fd3 _); isplitr; · iexact HR
  feed1 Hl3 Hd3 HO Ta3 Tb3; iintro ⟨Ca3, HO⟩
  iapply (step_conv m ρ c 1 hyF 4 _ rfl fs); feed1 Hx Hs4; iintro ⟨Hx, Hs4⟩
  ihave Hs4 := (sPts_halves m ρ c 4).1 $$ Hs4
  icases Hs4 with ⟨Hl4, Hr4⟩
  iapply (step_send1 m ρ K c _ (Fin.ext (k0_dev23_eq c)) 4 0 fd4 _); isplitr; · iexact HR
  feed1 Hl4 Hd4 HO Ta4 Tb4; iintro ⟨Ca4, HO⟩
  iapply (step_conv m ρ c 1 hyF 5 _ rfl fs); feed1 Hx Hs5; iintro ⟨Hx, Hs5⟩
  ihave Hs5 := (sPts_halves m ρ c 5).1 $$ Hs5
  icases Hs5 with ⟨Hl5, Hr5⟩
  iapply (step_send1 m ρ K c _ (Fin.ext (k0_dev24_eq c)) 5 0 fd5 _); isplitr; · iexact HR
  feed1 Hl5 Hd5 HO Ta5 Tb5; iintro ⟨Ca5, HO⟩
  iapply (step_conv m ρ c 1 hyF 6 _ rfl fs); feed1 Hx Hs6; iintro ⟨Hx, Hs6⟩
  ihave Hs6 := (sPts_halves m ρ c 6).1 $$ Hs6
  icases Hs6 with ⟨Hl6, Hr6⟩
  iapply (step_send1 m ρ K c _ (Fin.ext (k0_dev25_eq c)) 6 0 fd6 _); isplitr; · iexact HR
  feed1 Hl6 Hd6 HO Ta6 Tb6; iintro ⟨Ca6, HO⟩
  iapply (step_conv m ρ c 1 hyF 7 _ rfl fs); feed1 Hx Hs7; iintro ⟨Hx, Hs7⟩
  ihave Hs7 := (sPts_halves m ρ c 7).1 $$ Hs7
  icases Hs7 with ⟨Hl7, Hr7⟩
  iapply (step_send1 m ρ K c _ (Fin.ext (k0_dev26_eq c)) 7 0 fd7 _); isplitr; · iexact HR
  feed1 Hl7 Hd7 HO Ta7 Tb7; iintro ⟨Ca7, HO⟩
  -- second phase: chunk k arrives from the mate along x, is added to the own chunk, and goes to the mate along y
  iapply (step_wait m ρ K c 1 0 (owed c 8 0) (mayWait_r1 c 0 0) (rCh 0) rfl (rPts m ρ c 0) rfl _); isplitr; · iexact HR
  isplitr; · iexact Hlev
  feed1 Cb0 HO Ab0; iintro ⟨HO, Ab0, Hv0⟩
  iapply (step_add m ρ c 1 hyF 0 _ rfl fo0); feed1 Hr0 Hv0 Ho0; iintro ⟨Hr0, Hv0, Ho0⟩
  iapply (step_send2 m ρ K c _ (Fin.ext (k0_dev27_eq c)) 1 hyF 0 fe0 _); isplitr; · iexact HR
  feed1 Ho0 He0 HO Tc0 Td0; iintro ⟨Cc0, HO⟩
  iapply (step_wait m ρ K c 1 1 (owed c 8 1) (mayWait_r1 c 1 1) (rCh 1) rfl (rPts m ρ c 1) rfl _); isplitr; · iexact HR
  isplitr; · iexact Hlev
  feed1 Cb1 HO Ab1; iintro ⟨HO, Ab1, Hv1⟩
  iapply (step_add m ρ c 1 hyF 1 _ rfl fo1); feed1 Hr1 Hv1 Ho1; iintro ⟨Hr1, Hv1, Ho1⟩
  iapply (step_send2 m ρ K c _ (Fin.ext (k0_dev28_eq c)) 1 hyF 1 fe1 _); isplitr; · iexact HR
  feed1 Ho1 He1 HO Tc1 Td1; iintro ⟨Cc1, HO⟩
  iapply (step_wait m ρ K c 1 2 (owed c 8 2) (mayWait_r1 c 2 2) (rCh 2) rfl (rPts m ρ c 2) rfl _); isplitr; · iexact HR
  isplitr; · iexact Hlev
  feed1 Cb2 HO Ab2; iintro ⟨HO, Ab2, Hv2⟩
  iapply (step_add m ρ c 1 hyF 2 _ rfl fo2); feed1 Hr2 Hv2 Ho2; iintro ⟨Hr2, Hv2, Ho2⟩
  iapply (step_send2 m ρ K c _ (Fin.ext (k0_dev29_eq c)) 1 hyF 2 fe2 _); isplitr; · iexact HR
  feed1 Ho2 He2 HO Tc2 Td2; iintro ⟨Cc2, HO⟩
  iapply (step_wait m ρ K c 1 3 (owed c 8 3) (mayWait_r1 c 3 3) (rCh 3) rfl (rPts m ρ c 3) rfl _); isplitr; · iexact HR
  isplitr; · iexact Hlev
  feed1 Cb3 HO Ab3; iintro ⟨HO, Ab3, Hv3⟩
  iapply (step_add m ρ c 1 hyF 3 _ rfl fo3); feed1 Hr3 Hv3 Ho3; iintro ⟨Hr3, Hv3, Ho3⟩
  iapply (step_send2 m ρ K c _ (Fin.ext (k0_dev30_eq c)) 1 hyF 3 fe3 _); isplitr; · iexact HR
  feed1 Ho3 He3 HO Tc3 Td3; iintro ⟨Cc3, HO⟩
  iapply (step_wait m ρ K c 1 4 (owed c 8 4) (mayWait_r1 c 4 4) (rCh 4) rfl (rPts m ρ c 4) rfl _); isplitr; · iexact HR
  isplitr; · iexact Hlev
  feed1 Cb4 HO Ab4; iintro ⟨HO, Ab4, Hv4⟩
  iapply (step_add m ρ c 1 hyF 4 _ rfl fo4); feed1 Hr4 Hv4 Ho4; iintro ⟨Hr4, Hv4, Ho4⟩
  iapply (step_send2 m ρ K c _ (Fin.ext (k0_dev31_eq c)) 1 hyF 4 fe4 _); isplitr; · iexact HR
  feed1 Ho4 He4 HO Tc4 Td4; iintro ⟨Cc4, HO⟩
  iapply (step_wait m ρ K c 1 5 (owed c 8 5) (mayWait_r1 c 5 5) (rCh 5) rfl (rPts m ρ c 5) rfl _); isplitr; · iexact HR
  isplitr; · iexact Hlev
  feed1 Cb5 HO Ab5; iintro ⟨HO, Ab5, Hv5⟩
  iapply (step_add m ρ c 1 hyF 5 _ rfl fo5); feed1 Hr5 Hv5 Ho5; iintro ⟨Hr5, Hv5, Ho5⟩
  iapply (step_send2 m ρ K c _ (Fin.ext (k0_dev32_eq c)) 1 hyF 5 fe5 _); isplitr; · iexact HR
  feed1 Ho5 He5 HO Tc5 Td5; iintro ⟨Cc5, HO⟩
  iapply (step_wait m ρ K c 1 6 (owed c 8 6) (mayWait_r1 c 6 6) (rCh 6) rfl (rPts m ρ c 6) rfl _); isplitr; · iexact HR
  isplitr; · iexact Hlev
  feed1 Cb6 HO Ab6; iintro ⟨HO, Ab6, Hv6⟩
  iapply (step_add m ρ c 1 hyF 6 _ rfl fo6); feed1 Hr6 Hv6 Ho6; iintro ⟨Hr6, Hv6, Ho6⟩
  iapply (step_send2 m ρ K c _ (Fin.ext (k0_dev33_eq c)) 1 hyF 6 fe6 _); isplitr; · iexact HR
  feed1 Ho6 He6 HO Tc6 Td6; iintro ⟨Cc6, HO⟩
  iapply (step_wait m ρ K c 1 7 (owed c 8 7) (mayWait_r1 c 7 7) (rCh 7) rfl (rPts m ρ c 7) rfl _); isplitr; · iexact HR
  isplitr; · iexact Hlev
  feed1 Cb7 HO Ab7; iintro ⟨HO, Ab7, Hv7⟩
  iapply (step_add m ρ c 1 hyF 7 _ rfl fo7); feed1 Hr7 Hv7 Ho7; iintro ⟨Hr7, Hv7, Ho7⟩
  iapply (step_send2 m ρ K c _ (Fin.ext (k0_dev34_eq c)) 1 hyF 7 fe7 _); isplitr; · iexact HR
  feed1 Ho7 He7 HO Tc7 Td7; iintro ⟨Cc7, HO⟩
  -- the mate's chunks arrive in the other half of the result buffer
  iapply (step_wait m ρ K c 3 0 (owed c 8 8) (mayWait_done1 c _) (oCh 1 0) rfl (oPts m ρ c (yG c) 0 (yp c)) rfl _); isplitr; · iexact HR
  isplitr; · iexact Hlev
  feed1 Cd0 HO Ad0; iintro ⟨HO, Ad0, Hu0⟩
  iapply (step_wait m ρ K c 3 1 (owed c 8 8) (mayWait_done1 c _) (oCh 1 1) rfl (oPts m ρ c (yG c) 1 (yp c)) rfl _); isplitr; · iexact HR
  isplitr; · iexact Hlev
  feed1 Cd1 HO Ad1; iintro ⟨HO, Ad1, Hu1⟩
  iapply (step_wait m ρ K c 3 2 (owed c 8 8) (mayWait_done1 c _) (oCh 1 2) rfl (oPts m ρ c (yG c) 2 (yp c)) rfl _); isplitr; · iexact HR
  isplitr; · iexact Hlev
  feed1 Cd2 HO Ad2; iintro ⟨HO, Ad2, Hu2⟩
  iapply (step_wait m ρ K c 3 3 (owed c 8 8) (mayWait_done1 c _) (oCh 1 3) rfl (oPts m ρ c (yG c) 3 (yp c)) rfl _); isplitr; · iexact HR
  isplitr; · iexact Hlev
  feed1 Cd3 HO Ad3; iintro ⟨HO, Ad3, Hu3⟩
  iapply (step_wait m ρ K c 3 4 (owed c 8 8) (mayWait_done1 c _) (oCh 1 4) rfl (oPts m ρ c (yG c) 4 (yp c)) rfl _); isplitr; · iexact HR
  isplitr; · iexact Hlev
  feed1 Cd4 HO Ad4; iintro ⟨HO, Ad4, Hu4⟩
  iapply (step_wait m ρ K c 3 5 (owed c 8 8) (mayWait_done1 c _) (oCh 1 5) rfl (oPts m ρ c (yG c) 5 (yp c)) rfl _); isplitr; · iexact HR
  isplitr; · iexact Hlev
  feed1 Cd5 HO Ad5; iintro ⟨HO, Ad5, Hu5⟩
  iapply (step_wait m ρ K c 3 6 (owed c 8 8) (mayWait_done1 c _) (oCh 1 6) rfl (oPts m ρ c (yG c) 6 (yp c)) rfl _); isplitr; · iexact HR
  isplitr; · iexact Hlev
  feed1 Cd6 HO Ad6; iintro ⟨HO, Ad6, Hu6⟩
  iapply (step_wait m ρ K c 3 7 (owed c 8 8) (mayWait_done1 c _) (oCh 1 7) rfl (oPts m ρ c (yG c) 7 (yp c)) rfl _); isplitr; · iexact HR
  isplitr; · iexact Hlev
  feed1 Cd7 HO Ad7; iintro ⟨HO, Ad7, Hu7⟩
  -- the transfers have left their sources
  iapply (step_wait m ρ K c 0 0 (owed c 8 8) (mayWait_done1 c _) (sCh 0) rfl (sPts m ρ c 0 fullShare.left) rfl _); isplitr; · iexact HR
  isplitr; · iexact Hlev
  feed1 Ca0 HO Aa0; iintro ⟨HO, Aa0, Hl0⟩
  iapply (step_wait m ρ K c 2 0 (owed c 8 8) (mayWait_done1 c _) (oCh 1 0) rfl (oPts m ρ c (yF c) 0 c) rfl _); isplitr; · iexact HR
  isplitr; · iexact Hlev
  feed1 Cc0 HO Ac0; iintro ⟨HO, Ac0, Ho0⟩
  iapply (step_wait m ρ K c 0 1 (owed c 8 8) (mayWait_done1 c _) (sCh 1) rfl (sPts m ρ c 1 fullShare.left) rfl _); isplitr; · iexact HR
  isplitr; · iexact Hlev
  feed1 Ca1 HO Aa1; iintro ⟨HO, Aa1, Hl1⟩
  iapply (step_wait m ρ K c 2 1 (owed c 8 8) (mayWait_done1 c _) (oCh 1 1) rfl (oPts m ρ c (yF c) 1 c) rfl _); isplitr; · iexact HR
  isplitr; · iexact Hlev
  feed1 Cc1 HO Ac1; iintro ⟨HO, Ac1, Ho1⟩
  iapply (step_wait m ρ K c 0 2 (owed c 8 8) (mayWait_done1 c _) (sCh 2) rfl (sPts m ρ c 2 fullShare.left) rfl _); isplitr; · iexact HR
  isplitr; · iexact Hlev
  feed1 Ca2 HO Aa2; iintro ⟨HO, Aa2, Hl2⟩
  iapply (step_wait m ρ K c 2 2 (owed c 8 8) (mayWait_done1 c _) (oCh 1 2) rfl (oPts m ρ c (yF c) 2 c) rfl _); isplitr; · iexact HR
  isplitr; · iexact Hlev
  feed1 Cc2 HO Ac2; iintro ⟨HO, Ac2, Ho2⟩
  iapply (step_wait m ρ K c 0 3 (owed c 8 8) (mayWait_done1 c _) (sCh 3) rfl (sPts m ρ c 3 fullShare.left) rfl _); isplitr; · iexact HR
  isplitr; · iexact Hlev
  feed1 Ca3 HO Aa3; iintro ⟨HO, Aa3, Hl3⟩
  iapply (step_wait m ρ K c 2 3 (owed c 8 8) (mayWait_done1 c _) (oCh 1 3) rfl (oPts m ρ c (yF c) 3 c) rfl _); isplitr; · iexact HR
  isplitr; · iexact Hlev
  feed1 Cc3 HO Ac3; iintro ⟨HO, Ac3, Ho3⟩
  iapply (step_wait m ρ K c 0 4 (owed c 8 8) (mayWait_done1 c _) (sCh 4) rfl (sPts m ρ c 4 fullShare.left) rfl _); isplitr; · iexact HR
  isplitr; · iexact Hlev
  feed1 Ca4 HO Aa4; iintro ⟨HO, Aa4, Hl4⟩
  iapply (step_wait m ρ K c 2 4 (owed c 8 8) (mayWait_done1 c _) (oCh 1 4) rfl (oPts m ρ c (yF c) 4 c) rfl _); isplitr; · iexact HR
  isplitr; · iexact Hlev
  feed1 Cc4 HO Ac4; iintro ⟨HO, Ac4, Ho4⟩
  iapply (step_wait m ρ K c 0 5 (owed c 8 8) (mayWait_done1 c _) (sCh 5) rfl (sPts m ρ c 5 fullShare.left) rfl _); isplitr; · iexact HR
  isplitr; · iexact Hlev
  feed1 Ca5 HO Aa5; iintro ⟨HO, Aa5, Hl5⟩
  iapply (step_wait m ρ K c 2 5 (owed c 8 8) (mayWait_done1 c _) (oCh 1 5) rfl (oPts m ρ c (yF c) 5 c) rfl _); isplitr; · iexact HR
  isplitr; · iexact Hlev
  feed1 Cc5 HO Ac5; iintro ⟨HO, Ac5, Ho5⟩
  iapply (step_wait m ρ K c 0 6 (owed c 8 8) (mayWait_done1 c _) (sCh 6) rfl (sPts m ρ c 6 fullShare.left) rfl _); isplitr; · iexact HR
  isplitr; · iexact Hlev
  feed1 Ca6 HO Aa6; iintro ⟨HO, Aa6, Hl6⟩
  iapply (step_wait m ρ K c 2 6 (owed c 8 8) (mayWait_done1 c _) (oCh 1 6) rfl (oPts m ρ c (yF c) 6 c) rfl _); isplitr; · iexact HR
  isplitr; · iexact Hlev
  feed1 Cc6 HO Ac6; iintro ⟨HO, Ac6, Ho6⟩
  iapply (step_wait m ρ K c 0 7 (owed c 8 8) (mayWait_done1 c _) (sCh 7) rfl (sPts m ρ c 7 fullShare.left) rfl _); isplitr; · iexact HR
  isplitr; · iexact Hlev
  feed1 Ca7 HO Aa7; iintro ⟨HO, Aa7, Hl7⟩
  iapply (step_wait m ρ K c 2 7 (owed c 8 8) (mayWait_done1 c _) (oCh 1 7) rfl (oPts m ρ c (yF c) 7 c) rfl _); isplitr; · iexact HR
  isplitr; · iexact Hlev
  feed1 Cc7 HO Ac7; iintro ⟨HO, Ac7, Ho7⟩
  -- the body returns: the cells are closed, the chunks joined
  rw [wp_ret]
  imod (body_finish1 m ρ K c _) $$ [Aa0 Aa1 Aa2 Aa3 Aa4 Aa5 Aa6 Aa7 Ab0 Ab1 Ab2 Ab3 Ab4 Ab5 Ab6 Ab7 Ac0 Ac1 Ac2 Ac3 Ac4 Ac5 Ac6 Ac7 Ad0 Ad1 Ad2 Ad3 Ad4 Ad5 Ad6 Ad7 Hl0 Hl1 Hl2 Hl3 Hl4 Hl5 Hl6 Hl7 Hr0 Hr1 Hr2 Hr3 Hr4 Hr5 Hr6 Hr7 Hv0 Hv1 Hv2 Hv3 Hv4 Hv5 Hv6 Hv7 Ho0 Ho1 Ho2 Ho3 Ho4 Ho5 Ho6 Ho7 Hu0 Hu1 Hu2 Hu3 Hu4 Hu5 Hu6 Hu7 Hx HO] with Hpost
  · isplitr; · iexact HR
    rw [bigSep_univ_prod, bigSep_fin4, bigSep_fin8, bigSep_fin8, bigSep_fin8, bigSep_fin8, bigSep_fin8, bigSep_fin8, bigSep_fin8, bigSep_fin8]
    isplitl [Aa0 Aa1 Aa2 Aa3 Aa4 Aa5 Aa6 Aa7 Ab0 Ab1 Ab2 Ab3 Ab4 Ab5 Ab6 Ab7 Ac0 Ac1 Ac2 Ac3 Ac4 Ac5 Ac6 Ac7 Ad0 Ad1 Ad2 Ad3 Ad4 Ad5 Ad6 Ad7]
    · isplitl [Aa0 Aa1 Aa2 Aa3 Aa4 Aa5 Aa6 Aa7]; · feed1 Aa0 Aa1 Aa2 Aa3 Aa4 Aa5 Aa6; iexact Aa7
      isplitl [Ab0 Ab1 Ab2 Ab3 Ab4 Ab5 Ab6 Ab7]; · feed1 Ab0 Ab1 Ab2 Ab3 Ab4 Ab5 Ab6; iexact Ab7
      isplitl [Ac0 Ac1 Ac2 Ac3 Ac4 Ac5 Ac6 Ac7]; · feed1 Ac0 Ac1 Ac2 Ac3 Ac4 Ac5 Ac6; iexact Ac7
      feed1 Ad0 Ad1 Ad2 Ad3 Ad4 Ad5 Ad6; iexact Ad7
    isplitl [Hl0 Hl1 Hl2 Hl3 Hl4 Hl5 Hl6 Hl7 Hr0 Hr1 Hr2 Hr3 Hr4 Hr5 Hr6 Hr7]
    · skip
      isplitl [Hl0 Hr0]; · (isplitl [Hl0]; · iexact Hl0); iexact Hr0
      isplitl [Hl1 Hr1]; · (isplitl [Hl1]; · iexact Hl1); iexact Hr1
      isplitl [Hl2 Hr2]; · (isplitl [Hl2]; · iexact Hl2); iexact Hr2
      isplitl [Hl3 Hr3]; · (isplitl [Hl3]; · iexact Hl3); iexact Hr3
      isplitl [Hl4 Hr4]; · (isplitl [Hl4]; · iexact Hl4); iexact Hr4
      isplitl [Hl5 Hr5]; · (isplitl [Hl5]; · iexact Hl5); iexact Hr5
      isplitl [Hl6 Hr6]; · (isplitl [Hl6]; · iexact Hl6); iexact Hr6
      isplitl [Hl7]; · iexact Hl7
      iexact Hr7
    isplitl [Hv0 Hv1 Hv2 Hv3 Hv4 Hv5 Hv6 Hv7]; · feed1 Hv0 Hv1 Hv2 Hv3 Hv4 Hv5 Hv6; iexact Hv7
    isplitl [Ho0 Ho1 Ho2 Ho3 Ho4 Ho5 Ho6 Ho7]; · feed1 Ho0 Ho1 Ho2 Ho3 Ho4 Ho5 Ho6; iexact Ho7
    isplitl [Hu0 Hu1 Hu2 Hu3 Hu4 Hu5 Hu6 Hu7]; · feed1 Hu0 Hu1 Hu2 Hu3 Hu4 Hu5 Hu6; iexact Hu7
    isplitl [Hx]; · iexact Hx
    iexact HO
  imodintro
  iapply Hk; iexact Hpost

end Cert.Kernel.AR
end
-- ==== Proof.Bits.Body.lean ====
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.Kernel.Skeleton
import proofs.«900134_g7700000000000135_dist_ar_v7x_xy2x2_x_m512_n512_bf16_1_alg».proof.Proof.Gen.Kernel.Launch
import proofs.«900134_g7700000000000135_dist_ar_v7x_xy2x2_x_m512_n512_bf16_1_alg».proof.Proof.Gen.Kernel.Points
import proofs.«900134_g7700000000000135_dist_ar_v7x_xy2x2_x_m512_n512_bf16_1_alg».proof.Proof.Gen.Kernel.Frame
import proofs.«900134_g7700000000000135_dist_ar_v7x_xy2x2_x_m512_n512_bf16_1_alg».proof.Proof.Bits.Sched
import proofs.«900134_g7700000000000135_dist_ar_v7x_xy2x2_x_m512_n512_bf16_1_alg».proof.Proof.Bits.Levels
import proofs.«900134_g7700000000000135_dist_ar_v7x_xy2x2_x_m512_n512_bf16_1_alg».proof.Proof.Bits.Chunks
import proofs.«900134_g7700000000000135_dist_ar_v7x_xy2x2_x_m512_n512_bf16_1_alg».proof.Proof.Bits.Steps
import proofs.«900134_g7700000000000135_dist_ar_v7x_xy2x2_x_m512_n512_bf16_1_alg».proof.Proof.Bits.Launch
import proofs.«900134_g7700000000000135_dist_ar_v7x_xy2x2_x_m512_n512_bf16_1_alg».proof.Proof.Bits.Finish
import proofs.«900134_g7700000000000135_dist_ar_v7x_xy2x2_x_m512_n512_bf16_1_alg».proof.Proof.Bits.Oblig
import proofs.«900134_g7700000000000135_dist_ar_v7x_xy2x2_x_m512_n512_bf16_1_alg».proof.Proof.Bits.Body0
import proofs.«900134_g7700000000000135_dist_ar_v7x_xy2x2_x_m512_n512_bf16_1_alg».proof.Proof.Bits.Body1
import Idealize.ShloMosaic.Lib.Pipeline.Launch
import Idealize.ShloMosaic.Lib.Pipeline.Kit
import Idealize.ShloMosaic.Lib.Tactic

noncomputable section

namespace Cert.Kernel.AR

open Cert.Kernel Cert.Kernel.Gen
open Cert.Kernel.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One thread's body on any device of the mesh: its `y` coordinate is 0 or 1, and the body enters that region. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  have h : yOf c = 0 ∨ yOf c = 1 := by have := yOf_lt c; omega
  rcases h with h | h
  · exact sound_body0 m ρ K c h Kt
  · exact sound_body1 m ρ K c h Kt

/-- At the compiled 2 × 2 mesh, for any float values, from any memory with zero counters: every weakly fair execution
    of @main terminates, and every final state has each device's result array at `outF` and its block of `x` unchanged. -/
theorem run : θ_run defs (onTc (τ := τ) (main (F := F))) (s₀ m ρ) (QC m ρ) :=
  run_of_sound m ρ (sound_body m ρ)

/-- info: 'Cert.Kernel.AR.run' depends on axioms: [propext, Classical.choice, Quot.sound] -/
#guard_msgs in #print axioms run

end Cert.Kernel.AR
end
-- ==== Proof.Value.lean ====
import proofs.«900134_g7700000000000135_dist_ar_v7x_xy2x2_x_m512_n512_bf16_1_alg».proof.Defs
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.KernelIdeal.Skeleton
import proofs.«900134_g7700000000000135_dist_ar_v7x_xy2x2_x_m512_n512_bf16_1_alg».proof.Proof.Gen.KernelIdeal.Launch
import proofs.«900134_g7700000000000135_dist_ar_v7x_xy2x2_x_m512_n512_bf16_1_alg».proof.Proof.Gen.KernelIdeal.Points
import proofs.«900134_g7700000000000135_dist_ar_v7x_xy2x2_x_m512_n512_bf16_1_alg».proof.Proof.Gen.KernelIdeal.Frame
import proofs.«900134_g7700000000000135_dist_ar_v7x_xy2x2_x_m512_n512_bf16_1_alg».proof.Proof.Sched
import proofs.«900134_g7700000000000135_dist_ar_v7x_xy2x2_x_m512_n512_bf16_1_alg».proof.Proof.Gen.ReferenceIdeal
import proofs.«900134_g7700000000000135_dist_ar_v7x_xy2x2_x_m512_n512_bf16_1_alg».proof.Proof.Gen.ReferenceIdeal.Run
import proofs.«900134_g7700000000000135_dist_ar_v7x_xy2x2_x_m512_n512_bf16_1_alg».proof.Proof.Gen.ReferenceIdeal.Read
import Idealize.ShloMosaic.Lib.Layout
import Idealize.ShloMosaic.Lib.Pipeline.Value
import Idealize.ShloMosaic.Lib.ValueIdx
import Idealize.ShloMosaic.PureOps.Ideal.Laws
import Idealize.ShloMosaic.Lib.StableHlo.Run
import proofs.«900134_g7700000000000135_dist_ar_v7x_xy2x2_x_m512_n512_bf16_1_alg».proof.Proof.Gen.Pre_finite_inputs_Kernel
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Cert.KernelIdeal.AR
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

section AnyFloat
variable (m : (ℓ : Loc nD τ sig) → Buf (Elt F) ℓ) (ρ : Dev nD → PrngReg)

/-! ## The arrays after the run -/

/-- The result array after the run is what the body left in the result buffer: the one grid point writes the whole
    buffer back. -/
theorem finalA_out (c : Dev nD) : finalA m ρ c (1 : Fin 2) = outF m ρ c := by
  unfold finalA
  rw [show cfg0.N = (t₀ : Fin cfg0.N).val + 1 from rfl, (dats (F := F) m ρ 0 c).arrAt_succ (1 : Fin 2) t₀]
  rw [flush0_1 t₀, if_pos rfl]
  have hz : (fun a => (win0_1.index t₀) a * main_v1.ty.shape.size a) = fun _ => 0 := funext fun a => by fin_cases a <;> rfl
  exact Memref.write_access_unit_zero_univ (Elt F) main_v1 hz _ _ _

/-- The staged block of `x` is the device's argument array: the window is the whole array. -/
theorem xstg_eq (c : Dev nD) : xstg m ρ c = m ((c : Thread nD τ).loc main_arg0) := by
  unfold xstg
  have hz : (fun a => (win0_0.index (0 : Fin 1)) a * main_arg0.ty.shape.size a) = fun _ => 0 := funext fun a => by fin_cases a <;> rfl
  exact Memref.read_access_unit_zero (Elt F) main_arg0 hz _ _

/-! ## The result buffer at an index -/

/-- Row `r` of a 512-row buffer: its half, its chunk within the half, its row within the chunk. -/
def yR (r : Fin 512) : Fin 2 := ⟨r.val / 256, by omega⟩
def kR (r : Fin 512) : Fin 8 := ⟨(r.val % 256) / 32, by omega⟩
def tR (r : Fin 512) : Fin 32 := ⟨r.val % 32, Nat.mod_lt _ (by decide)⟩

/-- Row `r` of the result buffer lies in chunk `(r / 256, (r % 256) / 32)`, at the chunk's row `r % 32`. -/
theorem oCh_emb (r j : Fin 512) : (oCh (yR r) (kR r)).view.emb (ix2 (tR r) j) = ix2 r j := by
  funext a
  refine Fin.ext ?_
  match a with
  | ⟨0, _⟩ => show 256 * (r.val / 256) + 32 * ((r.val % 256) / 32) + 1 * (r.val % 32) = r.val; omega
  | ⟨1, _⟩ => show 0 + 1 * j.val = j.val; omega

/-- The result buffer at row `r`, column `j`: the sum the chunk's owner computed, at the chunk's row. -/
theorem outF_apply (c : Dev nD) (r j : Fin 512) :
    outF m ρ c (ix2 r j) = oVal m ρ (owner c (yR r)) (kR r) (ix2 (tR r) j) := by
  have h := View.write_emb_of_mem (v := (oCh (yR r) (kR r)).view) (Val := Elt F) (View.junk _)
    (oVal m ρ (owner c (yR r)) (kR r)) (M := Finset.univ) (x := ix2 (tR r) j) (Finset.mem_univ _)
  rw [oCh_emb r j] at h
  exact h

/-- A chunk of a staged block, read at the chunk's row `t`: row `256 y + 32 k + t` of the block. -/
theorem readAt_rO (y : Fin 2) (k : Fin 8) (f : (cc0_stg0_0 : Ref sig .tc).ty.Contents (Elt F)) (t : Fin 32) (j : Fin 512) :
    (xM : Memref sig .tc .vmem S512x512 .f32).view.readAt (Elt F) (rO y k).toLoadRect f (ix2 t j)
      = f (ix2 (⟨256 * y.val + 32 * k.val + t.val, by have := y.isLt; have := k.isLt; have := t.isLt; omega⟩ : Fin 512) j) := by
  show f _ = f _
  congr 1
  funext a
  refine Fin.ext ?_
  match a with
  | ⟨0, _⟩ => show 256 * y.val + 32 * k.val + 1 * t.val = 256 * y.val + 32 * k.val + t.val; omega
  | ⟨1, _⟩ => show 0 + 1 * j.val = j.val; omega

end AnyFloat

section AtIdeal
variable (m : (ℓ : Loc nD τ sig) → Buf (Elt Ideal) ℓ) (ρ : Dev nD → PrngReg)

/-- Over the extended reals the narrowing of a chunk changes no value. -/
theorem conv_ideal (v : Vec Ideal S32x512 .f32) (x : S32x512.Idx) : conv (F := Ideal) v x = v x := by
  unfold conv k0_pay1
  rw [shapeCast_self, truncf_apply, shapeCast_self]

/-- A narrowed chunk at its row `t`: the device's argument array at row `256 y + 32 k + t`. -/
theorem sVal_apply (d : Dev nD) (k : Fin 8) (t : Fin 32) (j : Fin 512) :
    sVal (F := Ideal) m ρ d k (ix2 t j)
      = m ((d : Thread nD τ).loc main_arg0) (ix2 (⟨256 * (yF d).val + 32 * k.val + t.val, by have := (yF d).isLt; have := k.isLt; have := t.isLt; omega⟩ : Fin 512) j) := by
  unfold sVal
  rw [conv_ideal, readAt_rO, xstg_eq]

/-- The chunk's owner reduces the half the chunk lies in and sits in the device's own mesh row; the mate along `x`
    reduces the same half in the other row. -/
theorem yF_owner (c : Dev nD) (y : Fin 2) : yF (owner c y) = y := by revert c y; decide
theorem owner_div (c : Dev nD) (y : Fin 2) : (owner c y).val / 2 = c.val / 2 := by revert c y; decide
theorem yF_xp (d : Dev nD) : yF (xp d) = yF d := by revert d; decide
theorem xp_div (d : Dev nD) : (xp d).val / 2 = 1 - d.val / 2 := by revert d; decide

/-- Device `c`'s block of the whole argument array: rows `512 (c / 2) …`, every column. -/
theorem blockN_x_apply {α : Type} (X : (⟨2, ![1024, 512]⟩ : Shape).Idx → α) (c : Dev nD) (r j : Fin 512) :
    (Layout.blockN ⟨2, ![512, 512]⟩ ⟨2, ![1024, 512]⟩ (Layout.meshBlock [2, 2] ![[0], []] c) X) (ix2 r j)
      = X (ix2 (⟨512 * (c.val / 2) + r.val, by have : c.val < 4 := c.isLt; omega⟩ : Fin 1024) j) := by
  rw [Layout.blockN_apply]
  congr 1
  funext a
  refine Fin.ext ?_
  have hc : Layout.meshLin [2, 2] c.val [0] = c.val / 2 := by revert c; decide
  match a with
  | ⟨0, _⟩ => show Layout.meshLin [2, 2] c.val [0] * 512 + r.val = 512 * (c.val / 2) + r.val; rw [hc]; omega
  | ⟨1, _⟩ => show 0 * 512 + j.val = j.val; omega

theorem oVal_apply (d : Dev nD) (k : Fin 8) (x : S32x512.Idx) :
    oVal (F := Ideal) m ρ d k x = sVal (F := Ideal) m ρ d k x + sVal (F := Ideal) m ρ (xp d) k x := rfl

/-- Reading the whole argument array at two rows of equal number reads the same entry. -/
theorem rows_congr {α : Type} (X : (⟨2, ![1024, 512]⟩ : Shape).Idx → α) {a b : Fin 1024} (j : Fin 512) (h : a.val = b.val) :
    X (ix2 a j) = X (ix2 b j) := by rw [Fin.ext h]

/-- Every device's result buffer at row `r`, column `j`: the two row blocks' entries there, summed. -/
theorem outF_value (X : (⟨2, ![1024, 512]⟩ : Shape).Idx → EReal)
    (hblk : ∀ c : Dev nD, m ((c : Thread nD τ).loc main_arg0)
      = Layout.blockN ⟨2, ![512, 512]⟩ ⟨2, ![1024, 512]⟩ (Layout.meshBlock [2, 2] ![[0], []] c) X)
    (c : Dev nD) (r j : Fin 512) :
    outF (F := Ideal) m ρ c (ix2 r j)
      = X (ix2 (⟨r.val, by omega⟩ : Fin 1024) j) + X (ix2 (⟨512 + r.val, by omega⟩ : Fin 1024) j) := by
  rw [outF_apply, oVal_apply, sVal_apply, sVal_apply, hblk, hblk, blockN_x_apply, blockN_x_apply]
  have hr : 256 * (yR r).val + 32 * (kR r).val + (tR r).val = r.val := by
    show 256 * (r.val / 256) + 32 * ((r.val % 256) / 32) + r.val % 32 = r.val; omega
  have hc : c.val / 2 = 0 ∨ c.val / 2 = 1 := by have : c.val < 4 := c.isLt; omega
  rcases hc with hc | hc
  · refine congr (congrArg HAdd.hAdd (rows_congr X j ?_)) (rows_congr X j ?_)
    · show 512 * ((owner c (yR r)).val / 2) + (256 * (yF (owner c (yR r))).val + 32 * (kR r).val + (tR r).val) = r.val
      rw [owner_div, yF_owner, hc]; omega
    · show 512 * ((xp (owner c (yR r))).val / 2) + (256 * (yF (xp (owner c (yR r)))).val + 32 * (kR r).val + (tR r).val) = 512 + r.val
      rw [xp_div, yF_xp, owner_div, yF_owner, hc]; omega
  · refine (congr (congrArg HAdd.hAdd (rows_congr X j ?_)) (rows_congr X j ?_)).trans (add_comm (G := EReal) _ _)
    · show 512 * ((owner c (yR r)).val / 2) + (256 * (yF (owner c (yR r))).val + 32 * (kR r).val + (tR r).val) = 512 + r.val
      rw [owner_div, yF_owner, hc]; omega
    · show 512 * ((xp (owner c (yR r))).val / 2) + (256 * (yF (xp (owner c (yR r)))).val + 32 * (kR r).val + (tR r).val) = r.val
      rw [xp_div, yF_xp, owner_div, yF_owner, hc]; omega

/-- The reference's result at row `r`, column `j`: zero plus the two row blocks' entries there. -/
theorem ref_value (X : (⟨2, ![1024, 512]⟩ : Shape).Idx → EReal) (r j : Fin 512) :
    Cert.ReferenceIdeal.Read.val_main_v2 (F := Ideal) X (ix2 r j)
      = X (ix2 (⟨r.val, by omega⟩ : Fin 1024) j) + X (ix2 (⟨512 + r.val, by omega⟩ : Fin 1024) j) := by
  rw [Cert.ReferenceIdeal.Read.val_main_v2_apply, Ideal.truncf_def, Cert.ReferenceIdeal.Read.val_main_v1_apply,
    Cert.ReferenceIdeal.Read.val_main_cst_apply, Ideal.ofBits_def, Ideal.ofBits_zero_f32, zero_add, Fin.sum_univ_two,
    Cert.ReferenceIdeal.Read.val_main_v0_apply, Cert.ReferenceIdeal.Read.val_main_v0_apply]
  congr 1
  · congr 1; funext a; refine Fin.ext ?_
    match a with
    | ⟨0, _⟩ => show ((0 * 512 + r.val) * 512 + j.val) / 512 = r.val; omega
    | ⟨1, _⟩ => show ((0 * 512 + r.val) * 512 + j.val) % 512 = j.val; omega
  · congr 1; funext a; refine Fin.ext ?_
    match a with
    | ⟨0, _⟩ => show ((1 * 512 + r.val) * 512 + j.val) / 512 = 512 + r.val; omega
    | ⟨1, _⟩ => show ((1 * 512 + r.val) * 512 + j.val) % 512 = j.val; omega

end AtIdeal

/-- From the protocol's run at the exact extended reals to the equivalence with the one-device reference: each device's
    result array is the sum of the two row blocks of `x`, which is what the reference computes. -/
theorem algebraic_of_run
    (hrun : ∀ (m : (ℓ : Loc nD τ sig) → Buf (Elt Ideal) ℓ) (ρ : Dev nD → PrngReg),
      θ_run (defs (F := Ideal)) (onTc (τ := τ) (main (F := Ideal))) (s₀ m ρ) (QC m ρ)) :
    Cert.algebraic_KernelIdeal_ReferenceIdeal := by
  intro m g m' g' _ hblk
  refine ⟨Cert.ReferenceIdeal.Read.val_main_v2 (F := Ideal)
    (m' (((0 : Dev Cert.ReferenceIdeal.nD).tc : Thread Cert.ReferenceIdeal.nD Cert.ReferenceIdeal.τ).loc Cert.ReferenceIdeal.main_arg0)), ?_, ?_⟩
  · -- the kernel: its result array is the result buffer the body left, read index by index; its argument array is untouched
    refine (θ_run (defs (F := Ideal)) _ _).mono (fun r h c => ⟨?_, (h c (0 : Fin 2)).trans (finalA_x m g c)⟩) (hrun m g)
    refine ((h c (1 : Fin 2)).trans (finalA_out m g c)).trans (funext fun i => ?_)
    obtain ⟨a, b, rfl⟩ : ∃ a b, i = ix2 a b := ⟨i 0, i 1, eq_ix2 i⟩
    rw [ref_value]
    exact outF_value m g _ hblk c a b
  · -- the reference: its generated run, the result named as the stage's value
    exact (θ_run (Cert.ReferenceIdeal.defs (F := Ideal)) _ _).mono
      (fun r h => ⟨(h 0).1.trans (Cert.ReferenceIdeal.Read.val_main_v2_eq _), (h 0).2⟩)
      (Cert.ReferenceIdeal.Value.run (F := Ideal) m' g')

/-- info: 'Cert.KernelIdeal.AR.algebraic_of_run' depends on axioms: [propext, Classical.choice, Quot.sound] -/
#guard_msgs in #print axioms algebraic_of_run

end Cert.KernelIdeal.AR
end
-- ==== Proof.lean ====
/- The all-reduce of the two row blocks of `x` over the mesh axis `x` of a 2 × 2 device mesh, against the one-device sum.

   Device `d = 2 x + y` narrows rows `256 y … 256 y + 255` of its block to a send buffer in eight chunks of 32 rows; after
   an entry handshake with both mates on the barrier semaphore each chunk is copied into the receive buffer of the mate
   along `x`, the received chunk is added to the own chunk into the result buffer, and the sum is copied into the result
   buffer of the mate along `y`, which fills the other half. Every device ends with `X (r, j) + X (512 + r, j)`, which is
   what the reference computes: the two summands meet in either order, and the reference starts its sum from zero.
   The protocol is proved once, generic in the float instance, under one round per semaphore cell: a barrier cell has two
   unit duties (one per mate, each carrying the buffer that mate will write), each of the 32 transfer cells one duty of the
   chunk's credit carrying the chunk at its contents. The frames of the word-level and of the idealized kernel are that run
   with the values dropped; the reference's frame is its run; the equivalence is the run at the extended reals read index
   by index. -/
import proofs.«900134_g7700000000000135_dist_ar_v7x_xy2x2_x_m512_n512_bf16_1_alg».proof.Defs
import proofs.«900134_g7700000000000135_dist_ar_v7x_xy2x2_x_m512_n512_bf16_1_alg».proof.Proof.Gen.Kernel
import proofs.«900134_g7700000000000135_dist_ar_v7x_xy2x2_x_m512_n512_bf16_1_alg».proof.Proof.Gen.KernelIdeal
import proofs.«900134_g7700000000000135_dist_ar_v7x_xy2x2_x_m512_n512_bf16_1_alg».proof.Proof.Gen.ReferenceIdeal
import proofs.«900134_g7700000000000135_dist_ar_v7x_xy2x2_x_m512_n512_bf16_1_alg».proof.Proof.Gen.ReferenceIdeal.Run
import proofs.«900134_g7700000000000135_dist_ar_v7x_xy2x2_x_m512_n512_bf16_1_alg».proof.Proof.Gen.Pre_finite_inputs_Kernel
import proofs.«900134_g7700000000000135_dist_ar_v7x_xy2x2_x_m512_n512_bf16_1_alg».proof.Proof.Gen.Pre_finite_inputs_ReferenceIdeal
import proofs.«900134_g7700000000000135_dist_ar_v7x_xy2x2_x_m512_n512_bf16_1_alg».proof.Proof.Body
import proofs.«900134_g7700000000000135_dist_ar_v7x_xy2x2_x_m512_n512_bf16_1_alg».proof.Proof.Bits.Body
import proofs.«900134_g7700000000000135_dist_ar_v7x_xy2x2_x_m512_n512_bf16_1_alg».proof.Proof.Value
import Idealize.ShloMosaic.Adequacy
import Idealize.ShloMosaic.Init

noncomputable section

namespace Cert.Proof

open Idealize.ShloMosaic Idealize.SL.Sem

theorem frame_Kernel : Cert.frame_Kernel := fun m ρ _ =>
  (θ_run (Cert.Kernel.defs (F := Bits)) _ _).mono
    (fun r h c => ((h c (0 : Fin 2)).trans (Cert.Kernel.AR.finalA_x (F := Bits) m ρ c)))
    (Cert.Kernel.AR.run (F := Bits) m ρ)

theorem frame_KernelIdeal : Cert.frame_KernelIdeal := fun m ρ _ =>
  (θ_run (Cert.KernelIdeal.defs (F := Ideal)) _ _).mono
    (fun r h c => ((h c (0 : Fin 2)).trans (Cert.KernelIdeal.AR.finalA_x (F := Ideal) m ρ c)))
    (Cert.KernelIdeal.AR.run (F := Ideal) m ρ)

theorem frame_ReferenceIdeal : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal :=
  Cert.KernelIdeal.AR.algebraic_of_run (fun m ρ => Cert.KernelIdeal.AR.run (F := Ideal) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

end Cert.Proof

end
